-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v49)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x768 : Shape := ⟨2, ![65536, 768]⟩
abbrev S4x768 : Shape := ⟨2, ![4, 768]⟩
abbrev S4x2 : Shape := ⟨2, ![4, 2]⟩
abbrev S4 : Shape := ⟨1, ![4]⟩
abbrev S65536 : Shape := ⟨1, ![65536]⟩
abbrev S_ : Shape := ⟨0, ![]⟩

class Facts : Prop where
  bcast_S_S65536x768 : S_.BroadcastsInDim S65536x768 (![] : Fin 0 → Fin S65536x768.rank)
  reducesTo_S65536x768_S_d0_1 : S65536x768.ReducesTo [0, 1] S_
  h_S_ : 0 < S_.numel
  bcast_S_S4x768 : S_.BroadcastsInDim S4x768 (![] : Fin 0 → Fin S4x768.rank)
  reducesTo_S4x768_S_d0_1 : S4x768.ReducesTo [0, 1] S_
  bcast_S_S4x2 : S_.BroadcastsInDim S4x2 (![] : Fin 0 → Fin S4x2.rank)
  reducesTo_S4x2_S_d0_1 : S4x2.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_arg5 : IVec S65536 32) (main_v13 : IVec S_ 1) (main_v16 : IVec S4x2 1) : IVec S_ 1 :=
  let main_c_5 : IVec S_ 1 := constantI S_ 1 1#1
  let main_v17 : IVec S_ 1 := (fun x v => Host.reduce IntOp.andi x v reducesTo_S4x2_S_d0_1 h_S_) main_v16 main_c_5
  let main_v18 : IVec S_ 1 := andi main_v13 main_v17
  let main_c_6 : IVec S_ 32 := constantI S_ 32 0#32
  let main_v19 : IVec S65536 32 := broadcastInDim S65536 ![] bcast_S_S65536 main_c_6
  let main_v20 : IVec S65536 1 := cmpi .sge main_arg5 main_v19
  let main_c_7 : IVec S_ 32 := constantI S_ 32 4#32
  let main_v21 : IVec S65536 32 := broadcastInDim S65536 ![] bcast_S_S65536 main_c_7
  let main_v22 : IVec S65536 1 := cmpi .slt main_arg5 main_v21
  let main_v23 : IVec S65536 1 := andi main_v20 main_v22
  let main_c_8 : IVec S_ 1 := constantI S_ 1 1#1
  let main_v24 : IVec S_ 1 := (fun x v => Host.reduce IntOp.andi x v reducesTo_S65536_S_d0 h_S_) main_v23 main_c_8
  let main_v25 : IVec S_ 1 := andi main_v18 main_v24
  main_v25

def fn {F : FTy → Type} [FloatOps F] (main_arg0 : FVec F S65536x768 .f32) (main_arg1 : FVec F S4x768 .f32) (main_arg2 : FVec F S4x768 .f32) (main_arg3 : FVec F S4x2 .f32) (main_arg4 : IVec S4 32) (main_arg5 : IVec S65536 32) : IVec S_ 1 :=
  let main_v0 : FVec F S65536x768 .f32 := Host.absf main_arg0
  let main_cst : FVec F S_ .f32 := constant S_ .f32 0x7F800000#32
  let main_v1 : FVec F S65536x768 .f32 := broadcastInDim S65536x768 ![] bcast_S_S65536x768 main_cst
  let main_v2 : IVec S65536x768 1 := cmpf .olt main_v0 main_v1
  let main_c : IVec S_ 1 := constantI S_ 1 1#1
  let main_v3 : IVec S_ 1 := (fun x v => Host.reduce IntOp.andi x v reducesTo_S65536x768_S_d0_1 h_S_) main_v2 main_c
  let main_v4 : FVec F S4x768 .f32 := Host.absf main_arg1
  let main_cst_0 : FVec F S_ .f32 := constant S_ .f32 0x7F800000#32
  let main_v5 : FVec F S4x768 .f32 := broadcastInDim S4x768 ![] bcast_S_S4x768 main_cst_0
  let main_v6 : IVec S4x768 1 := cmpf .olt main_v4 main_v5
  let main_c_1 : IVec S_ 1 := constantI S_ 1 1#1
  let main_v7 : IVec S_ 1 := (fun x v => Host.reduce IntOp.andi x v reducesTo_S4x768_S_d0_1 h_S_) main_v6 main_c_1
  let main_v8 : IVec S_ 1 := andi main_v3 main_v7
  let main_v9 : FVec F S4x768 .f32 := Host.absf main_arg2
  let main_cst_2 : FVec F S_ .f32 := constant S_ .f32 0x7F800000#32
  let main_v10 : FVec F S4x768 .f32 := broadcastInDim S4x768 ![] bcast_S_S4x768 main_cst_2
  let main_v11 : IVec S4x768 1 := cmpf .olt main_v9 main_v10
  let main_c_3 : IVec S_ 1 := constantI S_ 1 1#1
  let main_v12 : IVec S_ 1 := (fun x v => Host.reduce IntOp.andi x v reducesTo_S4x768_S_d0_1 h_S_) main_v11 main_c_3
  let main_v13 : IVec S_ 1 := andi main_v8 main_v12
  let main_v14 : FVec F S4x2 .f32 := Host.absf main_arg3
  let main_cst_4 : FVec F S_ .f32 := constant S_ .f32 0x7F800000#32
  let main_v15 : FVec F S4x2 .f32 := broadcastInDim S4x2 ![] bcast_S_S4x2 main_cst_4
  let main_v16 : IVec S4x2 1 := cmpf .olt main_v14 main_v15
  fn_part1 (F := F) main_arg5 main_v13 main_v16
-- ==== Kernel.lean ====
abbrev S65536x768 : Shape := ⟨2, ![65536, 768]⟩
abbrev S4x768 : Shape := ⟨2, ![4, 768]⟩
abbrev S4x2 : Shape := ⟨2, ![4, 2]⟩
abbrev S4 : Shape := ⟨1, ![4]⟩
abbrev S65536 : Shape := ⟨1, ![65536]⟩
abbrev S65536x1 : Shape := ⟨2, ![65536, 1]⟩
abbrev S32x1x128 : Shape := ⟨3, ![32, 1, 128]⟩
abbrev S2048x768 : Shape := ⟨2, ![2048, 768]⟩
abbrev S2048x1 : Shape := ⟨2, ![2048, 1]⟩
abbrev S1x1x128 : Shape := ⟨3, ![1, 1, 128]⟩
abbrev S2048 : Shape := ⟨1, ![2048]⟩
abbrev S1x768 : Shape := ⟨2, ![1, 768]⟩
abbrev S768 : Shape := ⟨1, ![768]⟩
abbrev S1 : Shape := ⟨1, ![1]⟩
abbrev S1x1 : Shape := ⟨2, ![1, 1]⟩
abbrev S1x4 : Shape := ⟨2, ![1, 4]⟩
abbrev S1x116 : Shape := ⟨2, ![1, 116]⟩
abbrev S1x128 : Shape := ⟨2, ![1, 128]⟩
abbrev S32x1x12 : Shape := ⟨3, ![32, 1, 12]⟩
abbrev S32x12 : Shape := ⟨2, ![32, 12]⟩
abbrev S_ : Shape := ⟨0, ![]⟩
abbrev S12 : Shape := ⟨1, ![12]⟩
abbrev S3x4 : Shape := ⟨2, ![3, 4]⟩
abbrev S4x1 : Shape := ⟨2, ![4, 1]⟩

abbrev nBuf : Space → Nat
  | .hbm => 67
  | .vmem => 10
  | .smem => 0
  | _ => 0

abbrev bufTy : (tb : Table) → Fin (tcTables nBuf tb) → BufTy
  | .hbm, ⟨0, _⟩ => ⟨S65536x768, .f32⟩
  | .hbm, ⟨1, _⟩ => ⟨S4x768, .f32⟩
  | .hbm, ⟨2, _⟩ => ⟨S4x768, .f32⟩
  | .hbm, ⟨3, _⟩ => ⟨S4x2, .f32⟩
  | .hbm, ⟨4, _⟩ => ⟨S4, .i32⟩
  | .hbm, ⟨5, _⟩ => ⟨S65536, .i32⟩
  | .hbm, ⟨6, _⟩ => ⟨S65536x1, .i32⟩
  | .hbm, ⟨7, _⟩ => ⟨S65536x768, .f32⟩
  | .hbm, ⟨8, _⟩ => ⟨S32x1x128, .f32⟩
  | .hbm, ⟨9, _⟩ => ⟨S32x1x12, .f32⟩
  | .hbm, ⟨10, _⟩ => ⟨S32x12, .f32⟩
  | .hbm, ⟨11, _⟩ => ⟨S_, .f32⟩
  | .hbm, ⟨12, _⟩ => ⟨S12, .f32⟩
  | .hbm, ⟨13, _⟩ => ⟨S3x4, .f32⟩
  | .hbm, ⟨14, _⟩ => ⟨S1x4, .f32⟩
  | .hbm, ⟨15, _⟩ => ⟨S4, .f32⟩
  | .hbm, ⟨16, _⟩ => ⟨S1x4, .f32⟩
  | .hbm, ⟨17, _⟩ => ⟨S4, .f32⟩
  | .hbm, ⟨18, _⟩ => ⟨S1x4, .f32⟩
  | .hbm, ⟨19, _⟩ => ⟨S4, .f32⟩
  | .hbm, ⟨20, _⟩ => ⟨S4, .f32⟩
  | .hbm, ⟨21, _⟩ => ⟨S4, .i32⟩
  | .hbm, ⟨22, _⟩ => ⟨S4, .i32⟩
  | .hbm, ⟨23, _⟩ => ⟨S_, .i32⟩
  | .hbm, ⟨24, _⟩ => ⟨S4, .i32⟩
  | .hbm, ⟨25, _⟩ => ⟨S4, .i1⟩
  | .hbm, ⟨26, _⟩ => ⟨S4, .f32⟩
  | .hbm, ⟨27, _⟩ => ⟨S_, .i32⟩
  | .hbm, ⟨28, _⟩ => ⟨S4, .i32⟩
  | .hbm, ⟨29, _⟩ => ⟨S4, .i32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S4, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S4, .f32⟩
  | .hbm, ⟨43, _⟩ => ⟨S4x1, .f32⟩
  | .hbm, ⟨44, _⟩ => ⟨S4, .f32⟩
  | .hbm, ⟨45, _⟩ => ⟨S_, .f32⟩
  | .hbm, ⟨46, _⟩ => ⟨S4, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S4x1, .f32⟩
  | .hbm, ⟨51, _⟩ => ⟨S4, .f32⟩
  | .hbm, ⟨52, _⟩ => ⟨S4, .f32⟩
  | .hbm, ⟨53, _⟩ => ⟨S4, .f32⟩
  | .hbm, ⟨54, _⟩ => ⟨S4x1, .f32⟩
  | .hbm, ⟨55, _⟩ => ⟨S4, .f32⟩
  | .hbm, ⟨56, _⟩ => ⟨S_, .f32⟩
  | .hbm, ⟨57, _⟩ => ⟨S4, .f32⟩
  | .hbm, ⟨58, _⟩ => ⟨S4, .f32⟩
  | .hbm, ⟨59, _⟩ => ⟨S4, .f32⟩
  | .hbm, ⟨60, _⟩ => ⟨S4, .f32⟩
  | .hbm, ⟨61, _⟩ => ⟨S4x1, .f32⟩
  | .hbm, ⟨62, _⟩ => ⟨S4, .f32⟩
  | .hbm, ⟨63, _⟩ => ⟨S4, .f32⟩
  | .hbm, ⟨64, _⟩ => ⟨S4x1, .f32⟩
  | .hbm, ⟨65, _⟩ => ⟨S4x1, .f32⟩
  | .hbm, ⟨66, _⟩ => ⟨S4x2, .f32⟩
  | .local _ .vmem, ⟨0, _⟩ => ⟨S2048x768, .f32⟩
  | .local _ .vmem, ⟨1, _⟩ => ⟨S2048x768, .f32⟩
  | .local _ .vmem, ⟨2, _⟩ => ⟨S2048x1, .i32⟩
  | .local _ .vmem, ⟨3, _⟩ => ⟨S2048x1, .i32⟩
  | .local _ .vmem, ⟨4, _⟩ => ⟨S4x768, .f32⟩
  | .local _ .vmem, ⟨5, _⟩ => ⟨S4x768, .f32⟩
  | .local _ .vmem, ⟨6, _⟩ => ⟨S2048x768, .f32⟩
  | .local _ .vmem, ⟨7, _⟩ => ⟨S2048x768, .f32⟩
  | .local _ .vmem, ⟨8, _⟩ => ⟨S1x1x128, .f32⟩
  | .local _ .vmem, ⟨9, _⟩ => ⟨S1x1x128, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_call1_v0 : Ref sig .tc := ⟨.hbm, 33, rfl⟩
abbrev main_call1_v1 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S65536_S65536x1 : S65536.ShapeCasts S65536x1
  inb_S2048x768_S2048x768_0_0 : ∀ a, (![0, 0] : Fin 2 → Nat) a + S2048x768.size a ≤ S2048x768.size a
  h_S2048x768 : 0 < S2048x768.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  reduces_S2048x768_S2048 : S2048x768.Reduces [1] S2048
  shapeCasts_S2048_S2048x1 : S2048.ShapeCasts S2048x1
  broadcasts_S2048x1_S2048x768 : S2048x1.Broadcasts S2048x768
  natLt_1_32 : 1 < 32
  inb_S4x768_S1x768_0_0 : ∀ a, (![0, 0] : Fin 2 → Nat) a + S1x768.size a ≤ S4x768.size a
  h_S1x768 : 0 < S1x768.numel
  shapeCasts_S1x768_S768 : S1x768.ShapeCasts S768
  shapeCasts_S768_S1x768 : S768.ShapeCasts S1x768
  broadcasts_S1x768_S2048x768 : S1x768.Broadcasts S2048x768
  reduces_S2048x1_S1 : S2048x1.Reduces [0] S1
  shapeCasts_S1_S1x1 : S1.ShapeCasts S1x1
  inb_S4x768_S1x768_1_0 : ∀ a, (![1, 0] : Fin 2 → Nat) a + S1x768.size a ≤ S4x768.size a
  inb_S4x768_S1x768_2_0 : ∀ a, (![2, 0] : Fin 2 → Nat) a + S1x768.size a ≤ S4x768.size a
  inb_S4x768_S1x768_3_0 : ∀ a, (![3, 0] : Fin 2 → Nat) a + S1x768.size a ≤ S4x768.size a
  concatenates_S1x1_S1x1_S1x1_S1x1_S1x4_d1 : Shape.Concatenates [S1x1, S1x1, S1x1, S1x1] S1x4 1
  concatenates_S1x4_S1x4_S1x4_S1x116_S1x128_d1 : Shape.Concatenates [S1x4, S1x4, S1x4, S1x116] S1x128 1
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  slices_S32x1x128_S32x1x12_0_0_0 : S32x1x128.Slices ![0, 0, 0] S32x1x12
  shapeCasts_S32x1x12_S32x12 : S32x1x12.ShapeCasts S32x12
  reducesTo_S32x12_S12_d0 : S32x12.ReducesTo [0] S12
  h_S_ : 0 < S_.numel
  shapeCasts_S12_S3x4 : S12.ShapeCasts S3x4
  slices_S3x4_S1x4_0_0 : S3x4.Slices ![0, 0] S1x4
  shapeCasts_S1x4_S4 : S1x4.ShapeCasts S4
  slices_S3x4_S1x4_1_0 : S3x4.Slices ![1, 0] S1x4
  slices_S3x4_S1x4_2_0 : S3x4.Slices ![2, 0] S1x4
  bcast_S_S4 : S_.BroadcastsInDim S4 (![] : Fin 0 → Fin S4.rank)
  slices_S4x2_S4x1_0_0 : S4x2.Slices ![0, 0] S4x1
  shapeCasts_S4x1_S4 : S4x1.ShapeCasts S4
  slices_S4x2_S4x1_0_1 : S4x2.Slices ![0, 1] S4x1
  bcast_S4_S4x1_0 : S4.BroadcastsInDim S4x1 (![0] : Fin 1 → Fin S4x1.rank)
  concatenates_S4x1_S4x1_S4x2_d1 : Shape.Concatenates [S4x1, S4x1] S4x2 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S65536x768.size a
  hwx0_0 : ∀ i : grid0.Coords, EltTy.bits .f32 = 32 ∨ (Rect.block (s := S65536x768) S2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S65536x1.size a
  hwx0_1 : ∀ i : grid0.Coords, EltTy.bits .i32 = 32 ∨ (Rect.block (s := S65536x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x768.size a ≤ S4x768.size a
  hwx0_2 : ∀ i : grid0.Coords, EltTy.bits .f32 = 32 ∨ (Rect.block (s := S4x768) S4x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x768.size a ≤ S4x768.size a
  hwx0_3 : ∀ i : grid0.Coords, EltTy.bits .f32 = 32 ∨ (Rect.block (s := S4x768) S4x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x768.size a ≤ S65536x768.size a
  hwx0_4 : ∀ i : grid0.Coords, EltTy.bits .f32 = 32 ∨ (Rect.block (s := S65536x768) S2048x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S32x1x128.size a
  hwx0_5 : ∀ i : grid0.Coords, EltTy.bits .f32 = 32 ∨ (Rect.block (s := S32x1x128) S1x1x128.size (cc0_transform_5 i) (hinb0_5 i)).WholeWords (EltTy.packing .f32)

variable [Facts₀]

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S2048x768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x768 : Shape := ⟨2, ![65536, 768]⟩
abbrev S4x768 : Shape := ⟨2, ![4, 768]⟩
abbrev S4x2 : Shape := ⟨2, ![4, 2]⟩
abbrev S4 : Shape := ⟨1, ![4]⟩
abbrev S65536 : Shape := ⟨1, ![65536]⟩
abbrev S_ : Shape := ⟨0, ![]⟩
abbrev S65536x1 : Shape := ⟨2, ![65536, 1]⟩
abbrev S4x1 : Shape := ⟨2, ![4, 1]⟩

abbrev nBuf : Space → Nat
  | .hbm => 108
  | .vmem => 0
  | .smem => 0
  | _ => 0

abbrev bufTy : (tb : Table) → Fin (tcTables nBuf tb) → BufTy
  | .hbm, ⟨0, _⟩ => ⟨S65536x768, .f32⟩
  | .hbm, ⟨1, _⟩ => ⟨S4x768, .f32⟩
  | .hbm, ⟨2, _⟩ => ⟨S4x768, .f32⟩
  | .hbm, ⟨3, _⟩ => ⟨S4x2, .f32⟩
  | .hbm, ⟨4, _⟩ => ⟨S4, .i32⟩
  | .hbm, ⟨5, _⟩ => ⟨S65536, .i32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S65536x768, .f32⟩
  | .hbm, ⟨13, _⟩ => ⟨S65536x768, .f32⟩
  | .hbm, ⟨14, _⟩ => ⟨S65536x768, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S65536x1, .f32⟩
  | .hbm, ⟨25, _⟩ => ⟨S65536x768, .f32⟩
  | .hbm, ⟨26, _⟩ => ⟨S65536x768, .f32⟩
  | .hbm, ⟨27, _⟩ => ⟨S_, .i32⟩
  | .hbm, ⟨28, _⟩ => ⟨S65536, .i32⟩
  | .hbm, ⟨29, _⟩ => ⟨S_, .i32⟩
  | .hbm, ⟨30, _⟩ => ⟨S4, .i32⟩
  | .hbm, ⟨31, _⟩ => ⟨S65536x1, .i32⟩
  | .hbm, ⟨32, _⟩ => ⟨S4, .i32⟩
  | .hbm, ⟨33, _⟩ => ⟨S4, .i32⟩
  | .hbm, ⟨34, _⟩ => ⟨S_, .i32⟩
  | .hbm, ⟨35, _⟩ => ⟨S4, .i32⟩
  | .hbm, ⟨36, _⟩ => ⟨S4, .i1⟩
  | .hbm, ⟨37, _⟩ => ⟨S4, .f32⟩
  | .hbm, ⟨38, _⟩ => ⟨S_, .i32⟩
  | .hbm, ⟨39, _⟩ => ⟨S4, .i32⟩
  | .hbm, ⟨40, _⟩ => ⟨S4, .i32⟩
  | .hbm, ⟨41, _⟩ => ⟨S4, .f32⟩
  | .hbm, ⟨42, _⟩ => ⟨S4, .f32⟩
  | .hbm, ⟨43, _⟩ => ⟨S_, .f32⟩
  | .hbm, ⟨44, _⟩ => ⟨S_, .f32⟩
  | .hbm, ⟨45, _⟩ => ⟨S4, .f32⟩
  | .hbm, ⟨46, _⟩ => ⟨S4, .f32⟩
  | .hbm, ⟨47, _⟩ => ⟨S65536, .f32⟩
  | .hbm, ⟨48, _⟩ => ⟨S_, .f32⟩
  | .hbm, ⟨49, _⟩ => ⟨S4, .f32⟩
  | .hbm, ⟨50, _⟩ => ⟨S65536x1, .i32⟩
  | .hbm, ⟨51, _⟩ => ⟨S4, .f32⟩
  | .hbm, ⟨52, _⟩ => ⟨S_, .f32⟩
  | .hbm, ⟨53, _⟩ => ⟨S4, .f32⟩
  | .hbm, ⟨54, _⟩ => ⟨S4, .f32⟩
  | .hbm, ⟨55, _⟩ => ⟨S65536, .f32⟩
  | .hbm, ⟨56, _⟩ => ⟨S_, .f32⟩
  | .hbm, ⟨57, _⟩ => ⟨S4, .f32⟩
  | .hbm, ⟨58, _⟩ => ⟨S65536x1, .i32⟩
  | .hbm, ⟨59, _⟩ => ⟨S4, .f32⟩
  | .hbm, ⟨60, _⟩ => ⟨S_, .f32⟩
  | .hbm, ⟨61, _⟩ => ⟨S4, .f32⟩
  | .hbm, ⟨62, _⟩ => ⟨S4, .f32⟩
  | .hbm, ⟨63, _⟩ => ⟨S4, .f32⟩
  | .hbm, ⟨64, _⟩ => ⟨S4x1, .f32⟩
  | .hbm, ⟨65, _⟩ => ⟨S4, .f32⟩
  | .hbm, ⟨66, _⟩ => ⟨S_, .f32⟩
  | .hbm, ⟨67, _⟩ => ⟨S4, .f32⟩
  | .hbm, ⟨68, _⟩ => ⟨S4, .f32⟩
  | .hbm, ⟨69, _⟩ => ⟨S4, .f32⟩
  | .hbm, ⟨70, _⟩ => ⟨S4, .f32⟩
  | .hbm, ⟨71, _⟩ => ⟨S4x1, .f32⟩
  | .hbm, ⟨72, _⟩ => ⟨S4, .f32⟩
  | .hbm, ⟨73, _⟩ => ⟨S4, .f32⟩
  | .hbm, ⟨74, _⟩ => ⟨S4, .f32⟩
  | .hbm, ⟨75, _⟩ => ⟨S4x1, .f32⟩
  | .hbm, ⟨76, _⟩ => ⟨S4, .f32⟩
  | .hbm, ⟨77, _⟩ => ⟨S_, .f32⟩
  | .hbm, ⟨78, _⟩ => ⟨S4, .f32⟩
  | .hbm, ⟨79, _⟩ => ⟨S4, .f32⟩
  | .hbm, ⟨80, _⟩ => ⟨S4, .f32⟩
  | .hbm, ⟨81, _⟩ => ⟨S4, .f32⟩
  | .hbm, ⟨82, _⟩ => ⟨S4x1, .f32⟩
  | .hbm, ⟨83, _⟩ => ⟨S4, .f32⟩
  | .hbm, ⟨84, _⟩ => ⟨S4, .f32⟩
  | .hbm, ⟨85, _⟩ => ⟨S4x1, .f32⟩
  | .hbm, ⟨86, _⟩ => ⟨S4x1, .f32⟩
  | .hbm, ⟨87, _⟩ => ⟨S4x2, .f32⟩
  | .hbm, ⟨88, _⟩ => ⟨S_, .i32⟩
  | .hbm, ⟨89, _⟩ => ⟨S65536, .i32⟩
  | .hbm, ⟨90, _⟩ => ⟨S65536, .i1⟩
  | .hbm, ⟨91, _⟩ => ⟨S_, .i32⟩
  | .hbm, ⟨92, _⟩ => ⟨S65536, .i32⟩
  | .hbm, ⟨93, _⟩ => ⟨S65536, .i32⟩
  | .hbm, ⟨94, _⟩ => ⟨S65536, .i32⟩
  | .hbm, ⟨95, _⟩ => ⟨S65536x1, .i32⟩
  | .hbm, ⟨96, _⟩ => ⟨S65536x768, .f32⟩
  | .hbm, ⟨97, _⟩ => ⟨S65536x768, .f32⟩
  | .hbm, ⟨98, _⟩ => ⟨S_, .i32⟩
  | .hbm, ⟨99, _⟩ => ⟨S65536, .i32⟩
  | .hbm, ⟨100, _⟩ => ⟨S65536, .i1⟩
  | .hbm, ⟨101, _⟩ => ⟨S_, .i32⟩
  | .hbm, ⟨102, _⟩ => ⟨S65536, .i32⟩
  | .hbm, ⟨103, _⟩ => ⟨S65536, .i32⟩
  | .hbm, ⟨104, _⟩ => ⟨S65536, .i32⟩
  | .hbm, ⟨105, _⟩ => ⟨S65536x1, .i32⟩
  | .hbm, ⟨106, _⟩ => ⟨S65536x768, .f32⟩
  | .hbm, ⟨107, _⟩ => ⟨S65536x768, .f32⟩
  | _, _ => ⟨S65536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_call0_v0 : Ref sig .tc := ⟨.hbm, 44, rfl⟩
abbrev main_call0_v1 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_12 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_c_15 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_16 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  reducesTo_S65536x768_S65536_d1 : S65536x768.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x768_0_1 : S65536x1.BroadcastsInDim S65536x768 (![0, 1] : Fin 2 → Fin S65536x768.rank)
  bcast_S_S65536 : S_.BroadcastsInDim S65536 (![] : Fin 0 → Fin S65536.rank)
  bcast_S_S4 : S_.BroadcastsInDim S4 (![] : Fin 0 → Fin S4.rank)
  shapeCasts_S65536x1_S65536 : S65536x1.ShapeCasts S65536
  slices_S4x2_S4x1_0_0 : S4x2.Slices ![0, 0] S4x1
  shapeCasts_S4x1_S4 : S4x1.ShapeCasts S4
  slices_S4x2_S4x1_0_1 : S4x2.Slices ![0, 1] S4x1
  bcast_S4_S4x1_0 : S4.BroadcastsInDim S4x1 (![0] : Fin 1 → Fin S4x1.rank)
  concatenates_S4x1_S4x1_S4x2_d1 : Shape.Concatenates [S4x1, S4x1] S4x2 1
  scatter_S4_S65536x1_S65536_n_0_0_1_wf : ScatterDims.WF S4 S65536x1 S65536 [] [0] [0] 1
  gather_S4x768_S65536x1_S65536x768_1_0_n_n_0_1_1768_wf : GatherDims.WF S4x768 S65536x1 S65536x768 [1] [0] [] [0] [] 1 ![1, 768]

variable [Facts₀]

def scatter_S4_S65536x1_S65536_n_0_0_1 : ScatterDims S4 S65536x1 S65536 where
  updateWindowDims := []
  insertedWindowDims := [0]
  scatterDimsToOperandDims := [0]
  indexVectorDim := 1
  wf := scatter_S4_S65536x1_S65536_n_0_0_1_wf
def gather_S4x768_S65536x1_S65536x768_1_0_n_n_0_1_1768 : GatherDims S4x768 S65536x1 S65536x768 where
  offsetDims := [1]
  collapsedSliceDims := [0]
  operandBatchingDims := []
  startIndicesBatchingDims := []
  startIndexMap := [0]
  indexVectorDim := 1
  sliceSizes := ![1, 768]
  wf := gather_S4x768_S65536x1_S65536x768_1_0_n_n_0_1_1768_wf

class Facts : Prop extends Facts₀ where

variable [Facts]
-- ==== Proof.Spec.lean ====
/-
  Layer normalisation of rows of 768 features, each row then sent through the affine map of its bucket (one of four),
  together with per-bucket totals: how many rows fall in a bucket, and the sums of those rows' means and variances.

  Everything is stated for an array of N rows, so that the same functions describe one tile of 2048 rows and the whole
  array of 65536 rows; a tile's functions are the array's at the tile's rows (the `_congr` lemmas).
-/
import Idealize.ShloMosaic.PureOps.Ideal
import Idealize.ShloMosaic.Lib.ValueIdx
import Mathlib.Algebra.BigOperators.Group.Finset.Basic

noncomputable section

namespace Cert.Spec

open Idealize.ShloMosaic Idealize.ShloMosaic.ValueIdx

/-- The divisor 768 and the offset 1e-5, as both programs write them. -/
abbrev c768 : EReal := Ideal.ofBits .f32 0x44400000#32
abbrev eps : EReal := Ideal.ofBits .f32 0x3727C5AC#32

section Rows
variable {N : ℕ}

/-- The mean of row i. -/
def mean (x : FVec Ideal ⟨2, ![N, 768]⟩ .f32) (i : Fin N) : EReal :=
  Ideal.div (∑ k : Fin 768, x (ix2 i k)) c768

/-- Entry (i, k) less its row's mean. -/
def dev (x : FVec Ideal ⟨2, ![N, 768]⟩ .f32) (i : Fin N) (k : Fin 768) : EReal :=
  x (ix2 i k) - mean x i

/-- The variance of row i: the mean of the squared deviations. -/
def var (x : FVec Ideal ⟨2, ![N, 768]⟩ .f32) (i : Fin N) : EReal :=
  Ideal.div (∑ k : Fin 768, dev x i k * dev x i k) c768

/-- 1 when row i carries bucket number j, else 0. The number is read as a signed integer. -/
def ind (bucket : Fin N → BitVec 32) (i : Fin N) (j : Fin 4) : EReal :=
  if (bucket i).toInt = (j.val : ℤ) then 1 else 0

/-- Bucket j's affine map applied to the normalised entry (i, k), the normalisation written as a product with the
    inverse square root. -/
def affine (x : FVec Ideal ⟨2, ![N, 768]⟩ .f32) (w b : FVec Ideal ⟨2, ![4, 768]⟩ .f32) (i : Fin N) (k : Fin 768)
    (j : Fin 4) : EReal :=
  dev x i k * Ideal.rsqrt (var x i + eps) * w (ix2 j k) + b (ix2 j k)

/-- The masked form of the output at (i, k): the four buckets' affine maps, each times its indicator, added up from
    zero in the order 0, 1, 2, 3. -/
def maskedAt (x : FVec Ideal ⟨2, ![N, 768]⟩ .f32) (w b : FVec Ideal ⟨2, ![4, 768]⟩ .f32) (bucket : Fin N → BitVec 32)
    (i : Fin N) (k : Fin 768) : EReal :=
  0 + ind bucket i 0 * affine x w b i k 0 + ind bucket i 1 * affine x w b i k 1
    + ind bucket i 2 * affine x w b i k 2 + ind bucket i 3 * affine x w b i k 3

/-- The masked form as an array. -/
def masked (x : FVec Ideal ⟨2, ![N, 768]⟩ .f32) (w b : FVec Ideal ⟨2, ![4, 768]⟩ .f32) (bucket : Fin N → BitVec 32) :
    FVec Ideal ⟨2, ![N, 768]⟩ .f32 :=
  fun y => maskedAt x w b bucket (y 0) (y 1)

theorem masked_apply (x : FVec Ideal ⟨2, ![N, 768]⟩ .f32) (w b : FVec Ideal ⟨2, ![4, 768]⟩ .f32)
    (bucket : Fin N → BitVec 32) (i : Fin N) (k : Fin 768) :
    masked x w b bucket (ix2 i k) = maskedAt x w b bucket i k := rfl

/-- A bucket number as an index into the four rows of a table: a negative number is first raised by 4, and the
    result is clamped into 0 … 3. -/
def tableRow (v : BitVec 32) : Fin 4 :=
  ⟨min (if v.toInt < 0 then v + 4#32 else v).toInt.toNat 3, by omega⟩

/-- The gathered form of the output at (i, k): the normalisation written as a quotient by the square root, and the
    affine map read from the table rows the bucket number selects. -/
def gatheredAt (x : FVec Ideal ⟨2, ![N, 768]⟩ .f32) (w b : FVec Ideal ⟨2, ![4, 768]⟩ .f32) (bucket : Fin N → BitVec 32)
    (i : Fin N) (k : Fin 768) : EReal :=
  Ideal.div (dev x i k) (Ideal.sqrt (var x i + eps)) * w (ix2 (tableRow (bucket i)) k) + b (ix2 (tableRow (bucket i)) k)

/-- The gathered form as an array. -/
def gathered (x : FVec Ideal ⟨2, ![N, 768]⟩ .f32) (w b : FVec Ideal ⟨2, ![4, 768]⟩ .f32) (bucket : Fin N → BitVec 32) :
    FVec Ideal ⟨2, ![N, 768]⟩ .f32 :=
  fun y => gatheredAt x w b bucket (y 0) (y 1)

theorem gathered_apply (x : FVec Ideal ⟨2, ![N, 768]⟩ .f32) (w b : FVec Ideal ⟨2, ![4, 768]⟩ .f32)
    (bucket : Fin N → BitVec 32) (i : Fin N) (k : Fin 768) :
    gathered x w b bucket (ix2 i k) = gatheredAt x w b bucket i k := rfl

/-- One tile's row of totals at lane l: lanes 0 … 3 the number of the tile's rows in bucket l, lanes 4 … 7 the sum of
    their means, lanes 8 … 11 the sum of their variances, every other lane zero. -/
def tileLane (x : FVec Ideal ⟨2, ![N, 768]⟩ .f32) (bucket : Fin N → BitVec 32) (l : Fin 128) : EReal :=
  if h : l.val < 4 then ∑ r : Fin N, ind bucket r ⟨l.val, h⟩
  else if h8 : l.val < 8 then ∑ r : Fin N, ind bucket r ⟨l.val - 4, by omega⟩ * mean x r
  else if h12 : l.val < 12 then ∑ r : Fin N, ind bucket r ⟨l.val - 8, by omega⟩ * var x r
  else 0

/-! ### A tile's functions are the array's at the tile's rows -/

variable {M : ℕ}

theorem mean_congr {x : FVec Ideal ⟨2, ![N, 768]⟩ .f32} {x' : FVec Ideal ⟨2, ![M, 768]⟩ .f32} {i : Fin N} {i' : Fin M}
    (h : ∀ k, x (ix2 i k) = x' (ix2 i' k)) : mean x i = mean x' i' := by
  unfold mean; simp only [h]

theorem dev_congr {x : FVec Ideal ⟨2, ![N, 768]⟩ .f32} {x' : FVec Ideal ⟨2, ![M, 768]⟩ .f32} {i : Fin N} {i' : Fin M}
    (h : ∀ k, x (ix2 i k) = x' (ix2 i' k)) (k : Fin 768) : dev x i k = dev x' i' k := by
  unfold dev; rw [h k, mean_congr h]

theorem var_congr {x : FVec Ideal ⟨2, ![N, 768]⟩ .f32} {x' : FVec Ideal ⟨2, ![M, 768]⟩ .f32} {i : Fin N} {i' : Fin M}
    (h : ∀ k, x (ix2 i k) = x' (ix2 i' k)) : var x i = var x' i' := by
  unfold var; simp only [dev_congr h]

theorem ind_congr {bucket : Fin N → BitVec 32} {bucket' : Fin M → BitVec 32} {i : Fin N} {i' : Fin M}
    (h : bucket i = bucket' i') (j : Fin 4) : ind bucket i j = ind bucket' i' j := by
  unfold ind; rw [h]

theorem maskedAt_congr {x : FVec Ideal ⟨2, ![N, 768]⟩ .f32} {x' : FVec Ideal ⟨2, ![M, 768]⟩ .f32}
    (w b : FVec Ideal ⟨2, ![4, 768]⟩ .f32) {bucket : Fin N → BitVec 32} {bucket' : Fin M → BitVec 32}
    {i : Fin N} {i' : Fin M} (h : ∀ k, x (ix2 i k) = x' (ix2 i' k)) (hb : bucket i = bucket' i') (k : Fin 768) :
    maskedAt x w b bucket i k = maskedAt x' w b bucket' i' k := by
  unfold maskedAt affine; simp only [dev_congr h, var_congr h, ind_congr hb]

end Rows

/-! ### The whole array: 32 tiles of 2048 rows -/

/-- Row r of tile t as a row of the whole array. -/
def glob (t : Fin 32) (r : Fin 2048) : Fin 65536 := ⟨t.val * 2048 + r.val, by omega⟩

/-- Tile t of the array. -/
def tileRows (x : FVec Ideal ⟨2, ![65536, 768]⟩ .f32) (t : Fin 32) : FVec Ideal ⟨2, ![2048, 768]⟩ .f32 :=
  fun z => x (ix2 (glob t (z 0)) (z 1))

/-- The 32 tiles' rows of totals, one tile per leading index. -/
def tileTotals (x : FVec Ideal ⟨2, ![65536, 768]⟩ .f32) (bucket : Fin 65536 → BitVec 32) :
    FVec Ideal ⟨3, ![32, 1, 128]⟩ .f32 :=
  fun y => tileLane (tileRows x (y 0)) (fun r => bucket (glob (y 0) r)) (y 2)

/-- Per bucket, tile by tile: the number of rows in it, -/
def countTiled (bucket : Fin 65536 → BitVec 32) : FVec Ideal ⟨1, ![4]⟩ .f32 :=
  fun y => ∑ t : Fin 32, ∑ r : Fin 2048, ind bucket (glob t r) (y 0)
/-- the sum of their means, -/
def meanSumTiled (x : FVec Ideal ⟨2, ![65536, 768]⟩ .f32) (bucket : Fin 65536 → BitVec 32) : FVec Ideal ⟨1, ![4]⟩ .f32 :=
  fun y => ∑ t : Fin 32, ∑ r : Fin 2048, ind bucket (glob t r) (y 0) * mean x (glob t r)
/-- and the sum of their variances. -/
def varSumTiled (x : FVec Ideal ⟨2, ![65536, 768]⟩ .f32) (bucket : Fin 65536 → BitVec 32) : FVec Ideal ⟨1, ![4]⟩ .f32 :=
  fun y => ∑ t : Fin 32, ∑ r : Fin 2048, ind bucket (glob t r) (y 0) * var x (glob t r)

/-- The same three totals taken over all rows at once: the count as a 32-bit integer, -/
def countAll (bucket : Fin 65536 → BitVec 32) : IVec ⟨1, ![4]⟩ 32 :=
  fun y => BitVec.ofNat 32 (Finset.univ.filter fun i : Fin 65536 => (bucket i).toInt = ((y 0).val : ℤ)).card
/-- the sum of the means, -/
def meanSumAll (x : FVec Ideal ⟨2, ![65536, 768]⟩ .f32) (bucket : Fin 65536 → BitVec 32) : FVec Ideal ⟨1, ![4]⟩ .f32 :=
  fun y => ∑ i : Fin 65536, if (bucket i).toInt = ((y 0).val : ℤ) then mean x i else 0
/-- the sum of the variances. -/
def varSumAll (x : FVec Ideal ⟨2, ![65536, 768]⟩ .f32) (bucket : Fin 65536 → BitVec 32) : FVec Ideal ⟨1, ![4]⟩ .f32 :=
  fun y => ∑ i : Fin 65536, if (bucket i).toInt = ((y 0).val : ℤ) then var x i else 0

end Cert.Spec

end
-- ==== Proof.LibRows.lean ====
/-
  Row-wise reading of two-dimensional arrays at the ideal values, for any number of rows.

  A network that treats every row of its input alike (a chain of affine layers, pointwise
  functions, joins of feature vectors and reductions along the feature axis) is one function of a
  single row. This file says so layer by layer, at the level of whole arrays: an array is
  `ofRows f` when its row `i` is `f i`, and each layer sends `ofRows f` to `ofRows` of the
  layer's row function applied to `f i`. The statements hold for every row count, so the same
  lemma reads a block of rows and the whole array.

  * `lin w b v`: the affine map `j ↦ (∑ₖ v k · w (j,k)) + b j` (weights stored output-major).
  * `cat u v`: two feature vectors joined.
  * `rowMax`, `rowSum`: the fold of `max` from `⊥`, and the sum, over a row.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Idealize.ShloMosaic.Rows

open Idealize.ShloMosaic Idealize.ShloMosaic.ValueIdx

variable {N K M : ℕ}

/-! ## Arrays as families of rows -/

/-- The array whose row `i` is `f i`. -/
def ofRows (f : Fin N → Fin K → EReal) : FVec Ideal ⟨2, ![N, K]⟩ .f32 := fun i => f (i 0) (i 1)

/-- Row `i` of an array. -/
def rowOf (A : FVec Ideal ⟨2, ![N, K]⟩ .f32) (i : Fin N) : Fin K → EReal := fun k => A (ix2 i k)

theorem rowOf_ofRows (f : Fin N → Fin K → EReal) (i : Fin N) : rowOf (ofRows f) i = f i := rfl

theorem ofRows_apply (f : Fin N → Fin K → EReal) (i : Fin N) (k : Fin K) : ofRows f (ix2 i k) = f i k := rfl

theorem ofRows_rowOf (A : FVec Ideal ⟨2, ![N, K]⟩ .f32) : ofRows (rowOf A) = A :=
  funext fun i => (congrArg A (eq_ix2 i)).symm

/-- Two arrays are equal when they agree at every (row, column). -/
theorem ext_ix2 {A B : FVec Ideal ⟨2, ![N, K]⟩ .f32} (h : ∀ i k, A (ix2 i k) = B (ix2 i k)) : A = B :=
  funext fun j => by rw [eq_ix2 j]; exact h _ _

/-! ## A plain matrix product read at (row, column) -/

theorem plain_lhs_0 (i : (⟨2, ![N, M]⟩ : Shape).Idx) (q : (DotDims.plain N K M).contr.Idx) :
    ((DotDims.plain N K M).lhsIdx i q 0).val = (i 0).val := by
  unfold DotDims.lhsIdx
  rw [dif_neg (show ¬(0 : Fin (⟨2, ![N, K]⟩ : Shape).rank) ∈ (DotDims.plain N K M).lhsBatch from List.not_mem_nil),
    dif_pos (show (0 : Fin (⟨2, ![N, K]⟩ : Shape).rank) ∈ (DotDims.plain N K M).lhsNonContracting from List.mem_singleton.mpr rfl)]
  rfl

theorem plain_lhs_1 (i : (⟨2, ![N, M]⟩ : Shape).Idx) (q : (DotDims.plain N K M).contr.Idx) :
    ((DotDims.plain N K M).lhsIdx i q 1).val = (q ⟨0, Nat.one_pos⟩).val :=
  (DotDims.plain N K M).lhsIdx_val_of_single rfl i q

theorem plain_rhs_0 (i : (⟨2, ![N, M]⟩ : Shape).Idx) (q : (DotDims.plain N K M).contr.Idx) :
    ((DotDims.plain N K M).rhsIdx i q 0).val = (q ⟨0, Nat.one_pos⟩).val :=
  (DotDims.plain N K M).rhsIdx_val_of_single rfl i q

theorem plain_rhs_1 (i : (⟨2, ![N, M]⟩ : Shape).Idx) (q : (DotDims.plain N K M).contr.Idx) :
    ((DotDims.plain N K M).rhsIdx i q 1).val = (i 1).val := by
  unfold DotDims.rhsIdx
  rw [dif_neg (show ¬(1 : Fin (⟨2, ![K, M]⟩ : Shape).rank) ∈ (DotDims.plain N K M).rhsBatch from List.not_mem_nil),
    dif_pos (show (1 : Fin (⟨2, ![K, M]⟩ : Shape).rank) ∈ (DotDims.plain N K M).rhsNonContracting from List.mem_singleton.mpr rfl)]
  rfl

/-- The sum over the one contracted axis, re-indexed by its coordinate. -/
theorem plain_sum (l : FVec Ideal ⟨2, ![N, K]⟩ .f32) (r : FVec Ideal ⟨2, ![K, M]⟩ .f32) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into a zero accumulator, at (i, j): the sum over k of l (i,k) · r (k,j). -/
theorem matmul_plain_apply (l : FVec Ideal ⟨2, ![N, K]⟩ .f32) (r : FVec Ideal ⟨2, ![K, M]⟩ .f32) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum l r i j

/-- The host's product, at (i, j): the same sum. -/
theorem dotGeneral_plain_apply (l : FVec Ideal ⟨2, ![N, K]⟩ .f32) (r : FVec Ideal ⟨2, ![K, M]⟩ .f32) (i : Fin N) (j : Fin M) :
    Host.dotGeneral (DotDims.plain N K M) none l r (ix2 i j) = ∑ k : Fin K, l (ix2 i k) * r (ix2 k j) := by
  show FloatOps.dotGeneral (DotDims.plain N K M) none .single l r (ix2 i j) = _
  rw [Ideal.dotGeneral_apply]
  exact plain_sum l r i j

/-! ## An affine layer -/

/-- One affine layer on a row `v`: output feature `j` is `(∑ₖ v k · w (j,k)) + b j`. -/
def lin (w : FVec Ideal ⟨2, ![M, K]⟩ .f32) (b : FVec Ideal ⟨1, ![M]⟩ .f32) (v : Fin K → EReal) : Fin M → EReal :=
  fun j => (∑ k : Fin K, v k * w (ix2 j k)) + b (ix1 j)

/-- The kernel's spelling of an affine layer: product with the transposed weights into a zero accumulator, plus the
    bias laid along every row. -/
theorem klin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩) (sc : (⟨1, ![M]⟩ : Shape).ShapeCasts ⟨2, ![1, M]⟩)
    (bc : (⟨2, ![1, M]⟩ : Shape).Broadcasts ⟨2, ![N, M]⟩) :
    addf (matmul (DotDims.plain N K M) none h (transpose ⟨2, ![K, M]⟩ [1, 0] w tr) (constant ⟨2, ![N, M]⟩ .f32 0x00000000#32))
        (broadcastTo ⟨2, ![N, M]⟩ (shapeCast ⟨2, ![1, M]⟩ b sc) bc)
      = ofRows fun i => lin w b (rowOf h i) := by
  refine ext_ix2 fun i j => ?_
  rw [addf_apply, matmul_plain_apply, broadcastTo_1b_ab_apply, shapeCast_a_1a_apply, ofRows_apply]
  unfold lin rowOf
  exact congrArg (· + b (ix1 j)) (Finset.sum_congr rfl fun k _ => by rw [transpose_ix2_apply])

/-- The host's spelling: `dot_general` with the transposed weights, plus the bias broadcast in two steps. -/
theorem hlin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩)
    (b1 : (⟨1, ![M]⟩ : Shape).BroadcastsInDim ⟨2, ![1, M]⟩ ![1])
    (b2 : (⟨2, ![1, M]⟩ : Shape).BroadcastsInDim ⟨2, ![N, M]⟩ ![0, 1]) :
    addf (Host.dotGeneral (DotDims.plain N K M) none h (transpose ⟨2, ![K, M]⟩ [1, 0] w tr))
        (broadcastInDim ⟨2, ![N, M]⟩ ![0, 1] b2 (broadcastInDim ⟨2, ![1, M]⟩ ![1] b1 b))
      = ofRows fun i => lin w b (rowOf h i) := by
  refine ext_ix2 fun i j => ?_
  rw [addf_apply, dotGeneral_plain_apply, Idealize.ShloMosaic.broadcastInDim_oneRow_apply, ofRows_apply]
  have e : broadcastInDim ⟨2, ![1, M]⟩ ![1] b1 b (ix2 (0 : Fin 1) j) = b (ix1 j) :=
    broadcastInDim_apply ![1] b1 b (ix2 (0 : Fin 1) j) (ix1 j) fun a => by
      match a with
      | ⟨0, _⟩ =>
        show j.val = if M = 1 then 0 else j.val
        split
        · have := j.isLt; omega
        · rfl
  rw [e]
  unfold lin rowOf
  exact congrArg (· + b (ix1 j)) (Finset.sum_congr rfl fun k _ => by rw [transpose_ix2_apply])

/-! ## Two feature vectors joined -/

/-- `u` followed by `v`. -/
def cat {A B C : ℕ} (hC : A + B = C) (u : Fin A → EReal) (v : Fin B → EReal) : Fin C → EReal :=
  fun j => if h : j.val < A then u ⟨j.val, h⟩ else v ⟨j.val - A, by have := j.isLt; omega⟩

/-- Joining two arrays along the feature axis joins their rows. -/
theorem cat_eq {A B C : ℕ} (hC : A + B = C) (x₁ : FVec Ideal ⟨2, ![N, A]⟩ .f32) (x₂ : FVec Ideal ⟨2, ![N, B]⟩ .f32)
    (hc : Shape.Concatenates [⟨2, ![N, A]⟩, ⟨2, ![N, B]⟩] ⟨2, ![N, C]⟩ 1) :
    concatenate ⟨2, ![N, C]⟩ 1 [⟨⟨2, ![N, A]⟩, x₁⟩, ⟨⟨2, ![N, B]⟩, x₂⟩] hc
      = ofRows fun i => cat hC (rowOf x₁ i) (rowOf x₂ i) := by
  refine ext_ix2 fun i j => ?_
  rw [ofRows_apply]
  unfold cat rowOf
  by_cases h : j.val < A
  · rw [dif_pos h]
    exact concatenate_pair_apply_left 1 x₁ x₂ hc (ix2 i j) rfl (ix2 i ⟨j.val, h⟩) fun b => by
      match b with
      | ⟨0, _⟩ => rfl
      | ⟨1, _⟩ => rfl
  · rw [dif_neg h]
    have hj := j.isLt
    refine concatenate_pair_apply_right 1 x₁ x₂ hc (ix2 i j) rfl rfl (ix2 i ⟨j.val - A, by omega⟩) (fun b hb => ?_) ?_
    · match b with
      | ⟨0, _⟩ => rfl
      | ⟨1, _⟩ => exact absurd rfl hb
    · show j.val - A + A = j.val
      omega

/-! ## Pointwise operations, row by row -/

section Pointwise
variable (x y : FVec Ideal ⟨2, ![N, K]⟩ .f32)

theorem sin_rows : sin x = ofRows fun i k => Ideal.sin (rowOf x i k) := ext_ix2 fun _ _ => rfl
theorem cos_rows : cos x = ofRows fun i k => Ideal.cos (rowOf x i k) := ext_ix2 fun _ _ => rfl
theorem exp_rows : exp x = ofRows fun i k => Ideal.exp (rowOf x i k) := ext_ix2 fun _ _ => rfl
theorem hsin_rows : Host.sin x = ofRows fun i k => Ideal.sin (rowOf x i k) := ext_ix2 fun _ _ => rfl
theorem hcos_rows : Host.cos x = ofRows fun i k => Ideal.cos (rowOf x i k) := ext_ix2 fun _ _ => rfl
theorem hexp_rows : Host.exp x = ofRows fun i k => Ideal.exp (rowOf x i k) := ext_ix2 fun _ _ => rfl
theorem addf_rows : addf x y = ofRows fun i k => rowOf x i k + rowOf y i k := ext_ix2 fun _ _ => rfl
theorem subf_rows : subf x y = ofRows fun i k => rowOf x i k - rowOf y i k := ext_ix2 fun _ _ => rfl
theorem mulf_rows : mulf x y = ofRows fun i k => rowOf x i k * rowOf y i k := ext_ix2 fun _ _ => rfl
theorem maximumf_rows : maximumf x y = ofRows fun i k => max (rowOf x i k) (rowOf y i k) := ext_ix2 fun _ _ => rfl
theorem divf_rows : divf x y = ofRows fun i k => Ideal.div (rowOf x i k) (rowOf y i k) := ext_ix2 fun _ _ => rfl
theorem hdivf_rows : Host.divf x y = ofRows fun i k => Ideal.div (rowOf x i k) (rowOf y i k) := ext_ix2 fun _ _ => rfl

end Pointwise

/-- A row of a kernel's scalar splat. -/
theorem rowOf_broadcast (b : BitVec 32) (i : Fin N) :
    rowOf (broadcast ⟨2, ![N, K]⟩ (Scalar.ofBits (F := Ideal) .f32 b)) i = fun _ => Ideal.ofBits .f32 b := rfl

/-- A row of the host's scalar constant broadcast to an array. -/
theorem rowOf_broadcastInDim_const (b : BitVec 32) (hb : (⟨0, ![]⟩ : Shape).BroadcastsInDim ⟨2, ![N, K]⟩ ![]) (i : Fin N) :
    rowOf (broadcastInDim ⟨2, ![N, K]⟩ ![] hb (constant (F := Ideal) ⟨0, ![]⟩ .f32 b)) i = fun _ => Ideal.ofBits .f32 b :=
  funext fun k => broadcastInDim_scalar_apply hb _ (ix2 i k)

/-! ## One value per row -/

/-- The one-axis array whose entry `i` is `f i`. -/
def ofVals (f : Fin N → EReal) : FVec Ideal ⟨1, ![N]⟩ .f32 := fun i => f (i 0)

/-- Entry `i` of a one-axis array. -/
def valOf (c : FVec Ideal ⟨1, ![N]⟩ .f32) (i : Fin N) : EReal := c (ix1 i)

theorem valOf_ofVals (f : Fin N → EReal) (i : Fin N) : valOf (ofVals f) i = f i := rfl

theorem ext_ix1 {a b : FVec Ideal ⟨1, ![N]⟩ .f32} (h : ∀ i, a (ix1 i) = b (ix1 i)) : a = b :=
  funext fun j => by rw [eq_ix1 j]; exact h _

theorem maximumf_vals (a b : FVec Ideal ⟨1, ![N]⟩ .f32) : maximumf a b = ofVals fun i => max (valOf a i) (valOf b i) :=
  ext_ix1 fun _ => rfl

theorem valOf_broadcast (b : BitVec 32) (i : Fin N) :
    valOf (broadcast ⟨1, ![N]⟩ (Scalar.ofBits (F := Ideal) .f32 b)) i = Ideal.ofBits .f32 b := rfl

theorem valOf_broadcastInDim_const (b : BitVec 32) (hb : (⟨0, ![]⟩ : Shape).BroadcastsInDim ⟨1, ![N]⟩ ![]) (i : Fin N) :
    valOf (broadcastInDim ⟨1, ![N]⟩ ![] hb (constant (F := Ideal) ⟨0, ![]⟩ .f32 b)) i = Ideal.ofBits .f32 b :=
  broadcastInDim_scalar_apply hb _ (ix1 i)

/-- The index a reduction over the feature axis reads: row `i`, feature `k`. -/
theorem lift_ix1 (h : (⟨2, ![N, M]⟩ : Shape).Reduces [1] ⟨1, ![N]⟩) (i : Fin N) (k : Fin M) :
    h.lift (ix1 i) k = ix2 i k :=
  funext fun a => Fin.ext (by
    match a with
    | ⟨0, _⟩ => rfl
    | ⟨1, _⟩ => rfl)

/-- The largest entry of a row, folded from the word `0xFF800000`'s value. -/
def rowMax (v : Fin M → EReal) : EReal := (Finset.univ : Finset (Fin M)).fold max (Ideal.ofBits .f32 0xFF800000#32) v

/-- A kernel's maximum along the feature axis. -/
theorem kmax_eq (x : FVec Ideal ⟨2, ![N, M]⟩ .f32) (h : (⟨2, ![N, M]⟩ : Shape).Reduces [1] ⟨1, ![N]⟩)
    (hφ : FKind.Formats .f32) (hacc : (0xFF800000#32 : BitVec 32) = FKind.maximumf.neutral .f32 hφ) :
    multiReduction .maximumf [1] ⟨1, ![N]⟩ x 0xFF800000#32 h hφ hacc = ofVals fun i => rowMax (rowOf x i) := by
  refine ext_ix1 fun i => ?_
  rw [Ideal.multiReduction_maximumf_single]
  show _ = rowMax (rowOf x i)
  unfold rowMax
  congr 1
  funext k
  exact congrArg x (lift_ix1 h i k)

/-- The host's maximum along the feature axis, from the same initial word. -/
theorem hmax_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduce FloatOps.maximumf x (constant (F := Ideal) ⟨0, ![]⟩ .f32 0xFF800000#32) h' hu
      = ofVals fun i => rowMax (rowOf x i) := by
  refine ext_ix1 fun i => ?_
  rw [Host.reduce_eq_fold_single FloatOps.maximumf x _ h' h hu]
  show _ = rowMax (rowOf x i)
  unfold rowMax
  congr 1
  funext k
  exact congrArg x (lift_ix1 h i k)

/-- A kernel's sum along the feature axis. -/
theorem ksum_eq (x : FVec Ideal ⟨2, ![N, M]⟩ .f32) (h : (⟨2, ![N, M]⟩ : Shape).Reduces [1] ⟨1, ![N]⟩)
    (hφ : FKind.Formats .f32) (hacc : (0x00000000#32 : BitVec 32) = FKind.add.neutral .f32 hφ) :
    multiReduction .add [1] ⟨1, ![N]⟩ x 0x00000000#32 h hφ hacc = ofVals fun i => ∑ k : Fin M, rowOf x i k := by
  refine ext_ix1 fun i => ?_
  rw [Ideal.multiReduction_add_single]
  exact Finset.sum_congr rfl fun k _ => congrArg x (lift_ix1 h i k)

/-- The host's sum along the feature axis from a zero initial value. -/
theorem hsum_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduceAdd x (constant (F := Ideal) ⟨0, ![]⟩ .f32 0x00000000#32) h' hu
      = ofVals fun i => ∑ k : Fin M, rowOf x i k := by
  refine ext_ix1 fun i => ?_
  rw [hostReduceAdd_apply, Ideal.hostReduceAdd_single h' h]
  show Ideal.ofBits .f32 0x00000000#32 + _ = _
  rw [Ideal.ofBits_zero_f32, zero_add]
  exact Finset.sum_congr rfl fun k _ => congrArg x (lift_ix1 h i k)

/-! ## One value per row laid along the row -/

/-- The kernel's way: a unit feature axis added, then broadcast along it. -/
theorem kcol_eq (c : FVec Ideal ⟨1, ![N]⟩ .f32) (sc : (⟨1, ![N]⟩ : Shape).ShapeCasts ⟨2, ![N, 1]⟩)
    (bc : (⟨2, ![N, 1]⟩ : Shape).Broadcasts ⟨2, ![N, M]⟩) :
    broadcastTo ⟨2, ![N, M]⟩ (shapeCast ⟨2, ![N, 1]⟩ c sc) bc = ofRows fun i _ => valOf c i := by
  refine ext_ix2 fun i j => ?_
  have e1 := broadcastTo_apply (shapeCast ⟨2, ![N, 1]⟩ c sc) bc (ix2 i j) (ix2 i (0 : Fin 1)) (by
    intro a
    match a with
    | ⟨0, _⟩ =>
      show i.val = if N = 1 then 0 else i.val
      split
      · have := i.isLt; omega
      · rfl
    | ⟨1, _⟩ => rfl)
  have e2 := shapeCast_apply c sc (ix2 i (0 : Fin 1)) (ix1 i) (by
    rw [Shape.rowMajor_val_two, Shape.rowMajor_val_one]; show i.val = i.val * 1 + 0; omega)
  exact e1.trans e2

/-- A unit feature axis added to a one-axis array. -/
theorem kcol1_eq (c : FVec Ideal ⟨1, ![N]⟩ .f32) (sc : (⟨1, ![N]⟩ : Shape).ShapeCasts ⟨2, ![N, 1]⟩) :
    shapeCast ⟨2, ![N, 1]⟩ c sc = ofRows fun i _ => valOf c i := by
  refine ext_ix2 fun i j => ?_
  exact shapeCast_apply c sc (ix2 i j) (ix1 i) (by
    rw [Shape.rowMajor_val_two, Shape.rowMajor_val_one]; show i.val = i.val * 1 + j.val; have := j.isLt; omega)

/-- The host's way: two `broadcast_in_dim`s. -/
theorem hcol_eq (c : FVec Ideal ⟨1, ![N]⟩ .f32) (b1 : (⟨1, ![N]⟩ : Shape).BroadcastsInDim ⟨2, ![N, 1]⟩ ![0])
    (b2 : (⟨2, ![N, 1]⟩ : Shape).BroadcastsInDim ⟨2, ![N, M]⟩ ![0, 1]) :
    broadcastInDim ⟨2, ![N, M]⟩ ![0, 1] b2 (broadcastInDim ⟨2, ![N, 1]⟩ ![0] b1 c) = ofRows fun i _ => valOf c i := by
  refine ext_ix2 fun i j => ?_
  have e1 := broadcastInDim_apply ![0, 1] b2 (broadcastInDim ⟨2, ![N, 1]⟩ ![0] b1 c) (ix2 i j) (ix2 i (0 : Fin 1)) (by
    intro a
    match a with
    | ⟨0, _⟩ =>
      show i.val = if N = 1 then 0 else i.val
      split
      · have := i.isLt; omega
      · rfl
    | ⟨1, _⟩ => rfl)
  have e2 := broadcastInDim_apply ![0] b1 c (ix2 i (0 : Fin 1)) (ix1 i) (by
    intro a
    match a with
    | ⟨0, _⟩ =>
      show i.val = if N = 1 then 0 else i.val
      split
      · have := i.isLt; omega
      · rfl)
  exact e1.trans e2

end Idealize.ShloMosaic.Rows

end
-- ==== Proof.KBlock.lean ====
/-
  What one grid point's body leaves in its two output blocks, entry by entry, as functions of the point's input blocks:
  the output block is the masked form of the layer normalisation over the block's 2048 rows, and the row of totals is
  the tile's lane function.
-/
import proofs.«422991_j82008105550601_2_alg».proof.Proof.Gen.KernelIdeal.Frame
import proofs.«422991_j82008105550601_2_alg».proof.Proof.Spec
import proofs.«422991_j82008105550601_2_alg».proof.Proof.LibRows
import Idealize.ShloMosaic.Lib.ValueLayout
import Idealize.ShloMosaic.Lib.Pipeline.Value
import Idealize.ShloMosaic.PureOps.Ideal.Laws

noncomputable section

namespace Cert.KernelIdeal.Block

open Idealize.ShloMosaic Idealize.ShloMosaic.ValueIdx Cert.KernelIdeal Cert.KernelIdeal.Gen

/-- A column laid along every row. -/
theorem bcast_col_apply {α : Type} {N M : ℕ} (v : (⟨2, ![N, 1]⟩ : Shape).Idx → α)
    (h : (⟨2, ![N, 1]⟩ : Shape).Broadcasts ⟨2, ![N, M]⟩) (p : Fin N) (c : Fin M) :
    broadcastTo ⟨2, ![N, M]⟩ v h (ix2 p c) = v (ix2 p (0 : Fin 1)) := by
  refine broadcastTo_apply v h (ix2 p c) (ix2 p (0 : Fin 1)) fun ax => ?_
  match ax with
  | ⟨0, _⟩ =>
    show p.val = if N = 1 then 0 else p.val
    split
    · have := p.isLt; omega
    · rfl
  | ⟨1, _⟩ => rfl

/-- A one-axis array given a unit second axis. -/
theorem cast_col_apply {α : Type} {N : ℕ} (v : (⟨1, ![N]⟩ : Shape).Idx → α)
    (h : (⟨1, ![N]⟩ : Shape).ShapeCasts ⟨2, ![N, 1]⟩) (p : Fin N) (u : Fin 1) :
    shapeCast ⟨2, ![N, 1]⟩ v h (ix2 p u) = v (ix1 p) :=
  shapeCast_apply v h (ix2 p u) (ix1 p) (by
    rw [Shape.rowMajor_val_two, Shape.rowMajor_val_one]; show p.val = p.val * 1 + u.val; have := u.isLt; omega)

/-- The sum along a row, from the zero word. -/
theorem rowsum_apply (x : FVec Ideal S2048x768 .f32) (hφ : FKind.Formats .f32)
    (hacc : (0x00000000#32 : BitVec 32) = 0x00000000#32) (r : Fin 2048) :
    multiReduction (F := Ideal) .add [1] S2048 x 0x00000000#32 reduces_S2048x768_S2048 hφ hacc (ix1 r)
      = ∑ k : Fin 768, x (ix2 r k) := by
  refine (Ideal.multiReduction_add_single x 0x00000000#32 reduces_S2048x768_S2048 hφ hacc (ix1 r)).trans ?_
  exact Finset.sum_congr rfl fun k _ => congrArg x (Rows.lift_ix1 reduces_S2048x768_S2048 r k)

/-- The sum down a column of one entry per row, from the zero word. -/
theorem colsum_apply (x : FVec Ideal S2048x1 .f32) (hφ : FKind.Formats .f32)
    (hacc : (0x00000000#32 : BitVec 32) = 0x00000000#32) (u : Fin 1) :
    multiReduction (F := Ideal) .add [0] S1 x 0x00000000#32 reduces_S2048x1_S1 hφ hacc (ix1 u)
      = ∑ r : Fin 2048, x (ix2 r (0 : Fin 1)) := by
  refine (Ideal.multiReduction_add_single x 0x00000000#32 reduces_S2048x1_S1 hφ hacc (ix1 u)).trans ?_
  refine Finset.sum_congr rfl fun r _ => congrArg x (funext fun a => Fin.ext ?_)
  match a with
  | ⟨0, _⟩ => rfl
  | ⟨1, _⟩ => show u.val = 0; omega

/-- The row means. -/
theorem pay2_at (x : Vec Ideal S2048x768 .f32) (r : Fin 2048) (u : Fin 1) :
    k0_pay2 (F := Ideal) x (ix2 r u) = Cert.Spec.mean x r := by
  unfold k0_pay2
  rw [divf_apply, broadcast_apply, cast_col_apply, rowsum_apply]
  rfl

/-- The deviations from the row means. -/
theorem pay3_at (x : Vec Ideal S2048x768 .f32) (r : Fin 2048) (k : Fin 768) :
    k0_pay3 (F := Ideal) x (ix2 r k) = Cert.Spec.dev x r k := by
  unfold k0_pay3
  rw [subf_apply, bcast_col_apply, pay2_at]
  rfl

/-- The row variances. -/
theorem pay4_at (x : Vec Ideal S2048x768 .f32) (r : Fin 2048) (u : Fin 1) :
    k0_pay4 (F := Ideal) x (ix2 r u) = Cert.Spec.var x r := by
  unfold k0_pay4
  rw [divf_apply, broadcast_apply, cast_col_apply, rowsum_apply]
  simp only [mulf_apply, pay3_at]
  rfl

/-- The normalised entries. -/
theorem pay5_at (x : Vec Ideal S2048x768 .f32) (r : Fin 2048) (k : Fin 768) :
    k0_pay5 (F := Ideal) x (ix2 r k)
      = Cert.Spec.dev x r k * Ideal.rsqrt (Cert.Spec.var x r + Cert.Spec.eps) := by
  unfold k0_pay5
  rw [mulf_apply, bcast_col_apply, pay3_at]
  show _ * Ideal.rsqrt (k0_pay4 (F := Ideal) x (ix2 r (0 : Fin 1)) + _) = _
  rw [pay4_at]
  rfl

/-! ### The output block: the four indicator columns, the table rows, the running sum -/

namespace Out

/-- The indicator of a word's equality with a constant word, as an extended real: 1 when the word read as a signed
    integer is the constant's integer, else 0. -/
theorem mask_scalar (w c : BitVec 32) (j : Fin 4) (hc : c.toInt = (j.val : ℤ)) :
    FloatOps.sitofp (F := Ideal) .f32 ((IntOp.cmpi .eq w c).setWidth 32)
      = if w.toInt = (j.val : ℤ) then (1 : EReal) else 0 := by
  show ((((IntOp.cmpi .eq w c).setWidth 32).toInt : ℝ) : EReal) = _
  by_cases h : w = c
  · subst h
    rw [if_pos hc]
    have e : (IntOp.cmpi .eq w w).setWidth 32 = 1#32 := by
      simp [IntOp.cmpi]
    rw [e]
    norm_num
  · have hne : ¬ w.toInt = (j.val : ℤ) := fun e => h (BitVec.toInt_inj.mp (e.trans hc.symm))
    rw [if_neg hne]
    have hb : (w == c) = false := beq_eq_false_iff_ne.mpr h
    have e : (IntOp.cmpi .eq w c).setWidth 32 = 0#32 := by
      show BitVec.setWidth 32 (BitVec.ofBool (w == c)) = 0#32
      rw [hb]; rfl
    rw [e]
    norm_num

/-- A column of words compared with a constant, widened and converted: entry r is the indicator that row r carries
    the constant's number. -/
theorem mask_at (v : IVec S2048x1 32) (c : BitVec 32) (j : Fin 4) (hc : c.toInt = (j.val : ℤ)) (r : Fin 2048)
    (u : Fin 1) :
    (sitofp (F := Ideal) .f32 (extui 32 (cmpi .eq v (broadcast S2048x1 c)) natLt_1_32)) (ix2 r u)
      = Cert.Spec.ind (fun r' => v (ix2 r' 0)) r j := by
  have hu : u = 0 := Subsingleton.elim _ _
  subst hu
  exact mask_scalar (v (ix2 r 0)) c j hc

/-- The bucket words cast to their own shape are themselves. -/
theorem pay1_eq (x1 : Vec Ideal S2048x1 .i32) : k0_pay1 (F := Ideal) x1 = x1 :=
  shapeCast_self x1 shapeCasts_S2048x1_S2048x1

/-- The indicator column of bucket 0. -/
theorem pay6_at (x1 : Vec Ideal S2048x1 .i32) (r : Fin 2048) (u : Fin 1) :
    k0_pay6 (F := Ideal) x1 (ix2 r u) = Cert.Spec.ind (fun r' => x1 (ix2 r' 0)) r 0 := by
  unfold k0_pay6
  rw [pay1_eq]
  exact mask_at x1 0#32 0 (by decide) r u

/-- The indicator column of bucket 1. -/
theorem pay11_at (v : IVec S2048x1 32) (r : Fin 2048) (u : Fin 1) :
    k0_pay11 (F := Ideal) v (ix2 r u) = Cert.Spec.ind (fun r' => v (ix2 r' 0)) r 1 := by
  unfold k0_pay11
  exact mask_at v 1#32 1 (by decide) r u

/-- The indicator column of bucket 2. -/
theorem pay15_at (v : IVec S2048x1 32) (r : Fin 2048) (u : Fin 1) :
    k0_pay15 (F := Ideal) v (ix2 r u) = Cert.Spec.ind (fun r' => v (ix2 r' 0)) r 2 := by
  unfold k0_pay15
  exact mask_at v 2#32 2 (by decide) r u

/-- The indicator column of bucket 3. -/
theorem pay17_at (v : IVec S2048x1 32) (r : Fin 2048) (u : Fin 1) :
    k0_pay17 (F := Ideal) v (ix2 r u) = Cert.Spec.ind (fun r' => v (ix2 r' 0)) r 3 := by
  unfold k0_pay17
  exact mask_at v 3#32 3 (by decide) r u

/-- One table row, flattened, given its unit axis back and laid along every row of the block: entry (r, k) is the
    row's entry k. -/
theorem row_at (v : Vec Ideal S1x768 .f32) (r : Fin 2048) (k : Fin 768) :
    broadcastTo S2048x768 (shapeCast S1x768 (shapeCast S768 v shapeCasts_S1x768_S768) shapeCasts_S768_S1x768)
        broadcasts_S1x768_S2048x768 (ix2 r k) = v (ix2 (0 : Fin 1) k) :=
  (broadcastTo_1b_ab_apply _ broadcasts_S1x768_S2048x768 r k).trans
    ((shapeCast_a_1a_apply _ shapeCasts_S768_S1x768 (0 : Fin 1) k).trans
      (shapeCast_1a_a_apply v shapeCasts_S1x768_S768 k))

/-- One bucket's term: its indicator column laid along the rows, times the affine map with the bucket's two table
    rows. -/
theorem term_at (m : FVec Ideal S2048x1 .f32) (n : FVec Ideal S2048x768 .f32) (w b : Vec Ideal S1x768 .f32)
    (r : Fin 2048) (k : Fin 768) :
    mulf (broadcastTo S2048x768 m broadcasts_S2048x1_S2048x768)
        (addf
          (mulf n (broadcastTo S2048x768
            (shapeCast S1x768 (shapeCast S768 w shapeCasts_S1x768_S768) shapeCasts_S768_S1x768)
            broadcasts_S1x768_S2048x768))
          (broadcastTo S2048x768
            (shapeCast S1x768 (shapeCast S768 b shapeCasts_S1x768_S768) shapeCasts_S768_S1x768)
            broadcasts_S1x768_S2048x768)) (ix2 r k)
      = m (ix2 r (0 : Fin 1)) * (n (ix2 r k) * w (ix2 (0 : Fin 1) k) + b (ix2 (0 : Fin 1) k)) := by
  rw [mulf_apply, addf_apply, mulf_apply, bcast_col_apply, row_at, row_at]

/-- Row j of a four-row table read through the one-row rectangle at row j. -/
theorem ld_row (x : Vec Ideal S4x768 .f32) (j : Fin 4) (off : Fin 2 → ℕ) (h0 : off 0 = j.val) (h1 : off 1 = 0)
    (inb : ∀ a, off a + S1x768.size a ≤ S4x768.size a) (u : Fin 1) (k : Fin 768) :
    View.ld x (Rect.unit (s := S4x768) off S1x768.size inb) (ix2 u k) = x (ix2 j k) := by
  refine congrArg x (funext fun a => Fin.ext ?_)
  have hu := u.isLt
  match a with
  | ⟨0, _⟩ => show off 0 + 1 * u.val = j.val; omega
  | ⟨1, _⟩ => show off 1 + 1 * k.val = k.val; omega

/-- The running sum after bucket 0. -/
theorem pay7_at (x0 : Vec Ideal S2048x768 .f32) (x1 : Vec Ideal S2048x1 .i32) (w b : Vec Ideal S1x768 .f32)
    (r : Fin 2048) (k : Fin 768) :
    k0_pay7 (F := Ideal) x0 x1 w b (ix2 r k)
      = 0 + Cert.Spec.ind (fun r' => x1 (ix2 r' 0)) r 0
          * (Cert.Spec.dev x0 r k * Ideal.rsqrt (Cert.Spec.var x0 r + Cert.Spec.eps) * w (ix2 (0 : Fin 1) k)
              + b (ix2 (0 : Fin 1) k)) := by
  unfold k0_pay7
  rw [addf_apply, term_at, pay6_at, pay5_at, broadcast_apply]
  show Ideal.ofBits .f32 0x00000000#32 + _ = _
  rw [Ideal.ofBits_zero_f32]

/-- The running sum after buckets 1 and 2. -/
theorem pay16_at (v : IVec S2048x1 32) (n acc : FVec Ideal S2048x768 .f32) (w1 b1 w2 b2 : Vec Ideal S1x768 .f32)
    (r : Fin 2048) (k : Fin 768) :
    k0_pay16 (F := Ideal) v n acc w1 b1 w2 b2 (ix2 r k)
      = acc (ix2 r k)
          + Cert.Spec.ind (fun r' => v (ix2 r' 0)) r 1
              * (n (ix2 r k) * w1 (ix2 (0 : Fin 1) k) + b1 (ix2 (0 : Fin 1) k))
          + Cert.Spec.ind (fun r' => v (ix2 r' 0)) r 2
              * (n (ix2 r k) * w2 (ix2 (0 : Fin 1) k) + b2 (ix2 (0 : Fin 1) k)) := by
  unfold k0_pay16
  rw [addf_apply, addf_apply, term_at, term_at, pay11_at, pay15_at]

/-- The running sum after bucket 3: the stored block. -/
theorem pay18_at (v : IVec S2048x1 32) (n acc : FVec Ideal S2048x768 .f32) (w b : Vec Ideal S1x768 .f32)
    (r : Fin 2048) (k : Fin 768) :
    k0_pay18 (F := Ideal) v n acc w b (ix2 r k)
      = acc (ix2 r k)
          + Cert.Spec.ind (fun r' => v (ix2 r' 0)) r 3
              * (n (ix2 r k) * w (ix2 (0 : Fin 1) k) + b (ix2 (0 : Fin 1) k)) := by
  unfold k0_pay18
  rw [addf_apply, term_at, pay17_at]

/-- The zero offsets of a whole-block rectangle. -/
theorem hz2 : (![0, 0] : Fin 2 → ℕ) = fun _ => 0 := funext fun a => by
  match a with
  | ⟨0, _⟩ => rfl
  | ⟨1, _⟩ => rfl

/-- Entry (r, k) of the output block. -/
theorem out4_at' (x0 : Vec Ideal S2048x768 .f32) (x1 : Vec Ideal S2048x1 .i32) (x2 x3 : Vec Ideal S4x768 .f32)
    (r : Fin 2048) (k : Fin 768) :
    out0_4 (F := Ideal) x0 x1 x2 x3 (ix2 r k) = Cert.Spec.maskedAt x0 x2 x3 (fun r' => x1 (ix2 r' 0)) r k := by
  unfold out0_4
  rw [View.canon_unit_zero (S := S2048x768) hz2]
  rw [View.ld_unit_zero (S := S2048x768) hz2, View.ld_unit_zero (S := S2048x1) hz2]
  rw [pay18_at, pay16_at, pay7_at, pay5_at, pay1_eq]
  rw [ld_row x2 0 _ rfl rfl, ld_row x3 0 _ rfl rfl, ld_row x2 1 _ rfl rfl, ld_row x3 1 _ rfl rfl,
    ld_row x2 2 _ rfl rfl, ld_row x3 2 _ rfl rfl, ld_row x2 3 _ rfl rfl, ld_row x3 3 _ rfl rfl]
  rfl

end Out

/-- Entry (r, k) of the output block. -/
theorem out4_at (x0 : Vec Ideal S2048x768 .f32) (x1 : Vec Ideal S2048x1 .i32) (x2 x3 : Vec Ideal S4x768 .f32)
    (r : Fin 2048) (k : Fin 768) :
    out0_4 (F := Ideal) x0 x1 x2 x3 (ix2 r k) = Cert.Spec.maskedAt x0 x2 x3 (fun r' => x1 (ix2 r' 0)) r k := by
  exact Out.out4_at' x0 x1 x2 x3 r k

/-! ### The row of totals: four counts, four sums of means, four sums of variances, then zeros -/

namespace Totals

/-- The word compared with the constant k, widened and read as a signed integer: 1 when they agree, else 0. -/
theorem maskWord (v c : BitVec 32) (j : Fin 4) (hc : c = BitVec.ofNat 32 j.val) :
    (FloatOps.sitofp (F := Ideal) .f32 ((IntOp.cmpi .eq v c).setWidth 32) : EReal)
      = if v.toInt = (j.val : ℤ) then 1 else 0 := by
  subst hc
  have hj : (BitVec.ofNat 32 j.val).toInt = (j.val : ℤ) := by fin_cases j <;> rfl
  show ((((IntOp.cmpi .eq v (BitVec.ofNat 32 j.val)).setWidth 32).toInt : ℝ) : EReal) = _
  by_cases h : v = BitVec.ofNat 32 j.val
  · subst h
    rw [if_pos hj]
    simp [IntOp.cmpi]
  · have hne : ¬ v.toInt = (j.val : ℤ) := fun e => h (BitVec.eq_of_toInt_eq (e.trans hj.symm))
    have hb : (v == BitVec.ofNat 32 j.val) = false := beq_eq_false_iff_ne.mpr h
    rw [if_neg hne]
    simp [IntOp.cmpi, hb]

/-- The sum down a column, given a unit leading axis. -/
theorem sumcol_at (x : FVec Ideal S2048x1 .f32) (hφ : FKind.Formats .f32)
    (hacc : (0x00000000#32 : BitVec 32) = 0x00000000#32) (u v : Fin 1) :
    shapeCast S1x1 (multiReduction (F := Ideal) .add [0] S1 x 0x00000000#32 reduces_S2048x1_S1 hφ hacc)
        shapeCasts_S1_S1x1 (ix2 u v)
      = ∑ r : Fin 2048, x (ix2 r (0 : Fin 1)) := by
  rw [shapeCast_a_1a_apply, colsum_apply]

/-- Four single entries laid side by side, read at column j. -/
theorem cat4_at {α : Type} (a b c d : S1x1.Idx → α)
    (h : Shape.Concatenates [S1x1, S1x1, S1x1, S1x1] S1x4 1)
    (u : Fin 1) (j : Fin 4) :
    concatenate S1x4 1 [⟨S1x1, a⟩, ⟨S1x1, b⟩, ⟨S1x1, c⟩, ⟨S1x1, d⟩] h (ix2 u j)
      = ![a (ix2 (0 : Fin 1) (0 : Fin 1)), b (ix2 (0 : Fin 1) (0 : Fin 1)), c (ix2 (0 : Fin 1) (0 : Fin 1)),
          d (ix2 (0 : Fin 1) (0 : Fin 1))] j := by
  have hu : u = 0 := Fin.ext (by omega)
  subst hu
  match j with
  | ⟨0, _⟩ =>
    exact concatenate_apply_piece (t := S1x4) 1 [⟨S1x1, a⟩, ⟨S1x1, b⟩, ⟨S1x1, c⟩, ⟨S1x1, d⟩] h _ 0 (by simp) S1x1 a rfl rfl 0 rfl
      (ix2 0 0) (fun e he => by match e with | ⟨0, _⟩ => rfl | ⟨1, _⟩ => exact absurd rfl he) rfl
  | ⟨1, _⟩ =>
    exact concatenate_apply_piece (t := S1x4) 1 [⟨S1x1, a⟩, ⟨S1x1, b⟩, ⟨S1x1, c⟩, ⟨S1x1, d⟩] h _ 1 (by simp) S1x1 b rfl rfl 1 rfl
      (ix2 0 0) (fun e he => by match e with | ⟨0, _⟩ => rfl | ⟨1, _⟩ => exact absurd rfl he) rfl
  | ⟨2, _⟩ =>
    exact concatenate_apply_piece (t := S1x4) 1 [⟨S1x1, a⟩, ⟨S1x1, b⟩, ⟨S1x1, c⟩, ⟨S1x1, d⟩] h _ 2 (by simp) S1x1 c rfl rfl 2 rfl
      (ix2 0 0) (fun e he => by match e with | ⟨0, _⟩ => rfl | ⟨1, _⟩ => exact absurd rfl he) rfl
  | ⟨3, _⟩ =>
    exact concatenate_apply_piece (t := S1x4) 1 [⟨S1x1, a⟩, ⟨S1x1, b⟩, ⟨S1x1, c⟩, ⟨S1x1, d⟩] h _ 3 (by simp) S1x1 d rfl rfl 3 rfl
      (ix2 0 0) (fun e he => by match e with | ⟨0, _⟩ => rfl | ⟨1, _⟩ => exact absurd rfl he) rfl

/-- Three runs of four lanes and a run of 116 laid side by side, read at lane l. -/
theorem catRow_at {α : Type} (A B C : S1x4.Idx → α) (D : S1x116.Idx → α)
    (h : Shape.Concatenates [S1x4, S1x4, S1x4, S1x116] S1x128 1) (u : Fin 1) (l : Fin 128) :
    concatenate S1x128 1 [⟨S1x4, A⟩, ⟨S1x4, B⟩, ⟨S1x4, C⟩, ⟨S1x116, D⟩] h (ix2 u l)
      = if h4 : l.val < 4 then A (ix2 (0 : Fin 1) ⟨l.val, h4⟩)
        else if h8 : l.val < 8 then B (ix2 (0 : Fin 1) ⟨l.val - 4, by omega⟩)
        else if h12 : l.val < 12 then C (ix2 (0 : Fin 1) ⟨l.val - 8, by omega⟩)
        else D (ix2 (0 : Fin 1) ⟨l.val - 12, by have := l.isLt; omega⟩) := by
  have hu : u = 0 := Fin.ext (by omega)
  subst hu
  by_cases h4 : l.val < 4
  · rw [dif_pos h4]
    exact concatenate_apply_piece (t := S1x128) 1 [⟨S1x4, A⟩, ⟨S1x4, B⟩, ⟨S1x4, C⟩, ⟨S1x116, D⟩] h _ 0 (by simp) S1x4 A rfl rfl 0 rfl
      (ix2 0 ⟨l.val, h4⟩) (fun e he => by match e with | ⟨0, _⟩ => rfl | ⟨1, _⟩ => exact absurd rfl he)
      (by show 0 + l.val = l.val; omega)
  · rw [dif_neg h4]
    by_cases h8 : l.val < 8
    · rw [dif_pos h8]
      exact concatenate_apply_piece (t := S1x128) 1 [⟨S1x4, A⟩, ⟨S1x4, B⟩, ⟨S1x4, C⟩, ⟨S1x116, D⟩] h _ 1 (by simp) S1x4 B rfl rfl 4 rfl
        (ix2 0 ⟨l.val - 4, by omega⟩) (fun e he => by match e with | ⟨0, _⟩ => rfl | ⟨1, _⟩ => exact absurd rfl he)
        (by show 4 + (l.val - 4) = l.val; omega)
    · rw [dif_neg h8]
      by_cases h12 : l.val < 12
      · rw [dif_pos h12]
        exact concatenate_apply_piece (t := S1x128) 1 [⟨S1x4, A⟩, ⟨S1x4, B⟩, ⟨S1x4, C⟩, ⟨S1x116, D⟩] h _ 2 (by simp) S1x4 C rfl rfl 8 rfl
          (ix2 0 ⟨l.val - 8, by omega⟩) (fun e he => by match e with | ⟨0, _⟩ => rfl | ⟨1, _⟩ => exact absurd rfl he)
          (by show 8 + (l.val - 8) = l.val; omega)
      · rw [dif_neg h12]
        exact concatenate_apply_piece (t := S1x128) 1 [⟨S1x4, A⟩, ⟨S1x4, B⟩, ⟨S1x4, C⟩, ⟨S1x116, D⟩] h _ 3 (by simp) S1x116 D rfl rfl 12 rfl
          (ix2 0 ⟨l.val - 12, by have := l.isLt; omega⟩)
          (fun e he => by match e with | ⟨0, _⟩ => rfl | ⟨1, _⟩ => exact absurd rfl he)
          (by show 12 + (l.val - 12) = l.val; omega)

/-- A column of words compared with the constant k, as the indicator of bucket k. -/
theorem mask_at (v : IVec S2048x1 32) (c : BitVec 32) (j : Fin 4) (hc : c = BitVec.ofNat 32 j.val) (r : Fin 2048)
    (u : Fin 1) :
    (sitofp (F := Ideal) .f32 (extui 32 (cmpi .eq v (broadcast S2048x1 c)) natLt_1_32)) (ix2 r u)
      = Cert.Spec.ind (fun r' => v (ix2 r' 0)) r j := by
  have hu : u = 0 := Fin.ext (by omega)
  subst hu
  exact maskWord (v (ix2 r 0)) c j hc

/-- The bucket column is read as it is. -/
theorem pay1_eq (x1 : Vec Ideal S2048x1 .i32) : k0_pay1 (F := Ideal) x1 = x1 := shapeCast_self _ _

theorem mask0_at (x1 : Vec Ideal S2048x1 .i32) (r : Fin 2048) (u : Fin 1) :
    k0_pay6 (F := Ideal) x1 (ix2 r u) = Cert.Spec.ind (fun r' => x1 (ix2 r' 0)) r 0 := by
  unfold k0_pay6
  rw [pay1_eq]
  exact mask_at x1 0#32 0 rfl r u

theorem mask1_at (x1 : Vec Ideal S2048x1 .i32) (r : Fin 2048) (u : Fin 1) :
    k0_pay11 (F := Ideal) (k0_pay1 (F := Ideal) x1) (ix2 r u) = Cert.Spec.ind (fun r' => x1 (ix2 r' 0)) r 1 := by
  unfold k0_pay11
  rw [pay1_eq]
  exact mask_at x1 1#32 1 rfl r u

theorem mask2_at (x1 : Vec Ideal S2048x1 .i32) (r : Fin 2048) (u : Fin 1) :
    k0_pay15 (F := Ideal) (k0_pay1 (F := Ideal) x1) (ix2 r u) = Cert.Spec.ind (fun r' => x1 (ix2 r' 0)) r 2 := by
  unfold k0_pay15
  rw [pay1_eq]
  exact mask_at x1 2#32 2 rfl r u

theorem mask3_at (x1 : Vec Ideal S2048x1 .i32) (r : Fin 2048) (u : Fin 1) :
    k0_pay17 (F := Ideal) (k0_pay1 (F := Ideal) x1) (ix2 r u) = Cert.Spec.ind (fun r' => x1 (ix2 r' 0)) r 3 := by
  unfold k0_pay17
  rw [pay1_eq]
  exact mask_at x1 3#32 3 rfl r u

/-- The assembled row at lane l, over any earlier values. -/
theorem pay19_at (v2 : IVec S2048x1 32) (v6 v13 : FVec Ideal S2048x1 .f32)
    (v38 v41 v44 v63 v66 v69 : FVec Ideal S1x1 .f32) (v73 : FVec Ideal S2048x1 .f32) (l : Fin 128) :
    k0_pay19 (F := Ideal) v2 v6 v13 v38 v41 v44 v63 v66 v69 v73 (ix3 (0 : Fin 1) (0 : Fin 1) l)
      = if h4 : l.val < 4 then
          ![v38 (ix2 (0 : Fin 1) (0 : Fin 1)), v63 (ix2 (0 : Fin 1) (0 : Fin 1)),
            ∑ r : Fin 2048, v73 (ix2 r (0 : Fin 1)),
            ∑ r : Fin 2048, k0_pay17 (F := Ideal) v2 (ix2 r (0 : Fin 1))] ⟨l.val, h4⟩
        else if h8 : l.val < 8 then
          ![v41 (ix2 (0 : Fin 1) (0 : Fin 1)), v66 (ix2 (0 : Fin 1) (0 : Fin 1)),
            ∑ r : Fin 2048, v73 (ix2 r (0 : Fin 1)) * v6 (ix2 r (0 : Fin 1)),
            ∑ r : Fin 2048, k0_pay17 (F := Ideal) v2 (ix2 r (0 : Fin 1)) * v6 (ix2 r (0 : Fin 1))] ⟨l.val - 4, by omega⟩
        else if h12 : l.val < 12 then
          ![v44 (ix2 (0 : Fin 1) (0 : Fin 1)), v69 (ix2 (0 : Fin 1) (0 : Fin 1)),
            ∑ r : Fin 2048, v73 (ix2 r (0 : Fin 1)) * v13 (ix2 r (0 : Fin 1)),
            ∑ r : Fin 2048, k0_pay17 (F := Ideal) v2 (ix2 r (0 : Fin 1)) * v13 (ix2 r (0 : Fin 1))] ⟨l.val - 8, by omega⟩
        else 0 := by
  unfold k0_pay19
  rw [shapeCast_ab_1ab_apply, catRow_at]
  by_cases h4 : l.val < 4
  · rw [dif_pos h4, dif_pos h4, cat4_at, sumcol_at, sumcol_at]
  · rw [dif_neg h4, dif_neg h4]
    by_cases h8 : l.val < 8
    · rw [dif_pos h8, dif_pos h8, cat4_at, sumcol_at, sumcol_at]
      rfl
    · rw [dif_neg h8, dif_neg h8]
      by_cases h12 : l.val < 12
      · rw [dif_pos h12, dif_pos h12, cat4_at, sumcol_at, sumcol_at]
        rfl
      · rw [dif_neg h12, dif_neg h12, broadcast_apply]
        exact Ideal.ofBits_zero_f32

theorem vec4_zero {α : Type} (a b c d : α) (h : 0 < 4) : ![a, b, c, d] (⟨0, h⟩ : Fin 4) = a := rfl
theorem vec4_one {α : Type} (a b c d : α) (h : 1 < 4) : ![a, b, c, d] (⟨1, h⟩ : Fin 4) = b := rfl
theorem vec4_two {α : Type} (a b c d : α) (h : 2 < 4) : ![a, b, c, d] (⟨2, h⟩ : Fin 4) = c := rfl
theorem vec4_three {α : Type} (a b c d : α) (h : 3 < 4) : ![a, b, c, d] (⟨3, h⟩ : Fin 4) = d := rfl

theorem zeros2 : (![0, 0] : Fin 2 → Nat) = fun _ => 0 := funext fun a => by fin_cases a <;> rfl
theorem zeros3 : (![0, 0, 0] : Fin 3 → Nat) = fun _ => 0 := funext fun a => by fin_cases a <;> rfl

/-- Lanes 0 … 3: the number of rows in each bucket. -/
theorem counts_at (x1 : Vec Ideal S2048x1 .i32) (j : Fin 4) :
    ![k0_pay8 (F := Ideal) x1 (ix2 (0 : Fin 1) (0 : Fin 1)),
      k0_pay12 (F := Ideal) (k0_pay1 (F := Ideal) x1) (ix2 (0 : Fin 1) (0 : Fin 1)),
      ∑ r : Fin 2048, k0_pay15 (F := Ideal) (k0_pay1 (F := Ideal) x1) (ix2 r (0 : Fin 1)),
      ∑ r : Fin 2048, k0_pay17 (F := Ideal) (k0_pay1 (F := Ideal) x1) (ix2 r (0 : Fin 1))] j
      = ∑ r : Fin 2048, Cert.Spec.ind (fun r' => x1 (ix2 r' 0)) r j := by
  match j with
  | ⟨0, _⟩ =>
    rw [vec4_zero]
    unfold k0_pay8
    rw [sumcol_at]
    exact Finset.sum_congr rfl fun r _ => mask0_at x1 r 0
  | ⟨1, _⟩ =>
    rw [vec4_one]
    unfold k0_pay12
    rw [sumcol_at]
    exact Finset.sum_congr rfl fun r _ => mask1_at x1 r 0
  | ⟨2, _⟩ =>
    rw [vec4_two]
    exact Finset.sum_congr rfl fun r _ => mask2_at x1 r 0
  | ⟨3, _⟩ =>
    rw [vec4_three]
    exact Finset.sum_congr rfl fun r _ => mask3_at x1 r 0

/-- Lanes 4 … 7: the sums of those rows' means. -/
theorem meanSums_at (x0 : Vec Ideal S2048x768 .f32) (x1 : Vec Ideal S2048x1 .i32) (j : Fin 4) :
    ![k0_pay9 (F := Ideal) x0 x1 (ix2 (0 : Fin 1) (0 : Fin 1)),
      k0_pay13 (F := Ideal) (k0_pay1 (F := Ideal) x1) (k0_pay2 (F := Ideal) x0) (ix2 (0 : Fin 1) (0 : Fin 1)),
      ∑ r : Fin 2048, k0_pay15 (F := Ideal) (k0_pay1 (F := Ideal) x1) (ix2 r (0 : Fin 1))
        * k0_pay2 (F := Ideal) x0 (ix2 r (0 : Fin 1)),
      ∑ r : Fin 2048, k0_pay17 (F := Ideal) (k0_pay1 (F := Ideal) x1) (ix2 r (0 : Fin 1))
        * k0_pay2 (F := Ideal) x0 (ix2 r (0 : Fin 1))] j
      = ∑ r : Fin 2048, Cert.Spec.ind (fun r' => x1 (ix2 r' 0)) r j * Cert.Spec.mean x0 r := by
  match j with
  | ⟨0, _⟩ =>
    rw [vec4_zero]
    unfold k0_pay9
    rw [sumcol_at]
    refine Finset.sum_congr rfl fun r _ => ?_
    rw [mulf_apply, mask0_at, pay2_at]
    rfl
  | ⟨1, _⟩ =>
    rw [vec4_one]
    unfold k0_pay13
    rw [sumcol_at]
    refine Finset.sum_congr rfl fun r _ => ?_
    rw [mulf_apply, mask1_at, pay2_at]
    rfl
  | ⟨2, _⟩ =>
    rw [vec4_two]
    refine Finset.sum_congr rfl fun r _ => ?_
    rw [mask2_at, pay2_at]
    rfl
  | ⟨3, _⟩ =>
    rw [vec4_three]
    refine Finset.sum_congr rfl fun r _ => ?_
    rw [mask3_at, pay2_at]
    rfl

/-- Lanes 8 … 11: the sums of those rows' variances. -/
theorem varSums_at (x0 : Vec Ideal S2048x768 .f32) (x1 : Vec Ideal S2048x1 .i32) (j : Fin 4) :
    ![k0_pay10 (F := Ideal) (k0_pay4 (F := Ideal) x0) (k0_pay6 (F := Ideal) x1) (ix2 (0 : Fin 1) (0 : Fin 1)),
      k0_pay14 (F := Ideal) (k0_pay1 (F := Ideal) x1) (k0_pay4 (F := Ideal) x0) (ix2 (0 : Fin 1) (0 : Fin 1)),
      ∑ r : Fin 2048, k0_pay15 (F := Ideal) (k0_pay1 (F := Ideal) x1) (ix2 r (0 : Fin 1))
        * k0_pay4 (F := Ideal) x0 (ix2 r (0 : Fin 1)),
      ∑ r : Fin 2048, k0_pay17 (F := Ideal) (k0_pay1 (F := Ideal) x1) (ix2 r (0 : Fin 1))
        * k0_pay4 (F := Ideal) x0 (ix2 r (0 : Fin 1))] j
      = ∑ r : Fin 2048, Cert.Spec.ind (fun r' => x1 (ix2 r' 0)) r j * Cert.Spec.var x0 r := by
  match j with
  | ⟨0, _⟩ =>
    rw [vec4_zero]
    unfold k0_pay10
    rw [sumcol_at]
    refine Finset.sum_congr rfl fun r _ => ?_
    rw [mulf_apply, mask0_at, pay4_at]
    rfl
  | ⟨1, _⟩ =>
    rw [vec4_one]
    unfold k0_pay14
    rw [sumcol_at]
    refine Finset.sum_congr rfl fun r _ => ?_
    rw [mulf_apply, mask1_at, pay4_at]
    rfl
  | ⟨2, _⟩ =>
    rw [vec4_two]
    refine Finset.sum_congr rfl fun r _ => ?_
    rw [mask2_at, pay4_at]
    rfl
  | ⟨3, _⟩ =>
    rw [vec4_three]
    refine Finset.sum_congr rfl fun r _ => ?_
    rw [mask3_at, pay4_at]
    rfl

/-- Lane l of the block's row of totals. -/
theorem out5_at' (x0 : Vec Ideal S2048x768 .f32) (x1 : Vec Ideal S2048x1 .i32) (x2 x3 : Vec Ideal S4x768 .f32)
    (l : Fin 128) :
    out0_5 (F := Ideal) x0 x1 x2 x3 (ix3 0 0 l) = Cert.Spec.tileLane x0 (fun r' => x1 (ix2 r' 0)) l := by
  unfold out0_5
  rw [View.canon_unit_zero (S := S1x1x128) zeros3 inb_S1x1x128_S1x1x128_0_0_0]
  simp only [View.ld_unit_zero (S := S2048x768) zeros2 inb_S2048x768_S2048x768_0_0,
    View.ld_unit_zero (S := S2048x1) zeros2 inb_S2048x1_S2048x1_0_0]
  rw [pay19_at]
  unfold Cert.Spec.tileLane
  by_cases h4 : l.val < 4
  · rw [dif_pos h4, dif_pos h4]
    exact counts_at x1 _
  · rw [dif_neg h4, dif_neg h4]
    by_cases h8 : l.val < 8
    · rw [dif_pos h8, dif_pos h8]
      exact meanSums_at x0 x1 _
    · rw [dif_neg h8, dif_neg h8]
      by_cases h12 : l.val < 12
      · rw [dif_pos h12, dif_pos h12]
        exact varSums_at x0 x1 _
      · rw [dif_neg h12, dif_neg h12]

end Totals

/-- Lane l of the block's row of totals. -/
theorem out5_at (x0 : Vec Ideal S2048x768 .f32) (x1 : Vec Ideal S2048x1 .i32) (x2 x3 : Vec Ideal S4x768 .f32)
    (l : Fin 128) :
    out0_5 (F := Ideal) x0 x1 x2 x3 (ix3 0 0 l) = Cert.Spec.tileLane x0 (fun r' => x1 (ix2 r' 0)) l := by
  exact Totals.out5_at' x0 x1 x2 x3 l

end Cert.KernelIdeal.Block

end
-- ==== Proof.KArrays.lean ====
/-
  From blocks to arrays. Grid point t stages rows t·2048 … t·2048 + 2047 of the input and of the bucket column, and the
  whole weight and bias tables; it writes back the same rows of the output and row t of the totals. The 32 points'
  blocks tile both output arrays, so each array after the run is one function of the argument arrays.
-/
import proofs.«422991_j82008105550601_2_alg».proof.Proof.KBlock
import Idealize.ShloMosaic.Lib.Pipeline.Value

set_option maxRecDepth 16384

noncomputable section

namespace Cert.KernelIdeal.Arrays

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The bucket numbers as the program receives them, row by row. -/
abbrev bucketOf (c : Dev nD) : Fin 65536 → BitVec 32 := fun i => (m ((c.tc : Thread nD τ).loc main_arg5)) (ix1 i)

/-- Over the 32 grid points: point t stages block (t, 0) of the input, of the bucket column and of the output, block
    (0, 0) of either table, and block (t, 0, 0) of the totals. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- A grid point as a tile number. -/
def tile (t : Fin cfg0.N) : Fin 32 := ⟨t.val, by have h := t.isLt; have hN : cfg0.N = 32 := N_0; omega⟩

/-- The bucket column the region finds is the bucket vector, one number per row. -/
theorem bucket_column (c : Dev nD) :
    (V m c main_v0 : S65536x1.Idx → BitVec 32)
      = shapeCast S65536x1 (m ((c.tc : Thread nD τ).loc main_arg5)) shapeCasts_S65536_S65536x1 := by
  show StableHlo.after hostOps0 (fun b => m (c, b)) (Proc.devRef .tc main_v0) = _
  after_results
  rfl

/-- Entry (i, 0) of the bucket column is the bucket number of row i. -/
theorem bucket_column_at (c : Dev nD) (i : Fin 65536) :
    (V m c main_v0 : S65536x1.Idx → BitVec 32) (ix2 i 0) = bucketOf m c i := by
  rw [bucket_column]
  refine shapeCast_apply _ _ (ix2 i 0) (ix1 i) ?_
  rw [Shape.rowMajor_val_one, Shape.rowMajor_val_two]
  show i.val = i.val * 1 + 0
  omega

/-- Row r of the input block at point t is row t·2048 + r of the input array. -/
theorem input_block_at (c : Dev nD) (t : Fin cfg0.N) (r : Fin 2048) (k : Fin 768) :
    (iblk m c 0 t : Vec Ideal S2048x768 .f32) (ix2 r k)
      = (m ((c.tc : Thread nD τ).loc main_arg0) : S65536x768.Idx → EReal) (ix2 (Cert.Spec.glob (tile t) r) k) := by
  obtain ⟨e0, e1, -⟩ := block_indices t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * r.val = t.val * 2048 + r.val; rw [e0]; omega
  | ⟨1, _⟩ => show win0_0.index t (1 : Fin 2) * 768 + 1 * k.val = k.val; rw [e1]; omega

/-- Row r of the bucket block at point t is the bucket number of row t·2048 + r. -/
theorem bucket_block_at (c : Dev nD) (t : Fin cfg0.N) (r : Fin 2048) :
    (iblk m c 1 t : Vec Ideal S2048x1 .i32) (ix2 r 0) = bucketOf m c (Cert.Spec.glob (tile t) r) := by
  obtain ⟨-, -, e0, e1, -⟩ := block_indices t
  unfold iblk
  rw [View.read_apply]
  show V m c main_v0 _ = _
  refine Eq.trans (congrArg _ (funext fun a => Fin.ext ?_)) (bucket_column_at m c (Cert.Spec.glob (tile t) r))
  match a with
  | ⟨0, _⟩ => show win0_1.index t (0 : Fin 2) * 2048 + 1 * r.val = t.val * 2048 + r.val; rw [e0]; omega
  | ⟨1, _⟩ => show win0_1.index t (1 : Fin 2) * 1 + 1 * 0 = 0; rw [e1]

/-- Either table is staged whole at every point: the weight table, -/
theorem weight_block (c : Dev nD) (t : Fin cfg0.N) :
    (iblk m c 2 t : Vec Ideal S4x768 .f32) = m ((c.tc : Thread nD τ).loc main_arg1) := by
  obtain ⟨-, -, -, -, e0, e1, -⟩ := block_indices t
  funext y
  unfold iblk
  rw [View.read_apply]
  show V m c main_arg1 _ = _
  rw [V_main_arg1]
  refine congrArg _ (funext fun a => Fin.ext ?_)
  match a with
  | ⟨0, _⟩ => show win0_2.index t (0 : Fin 2) * 4 + 1 * (y 0).val = (y 0).val; rw [e0]; omega
  | ⟨1, _⟩ => show win0_2.index t (1 : Fin 2) * 768 + 1 * (y 1).val = (y 1).val; rw [e1]; omega

/-- The bias table likewise. -/
theorem bias_block (c : Dev nD) (t : Fin cfg0.N) :
    (iblk m c 3 t : Vec Ideal S4x768 .f32) = m ((c.tc : Thread nD τ).loc main_arg2) := by
  obtain ⟨-, -, -, -, -, -, e0, e1, -⟩ := block_indices t
  funext y
  unfold iblk
  rw [View.read_apply]
  show V m c main_arg2 _ = _
  rw [V_main_arg2]
  refine congrArg _ (funext fun a => Fin.ext ?_)
  match a with
  | ⟨0, _⟩ => show win0_3.index t (0 : Fin 2) * 4 + 1 * (y 0).val = (y 0).val; rw [e0]; omega
  | ⟨1, _⟩ => show win0_3.index t (1 : Fin 2) * 768 + 1 * (y 1).val = (y 1).val; rw [e1]; omega

/-- One point's output block, entry by entry, is the masked form of the whole array at the tile's rows: for blocks
    that hold the tile's rows of the input and of the bucket column. -/
theorem out_block_rows (x0 : Vec Ideal S2048x768 .f32) (x1 : Vec Ideal S2048x1 .i32) (x2 x3 : Vec Ideal S4x768 .f32)
    (X : Vec Ideal S65536x768 .f32) (B : Fin 65536 → BitVec 32) (tt : Fin 32)
    (hx : ∀ (r : Fin 2048) (k : Fin 768), x0 (ix2 r k) = X (ix2 (Cert.Spec.glob tt r) k))
    (hb : ∀ r : Fin 2048, x1 (ix2 r 0) = B (Cert.Spec.glob tt r))
    (j : S2048x768.Idx) (i : S65536x768.Idx)
    (h0 : (i 0).val = tt.val * 2048 + (j 0).val) (h1 : (i 1).val = (j 1).val) :
    out0_4 (F := Ideal) x0 x1 x2 x3 j = Cert.Spec.masked X x2 x3 B i := by
  obtain ⟨r, k, rfl⟩ : ∃ (r : Fin 2048) (k : Fin 768), j = ix2 r k := ⟨j 0, j 1, eq_ix2 j⟩
  obtain ⟨p, q, rfl⟩ : ∃ (p : Fin 65536) (q : Fin 768), i = ix2 p q := ⟨i 0, i 1, eq_ix2 i⟩
  obtain rfl : p = Cert.Spec.glob tt r := Fin.ext h0
  obtain rfl : k = q := (Fin.ext h1).symm
  rw [Block.out4_at, Cert.Spec.masked_apply]
  exact Cert.Spec.maskedAt_congr (bucket := fun r' => x1 (ix2 r' 0)) (bucket' := B) x2 x3 (hx r) (hb r) k

/-- What point t writes back to the output array is block t of the masked form of the argument arrays. -/
theorem flushed4_eq (c : Dev nD) (t : Fin cfg0.N) :
    (dats (F := Ideal) m 0 c).flushed 4 t
      = ((cfg0.win 4).blk t).view.read (Elt Ideal)
          (Cert.Spec.masked (m ((c.tc : Thread nD τ).loc main_arg0)) (m ((c.tc : Thread nD τ).loc main_arg1)) (m ((c.tc : Thread nD τ).loc main_arg2)) (bucketOf m c)) := by
  show (cfg0.win 4).cut (grid0.coords t) ((dats m 0 c).after 4 t) = _
  rw [after0_4, weight_block, bias_block]
  obtain ⟨-, -, -, -, -, -, -, -, e0, e1, -⟩ := block_indices t
  funext j
  show out0_4 (F := Ideal) (iblk m c 0 t) (iblk m c 1 t) (m ((c.tc : Thread nD τ).loc main_arg1)) (m ((c.tc : Thread nD τ).loc main_arg2)) j
    = Cert.Spec.masked (m ((c.tc : Thread nD τ).loc main_arg0)) (m ((c.tc : Thread nD τ).loc main_arg1)) (m ((c.tc : Thread nD τ).loc main_arg2)) (bucketOf m c) (((cfg0.win 4).blk t).view.emb j)
  refine out_block_rows _ _ _ _ _ _ (tile t) (input_block_at m c t) (bucket_block_at m c t) j _ ?_ ?_
  · show win0_4.index t (0 : Fin 2) * 2048 + 1 * (j 0).val = t.val * 2048 + (j 0).val; rw [e0]; omega
  · show win0_4.index t (1 : Fin 2) * 768 + 1 * (j 1).val = (j 1).val; rw [e1]; omega

/-- An index of the output array lies in point t's block iff each coordinate lies in the block's range. -/
theorem mem_out_block (t : Fin cfg0.N) (i : S65536x768.Idx) :
    i ∈ ((cfg0.win 4).blk t).view.set ↔ ∀ a : Fin 2, win0_4.index t a * S2048x768.size a ≤ (i a).val ∧ (i a).val < win0_4.index t a * S2048x768.size a + S2048x768.size a := by
  show i ∈ ((View.whole main_v1_0).slice (win0_4.rect t)).set ↔ _
  rw [View.set_slice_whole, Rect.mem_set_unit]
  exact Iff.rfl

/-- The output array after the run is the masked form over all 65536 rows: the block of point i / 2048 covers row i. -/
theorem final_out (c : Dev nD) :
    (dats (F := Ideal) m 0 c).arrAt 4 cfg0.N
      = Cert.Spec.masked (m ((c.tc : Thread nD τ).loc main_arg0)) (m ((c.tc : Thread nD τ).loc main_arg1)) (m ((c.tc : Thread nD τ).loc main_arg2)) (bucketOf m c) :=
  (dats (F := Ideal) m 0 c).arrAt_eq_of_cover 4 _ (fun t _ => flushed4_eq m c t) fun i => by
    have hi0 : (i 0).val < 65536 := (i 0).isLt
    have hi1 : (i 1).val < 768 := (i 1).isLt
    have hN : cfg0.N = 32 := N_0
    obtain ⟨t, ht⟩ : ∃ t : Fin cfg0.N, t.val = (i 0).val / 2048 := ⟨⟨(i 0).val / 2048, by omega⟩, rfl⟩
    obtain ⟨-, -, -, -, -, -, -, -, e0, e1, -⟩ := block_indices t
    refine ⟨t, flush0_4 t, ?_⟩
    rw [mem_out_block]
    intro a
    match a with
    | ⟨0, _⟩ => show win0_4.index t (0 : Fin 2) * 2048 ≤ (i 0).val ∧ (i 0).val < win0_4.index t (0 : Fin 2) * 2048 + 2048; omega
    | ⟨1, _⟩ => show win0_4.index t (1 : Fin 2) * 768 ≤ (i 1).val ∧ (i 1).val < win0_4.index t (1 : Fin 2) * 768 + 768; omega

/-! ### The totals -/

/-- One point's row of totals, lane by lane, is the tile's row of the array of totals: for blocks that hold the tile's
    rows of the input and of the bucket column. -/
theorem totals_block_lanes (x0 : Vec Ideal S2048x768 .f32) (x1 : Vec Ideal S2048x1 .i32) (x2 x3 : Vec Ideal S4x768 .f32)
    (X : Vec Ideal S65536x768 .f32) (B : Fin 65536 → BitVec 32) (tt : Fin 32)
    (hx : ∀ (r : Fin 2048) (k : Fin 768), x0 (ix2 r k) = X (ix2 (Cert.Spec.glob tt r) k))
    (hb : ∀ r : Fin 2048, x1 (ix2 r 0) = B (Cert.Spec.glob tt r))
    (j : S1x1x128.Idx) (i : S32x1x128.Idx)
    (h0 : (i 0).val = tt.val) (h2 : (i 2).val = (j 2).val) :
    out0_5 (F := Ideal) x0 x1 x2 x3 j = Cert.Spec.tileTotals X B i := by
  obtain ⟨a, b, l, rfl⟩ : ∃ (a b : Fin 1) (l : Fin 128), j = ix3 a b l := ⟨j 0, j 1, j 2, eq_ix3 j⟩
  obtain ⟨p, q, l', rfl⟩ : ∃ (p : Fin 32) (q : Fin 1) (l' : Fin 128), i = ix3 p q l' := ⟨i 0, i 1, i 2, eq_ix3 i⟩
  obtain rfl : p = tt := Fin.ext h0
  obtain rfl : l = l' := (Fin.ext h2).symm
  obtain rfl : a = 0 := Subsingleton.elim _ _
  obtain rfl : b = 0 := Subsingleton.elim _ _
  have ex : x0 = Cert.Spec.tileRows X p := funext fun z => by
    obtain ⟨r, k, rfl⟩ : ∃ (r : Fin 2048) (k : Fin 768), z = ix2 r k := ⟨z 0, z 1, eq_ix2 z⟩
    exact hx r k
  have eb : (fun r' : Fin 2048 => x1 (ix2 r' 0)) = fun r => B (Cert.Spec.glob p r) := funext hb
  rw [Block.out5_at, eb, ex]
  rfl

/-- What point t writes back to the array of totals is block t of the tiles' rows of totals. -/
theorem flushed5_eq (c : Dev nD) (t : Fin cfg0.N) :
    (dats (F := Ideal) m 0 c).flushed 5 t
      = ((cfg0.win 5).blk t).view.read (Elt Ideal)
          (Cert.Spec.tileTotals (m ((c.tc : Thread nD τ).loc main_arg0)) (bucketOf m c)) := by
  show (cfg0.win 5).cut (grid0.coords t) ((dats m 0 c).after 5 t) = _
  rw [after0_5]
  obtain ⟨-, -, -, -, -, -, -, -, -, -, e0, e1, e2⟩ := block_indices t
  funext j
  show out0_5 (F := Ideal) (iblk m c 0 t) (iblk m c 1 t) (iblk m c 2 t) (iblk m c 3 t) j
    = Cert.Spec.tileTotals (m ((c.tc : Thread nD τ).loc main_arg0)) (bucketOf m c) (((cfg0.win 5).blk t).view.emb j)
  refine totals_block_lanes _ _ _ _ _ _ (tile t) (input_block_at m c t) (bucket_block_at m c t) j _ ?_ ?_
  · show win0_5.index t (0 : Fin 3) * 1 + 1 * (j 0).val = t.val
    have hj : (j 0).val < 1 := (j 0).isLt
    rw [e0]; omega
  · show win0_5.index t (2 : Fin 3) * 128 + 1 * (j 2).val = (j 2).val; rw [e2]; omega

/-- An index of the array of totals lies in point t's block iff each coordinate lies in the block's range. -/
theorem mem_totals_block (t : Fin cfg0.N) (i : S32x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v1_1).slice (win0_5.rect t)).set ↔ _
  rw [View.set_slice_whole, Rect.mem_set_unit]
  exact Iff.rfl

/-- The array of totals after the run holds each tile's row of totals: the block of point t covers row t. -/
theorem final_totals (c : Dev nD) :
    (dats (F := Ideal) m 0 c).arrAt 5 cfg0.N
      = Cert.Spec.tileTotals (m ((c.tc : Thread nD τ).loc main_arg0)) (bucketOf m c) :=
  (dats (F := Ideal) m 0 c).arrAt_eq_of_cover 5 _ (fun t _ => flushed5_eq m c t) fun i => by
    have hi0 : (i 0).val < 32 := (i 0).isLt
    have hi1 : (i 1).val < 1 := (i 1).isLt
    have hi2 : (i 2).val < 128 := (i 2).isLt
    have hN : cfg0.N = 32 := N_0
    obtain ⟨t, ht⟩ : ∃ t : Fin cfg0.N, t.val = (i 0).val := ⟨⟨(i 0).val, by omega⟩, rfl⟩
    obtain ⟨-, -, -, -, -, -, -, -, -, -, e0, e1, e2⟩ := block_indices t
    refine ⟨t, flush0_5 t, ?_⟩
    rw [mem_totals_block]
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 1 ≤ (i 1).val ∧ (i 1).val < win0_5.index t (1 : Fin 3) * 1 + 1; omega
    | ⟨2, _⟩ => show win0_5.index t (2 : Fin 3) * 128 ≤ (i 2).val ∧ (i 2).val < win0_5.index t (2 : Fin 3) * 128 + 128; omega

end Cert.KernelIdeal.Arrays

end
-- ==== Proof.Tail.lean ====
/-
  The running per-bucket centroids after one step, as one function of the step's per-bucket totals.

  With `added` the number of rows that fell in each bucket, `ms` and `vs` the sums of their means and variances,
  `bk` the running (mean, variance) pair of each bucket and `amt` the running counts: the new count is amt + added;
  where it is nonzero the weight is rel = added / max(new count, 1), else 0; each running value b moves to
  total · 2⁻¹⁶ · rel + b · (1 − rel) where the new count is nonzero and stays b elsewhere; the two columns are joined
  again. Both programs end with exactly these operations, so the function is carried whole and never opened.
-/
import proofs.«422991_j82008105550601_2_alg».proof.KernelIdeal

noncomputable section

namespace Cert.Tail

open Idealize.ShloMosaic Cert.KernelIdeal Cert.KernelIdeal.Facts₀

variable [Cert.KernelIdeal.Facts] {F : FTy → Type} [FloatOps F]

/-- The new running (mean, variance) pairs. -/
def newBuckets (added : IVec S4 32) (ms vs : FVec F S4 .f32) (bk : FVec F S4x2 .f32) (amt : IVec S4 32) :
    FVec F S4x2 .f32 :=
  let total : IVec S4 32 := addi amt added
  let nonzero : IVec S4 1 := cmpi .ne total (broadcastInDim S4 ![] bcast_S_S4 (constantI S_ 32 0#32))
  let ratio : FVec F S4 .f32 :=
    Host.divf (sitofp .f32 added) (sitofp .f32 (maxsi total (broadcastInDim S4 ![] bcast_S_S4 (constantI S_ 32 1#32))))
  let rel : FVec F S4 .f32 := select nonzero ratio (broadcastInDim S4 ![] bcast_S_S4 (constant S_ .f32 0x00000000#32))
  let scale : FVec F S4 .f32 := broadcastInDim S4 ![] bcast_S_S4 (constant S_ .f32 0x37800000#32)
  let one : FVec F S4 .f32 := broadcastInDim S4 ![] bcast_S_S4 (constant S_ .f32 0x3F800000#32)
  let b0 : FVec F S4 .f32 := shapeCast S4 (extractStridedSlice S4x1 ![0, 0] bk slices_S4x2_S4x1_0_0) shapeCasts_S4x1_S4
  let b1 : FVec F S4 .f32 := shapeCast S4 (extractStridedSlice S4x1 ![0, 1] bk slices_S4x2_S4x1_0_1) shapeCasts_S4x1_S4
  let n0 : FVec F S4 .f32 := select nonzero (addf (mulf (mulf ms scale) rel) (mulf b0 (subf one rel))) b0
  let n1 : FVec F S4 .f32 := select nonzero (addf (mulf (mulf vs scale) rel) (mulf b1 (subf one rel))) b1
  concatenate S4x2 1 [⟨S4x1, broadcastInDim S4x1 ![0] bcast_S4_S4x1_0 n0⟩, ⟨S4x1, broadcastInDim S4x1 ![0] bcast_S4_S4x1_0 n1⟩]
    concatenates_S4x1_S4x1_S4x2_d1

end Cert.Tail

end
-- ==== Proof.LibHostCalls.lean ====
/-
  Reading back host lines that came from a module-local function (a `func.call` such as jnp.take's `@_take` or jnp.clip's
  `@clip`, whose operations are the typed-reference builders `TRef.unary`, `TRef.binary`, …).

  A typed builder writes its result through `TRef.toBuf` and reads its operands through `TRef.ofBuf`, both casts along the
  reference's `ty_eq`.  A value passed from one operation of the function to the next is therefore wrapped
  `ofBuf (toBuf v)`: moved to the buffer's own type and back.  `cast_round` says such a round trip is the value, whatever
  the two equalities' proofs are, so `simp only [TRef.toBuf, TRef.ofBuf, cast_round]` cancels every pair syntactically,
  without looking at any buffer's type.  What is left afterwards is at most one cast around the whole result — removed by
  `refine eq_of_heq ((cast_heq _ _).trans (heq_of_eq ?_))` — and casts around the values read from the valuation, each
  rewritten by a local equation `∀ h, cast h (W b) = W b := fun _ => rfl` stated at the buffer's literal type.
  A long line is best read in parts, each from an arbitrary valuation, joined by the library's `StableHlo.after_append`.
-/
import Idealize.ShloMosaic.Lib.StableHlo.Run

noncomputable section

namespace HostCalls

open Idealize.ShloMosaic Idealize.ShloMosaic.StableHlo

/-- A value moved to another type along an equality and back is the value, whatever the two equalities' proofs. -/
theorem cast_round {A B : Type} (h1 : A = B) (h2 : B = A) (v : A) : cast h2 (cast h1 v) = v := by
  subst h1; rfl

end HostCalls

end
-- ==== Proof.KTail.lean ====
/-
  The kernel program's run with its three results named: the output array, the new running centroids and the new
  running counts. The lines after the region add the 32 tiles' rows of totals lane by lane, split the first twelve
  lanes into counts, mean sums and variance sums, round and convert the counts, and apply the centroid update.
-/
import proofs.«422991_j82008105550601_2_alg».proof.Proof.KArrays
import proofs.«422991_j82008105550601_2_alg».proof.Proof.Tail
import proofs.«422991_j82008105550601_2_alg».proof.Proof.LibHostCalls
import Idealize.ShloMosaic.Lib.StableHlo.Run
import Idealize.ShloMosaic.PureOps.Ideal.Laws
import Idealize.ShloMosaic.Lib.ValueLayout

set_option maxRecDepth 16384

noncomputable section

namespace Cert.KernelIdeal.KVal

open Idealize.ShloMosaic Idealize.ShloMosaic.ValueIdx Idealize.ShloMosaic.TcCoe Idealize.SL.Sem
open Cert.KernelIdeal Cert.KernelIdeal.Gen Cert.KernelIdeal.Arrays

/-! ## The lines after the totals are split, from any contents -/

section Lines
variable {F : FTy → Type} [FloatOps F]

/-- One column of the centroid update: with `added` the rows that fell in each bucket, `tot` the column's totals,
    `b` the column's running values and `amt` the running counts. -/
def newColumn (added : IVec S4 32) (tot b : FVec F S4 .f32) (amt : IVec S4 32) : FVec F S4 .f32 :=
  let total : IVec S4 32 := addi amt added
  let nonzero : IVec S4 1 := cmpi .ne total (broadcastInDim S4 ![] bcast_S_S4 (constantI S_ 32 0#32))
  let ratio : FVec F S4 .f32 :=
    Host.divf (sitofp .f32 added) (sitofp .f32 (maxsi total (broadcastInDim S4 ![] bcast_S_S4 (constantI S_ 32 1#32))))
  let rel : FVec F S4 .f32 := select nonzero ratio (broadcastInDim S4 ![] bcast_S_S4 (constant S_ .f32 0x00000000#32))
  let scale : FVec F S4 .f32 := broadcastInDim S4 ![] bcast_S_S4 (constant S_ .f32 0x37800000#32)
  let one : FVec F S4 .f32 := broadcastInDim S4 ![] bcast_S_S4 (constant S_ .f32 0x3F800000#32)
  select nonzero (addf (mulf (mulf tot scale) rel) (mulf b (subf one rel))) b

/-- The lines between the split of the totals and the joining of the two columns. -/
abbrev midOps : List (HloOp τ sig (Elt F)) :=
  hostOps1_1 ++ (hostOps1_2 ++ (hostOps1_3 ++ (hostOps1_4 ++ (hostOps1_5 ++ (hostOps1_6 ++ hostOps1_7)))))

/-- They leave the new running counts, -/
theorem mid_v14 (W : Valuation τ sig (Elt F)) :
    StableHlo.after (midOps (F := F)) W (Proc.devRef .tc main_v14)
      = addi (W (Proc.devRef .tc main_arg4)) (fptosi 32 (Host.roundeven (W (Proc.devRef .tc main_v7)))) := by
  simp only [midOps, hostOps1_1, hostOps1_2, hostOps1_3, hostOps1_4, hostOps1_5, hostOps1_6, hostOps1_7, List.cons_append, List.nil_append]
  after_results_simp
  rfl

/-- the updated column of means, -/
theorem mid_v36 (W : Valuation τ sig (Elt F)) :
    StableHlo.after (midOps (F := F)) W (Proc.devRef .tc main_v36)
      = newColumn (fptosi 32 (Host.roundeven (W (Proc.devRef .tc main_v7)))) (W (Proc.devRef .tc main_v9))
          (shapeCast S4 (extractStridedSlice S4x1 ![0, 0] (W (Proc.devRef .tc main_arg3)) slices_S4x2_S4x1_0_0) shapeCasts_S4x1_S4)
          (W (Proc.devRef .tc main_arg4)) := by
  simp only [midOps, hostOps1_1, hostOps1_2, hostOps1_3, hostOps1_4, hostOps1_5, hostOps1_6, hostOps1_7, List.cons_append, List.nil_append]
  after_results_simp
  rfl

/-- and the updated column of variances. -/
theorem mid_v46 (W : Valuation τ sig (Elt F)) :
    StableHlo.after (midOps (F := F)) W (Proc.devRef .tc main_v46)
      = newColumn (fptosi 32 (Host.roundeven (W (Proc.devRef .tc main_v7)))) (W (Proc.devRef .tc main_v11))
          (shapeCast S4 (extractStridedSlice S4x1 ![0, 1] (W (Proc.devRef .tc main_arg3)) slices_S4x2_S4x1_0_1) shapeCasts_S4x1_S4)
          (W (Proc.devRef .tc main_arg4)) := by
  simp only [midOps, hostOps1_1, hostOps1_2, hostOps1_3, hostOps1_4, hostOps1_5, hostOps1_6, hostOps1_7, List.cons_append, List.nil_append]
  after_results_simp
  rfl

/-- The two columns joined are the new running pairs. -/
theorem rest_v49 (W : Valuation τ sig (Elt F)) :
    StableHlo.after (midOps (F := F) ++ hostOps1_8) W (Proc.devRef .tc main_v49)
      = Cert.Tail.newBuckets (F := F) (fptosi 32 (Host.roundeven (W (Proc.devRef .tc main_v7)))) (W (Proc.devRef .tc main_v9))
          (W (Proc.devRef .tc main_v11)) (W (Proc.devRef .tc main_arg3)) (W (Proc.devRef .tc main_arg4)) := by
  rw [StableHlo.after_append]
  after_results
  rw [mid_v36, mid_v46]
  rfl

/-- The last three lines leave the new running counts as they are. -/
theorem rest_v14 (W : Valuation τ sig (Elt F)) :
    StableHlo.after (midOps (F := F) ++ hostOps1_8) W (Proc.devRef .tc main_v14)
      = addi (W (Proc.devRef .tc main_arg4)) (fptosi 32 (Host.roundeven (W (Proc.devRef .tc main_v7)))) := by
  rw [StableHlo.after_append]
  after_results
  exact mid_v14 W

end Lines

/-! ## The totals split: lanes 0 … 11 of the 32 tiles' rows, added tile by tile, as three rows of four -/

section Totals

/-- The twelve lane sums laid out as three rows of four. -/
abbrev laneSums (X : FVec Ideal S32x1x128 .f32) : FVec Ideal S3x4 .f32 :=
  shapeCast S3x4 (Host.reduceAdd (F := Ideal)
      (shapeCast S32x12 (extractStridedSlice S32x1x12 ![0, 0, 0] X slices_S32x1x128_S32x1x12_0_0_0) shapeCasts_S32x1x12_S32x12)
      (constant (F := Ideal) S_ .f32 0x00000000#32) reducesTo_S32x12_S12_d0 h_S_) shapeCasts_S12_S3x4

/-- Entry (r, k) of them is the sum over the tiles of lane 4 r + k. -/
theorem laneSums_apply (X : FVec Ideal S32x1x128 .f32) (r : Fin 3) (k : Fin 4) :
    laneSums X (ix2 r k) = ∑ t : Fin 32, X (ix3 t 0 ⟨4 * r.val + k.val, by omega⟩) := by
  have hred : S32x12.Reduces [0] S12 := by decide
  refine (shapeCast_apply _ _ (ix2 r k) (ix1 ⟨4 * r.val + k.val, by omega⟩) ?_).trans ?_
  · rw [Shape.rowMajor_val_one, Shape.rowMajor_val_two]
    show 4 * r.val + k.val = r.val * 4 + k.val
    omega
  refine (Ideal.hostReduceAdd_single reducesTo_S32x12_S12_d0 hred _ _ _).trans ?_
  rw [show (constant (F := Ideal) S_ .f32 0x00000000#32) (Shape.Idx.first h_S_) = 0 from Ideal.ofBits_zero_f32, zero_add]
  refine Finset.sum_congr rfl fun t _ => ?_
  refine (shapeCast_apply _ _ _ (ix3 t 0 ⟨4 * r.val + k.val, by omega⟩) ?_).trans ?_
  · rw [Shape.rowMajor_val_three, Shape.rowMajor_val_two]
    show (t.val * 1 + 0) * 12 + (4 * r.val + k.val) = t.val * 12 + (4 * r.val + k.val)
    omega
  exact extractStridedSlice_apply _ _ _ _ (ix3 t 0 ⟨4 * r.val + k.val, by omega⟩) (fun a => by
    match a with
    | ⟨0, _⟩ => exact (Nat.zero_add _).symm
    | ⟨1, _⟩ => exact (Nat.zero_add _).symm
    | ⟨2, _⟩ => exact (Nat.zero_add _).symm)

/-- A tile's row of totals at a lane below 4 counts the tile's rows in that bucket, -/
theorem tileLane_count {N : ℕ} (x : FVec Ideal ⟨2, ![N, 768]⟩ .f32) (bucket : Fin N → BitVec 32) (k : Fin 4) (l : Fin 128)
    (hl : l.val = k.val) : Cert.Spec.tileLane x bucket l = ∑ r : Fin N, Cert.Spec.ind bucket r k := by
  unfold Cert.Spec.tileLane
  rw [dif_pos (show l.val < 4 by omega)]
  exact Finset.sum_congr rfl fun r _ => congrArg (Cert.Spec.ind bucket r) (Fin.ext hl)

/-- at lane 4 + k adds the means of the tile's rows in bucket k, -/
theorem tileLane_mean {N : ℕ} (x : FVec Ideal ⟨2, ![N, 768]⟩ .f32) (bucket : Fin N → BitVec 32) (k : Fin 4) (l : Fin 128)
    (hl : l.val = 4 + k.val) : Cert.Spec.tileLane x bucket l = ∑ r : Fin N, Cert.Spec.ind bucket r k * Cert.Spec.mean x r := by
  unfold Cert.Spec.tileLane
  rw [dif_neg (show ¬ l.val < 4 by omega), dif_pos (show l.val < 8 by omega)]
  exact Finset.sum_congr rfl fun r _ =>
    congrArg (· * Cert.Spec.mean x r) (congrArg (Cert.Spec.ind bucket r) (Fin.ext (show l.val - 4 = k.val by omega)))

/-- and at lane 8 + k their variances. -/
theorem tileLane_var {N : ℕ} (x : FVec Ideal ⟨2, ![N, 768]⟩ .f32) (bucket : Fin N → BitVec 32) (k : Fin 4) (l : Fin 128)
    (hl : l.val = 8 + k.val) : Cert.Spec.tileLane x bucket l = ∑ r : Fin N, Cert.Spec.ind bucket r k * Cert.Spec.var x r := by
  unfold Cert.Spec.tileLane
  rw [dif_neg (show ¬ l.val < 4 by omega), dif_neg (show ¬ l.val < 8 by omega), dif_pos (show l.val < 12 by omega)]
  exact Finset.sum_congr rfl fun r _ =>
    congrArg (· * Cert.Spec.var x r) (congrArg (Cert.Spec.ind bucket r) (Fin.ext (show l.val - 8 = k.val by omega)))

variable (x : FVec Ideal ⟨2, ![65536, 768]⟩ .f32) (bucket : Fin 65536 → BitVec 32)

/-- Row 0 of the lane sums of the tiles' totals: the tile-by-tile counts. -/
theorem split_counts :
    shapeCast S4 (extractStridedSlice S1x4 ![0, 0] (laneSums (Cert.Spec.tileTotals x bucket)) slices_S3x4_S1x4_0_0) shapeCasts_S1x4_S4
      = Cert.Spec.countTiled bucket := by
  funext j
  obtain ⟨k, rfl⟩ : ∃ k : Fin 4, j = ix1 k := ⟨j 0, eq_ix1 j⟩
  refine ((shapeCast_1a_a_apply _ _ k).trans (slice2_axis0_apply 0 _ _ 0 k 0 rfl)).trans ((laneSums_apply _ 0 k).trans ?_)
  show _ = ∑ t : Fin 32, ∑ r : Fin 2048, Cert.Spec.ind bucket (Cert.Spec.glob t r) k
  refine Finset.sum_congr rfl fun t _ => ?_
  exact tileLane_count (Cert.Spec.tileRows x t) (fun r => bucket (Cert.Spec.glob t r)) k _ (show 4 * 0 + k.val = k.val by omega)

/-- Row 1: the tile-by-tile sums of means. -/
theorem split_means :
    shapeCast S4 (extractStridedSlice S1x4 ![1, 0] (laneSums (Cert.Spec.tileTotals x bucket)) slices_S3x4_S1x4_1_0) shapeCasts_S1x4_S4
      = Cert.Spec.meanSumTiled x bucket := by
  funext j
  obtain ⟨k, rfl⟩ : ∃ k : Fin 4, j = ix1 k := ⟨j 0, eq_ix1 j⟩
  refine ((shapeCast_1a_a_apply _ _ k).trans (slice2_axis0_apply 1 _ _ 0 k 1 rfl)).trans ((laneSums_apply _ 1 k).trans ?_)
  show _ = ∑ t : Fin 32, ∑ r : Fin 2048, Cert.Spec.ind bucket (Cert.Spec.glob t r) k * Cert.Spec.mean x (Cert.Spec.glob t r)
  refine Finset.sum_congr rfl fun t _ => ?_
  refine (tileLane_mean (Cert.Spec.tileRows x t) (fun r => bucket (Cert.Spec.glob t r)) k _ (show 4 * 1 + k.val = 4 + k.val by omega)).trans ?_
  exact Finset.sum_congr rfl fun r _ =>
    congrArg (Cert.Spec.ind bucket (Cert.Spec.glob t r) k * ·) (Cert.Spec.mean_congr fun _ => rfl)

/-- Row 2: the tile-by-tile sums of variances. -/
theorem split_vars :
    shapeCast S4 (extractStridedSlice S1x4 ![2, 0] (laneSums (Cert.Spec.tileTotals x bucket)) slices_S3x4_S1x4_2_0) shapeCasts_S1x4_S4
      = Cert.Spec.varSumTiled x bucket := by
  funext j
  obtain ⟨k, rfl⟩ : ∃ k : Fin 4, j = ix1 k := ⟨j 0, eq_ix1 j⟩
  refine ((shapeCast_1a_a_apply _ _ k).trans (slice2_axis0_apply 2 _ _ 0 k 2 rfl)).trans ((laneSums_apply _ 2 k).trans ?_)
  show _ = ∑ t : Fin 32, ∑ r : Fin 2048, Cert.Spec.ind bucket (Cert.Spec.glob t r) k * Cert.Spec.var x (Cert.Spec.glob t r)
  refine Finset.sum_congr rfl fun t _ => ?_
  refine (tileLane_var (Cert.Spec.tileRows x t) (fun r => bucket (Cert.Spec.glob t r)) k _ (show 4 * 2 + k.val = 8 + k.val by omega)).trans ?_
  exact Finset.sum_congr rfl fun r _ =>
    congrArg (Cert.Spec.ind bucket (Cert.Spec.glob t r) k * ·) (Cert.Spec.var_congr fun _ => rfl)

end Totals

/-! ## The first stretch after the region, from any contents -/

section First
variable (W : Valuation τ sig (Elt Ideal))

/-- Its three results are the three rows of the lane sums of the totals array, -/
theorem first_v7 :
    StableHlo.after (hostOps1 (F := Ideal)) W (Proc.devRef .tc main_v7)
      = shapeCast S4 (extractStridedSlice S1x4 ![0, 0] (laneSums (W (Proc.devRef .tc main_v1_1))) slices_S3x4_S1x4_0_0) shapeCasts_S1x4_S4 := by
  dsimp only [hostOps1]
  after_results <;> rfl

theorem first_v9 :
    StableHlo.after (hostOps1 (F := Ideal)) W (Proc.devRef .tc main_v9)
      = shapeCast S4 (extractStridedSlice S1x4 ![1, 0] (laneSums (W (Proc.devRef .tc main_v1_1))) slices_S3x4_S1x4_1_0) shapeCasts_S1x4_S4 := by
  dsimp only [hostOps1]
  after_results <;> rfl

theorem first_v11 :
    StableHlo.after (hostOps1 (F := Ideal)) W (Proc.devRef .tc main_v11)
      = shapeCast S4 (extractStridedSlice S1x4 ![2, 0] (laneSums (W (Proc.devRef .tc main_v1_1))) slices_S3x4_S1x4_2_0) shapeCasts_S1x4_S4 := by
  dsimp only [hostOps1]
  after_results <;> rfl

/-- and it leaves the running pairs and the running counts as they were. -/
theorem first_arg3 :
    StableHlo.after (hostOps1 (F := Ideal)) W (Proc.devRef .tc main_arg3) = W (Proc.devRef .tc main_arg3) := by
  dsimp only [hostOps1]
  after_results <;> rfl

theorem first_arg4 :
    StableHlo.after (hostOps1 (F := Ideal)) W (Proc.devRef .tc main_arg4) = W (Proc.devRef .tc main_arg4) := by
  dsimp only [hostOps1]
  after_results <;> rfl

end First

/-! ## All the lines after the region, from contents that hold the tiles' totals -/

section Whole
variable (W : Valuation τ sig (Elt Ideal)) (x : FVec Ideal ⟨2, ![65536, 768]⟩ .f32) (bucket : Fin 65536 → BitVec 32)
  (bk : FVec Ideal S4x2 .f32) (amt : IVec S4 32)

theorem lines_v49 (hT : W (Proc.devRef .tc main_v1_1) = Cert.Spec.tileTotals x bucket)
    (h3 : W (Proc.devRef .tc main_arg3) = bk) (h4 : W (Proc.devRef .tc main_arg4) = amt) :
    StableHlo.after (hostOps1 (F := Ideal) ++ (midOps ++ hostOps1_8)) W (Proc.devRef .tc main_v49)
      = Cert.Tail.newBuckets (F := Ideal) (fptosi 32 (Host.roundeven (F := Ideal) (Cert.Spec.countTiled bucket)))
          (Cert.Spec.meanSumTiled x bucket) (Cert.Spec.varSumTiled x bucket) bk amt := by
  rw [StableHlo.after_append]
  refine (rest_v49 _).trans ?_
  rw [first_v7, first_v9, first_v11, first_arg3, first_arg4, hT, h3, h4, split_counts, split_means, split_vars]

theorem lines_v14 (hT : W (Proc.devRef .tc main_v1_1) = Cert.Spec.tileTotals x bucket)
    (h4 : W (Proc.devRef .tc main_arg4) = amt) :
    StableHlo.after (hostOps1 (F := Ideal) ++ (midOps ++ hostOps1_8)) W (Proc.devRef .tc main_v14)
      = addi amt (fptosi 32 (Host.roundeven (F := Ideal) (Cert.Spec.countTiled bucket))) := by
  rw [StableHlo.after_append]
  refine (rest_v14 _).trans ?_
  rw [first_v7, first_arg4, hT, h4, split_counts]

end Whole

variable (m : (ℓ : Loc nD τ sig) → Buf (Elt Ideal) ℓ) (ρ : Dev nD → PrngReg)

/-- The per-bucket counts as the program's lines after the region compute them: tile by tile, rounded, as 32-bit integers. -/
abbrev addedOf (c : Dev nD) : IVec S4 32 := fptosi 32 (Host.roundeven (F := Ideal) (Cert.Spec.countTiled (bucketOf m c)))

/-! ## The results of the lines after the region -/

/-- The new running counts: the running counts plus the rounded tile-by-tile counts. -/
theorem tail_v14 (c : Dev nD) :
    Pipeline.afterTail₀ cfgs (dats m) 0 (V0 m) [hostOps1, hostOps1_1, hostOps1_2, hostOps1_3, hostOps1_4, hostOps1_5, hostOps1_6, hostOps1_7, hostOps1_8] c main_v14
      = addi (m ((c.tc : Thread nD τ).loc main_arg4)) (addedOf m c) := by
  unfold Pipeline.afterTail₀
  rw [(show ([hostOps1, hostOps1_1, hostOps1_2, hostOps1_3, hostOps1_4, hostOps1_5, hostOps1_6, hostOps1_7, hostOps1_8] : List (List (HloOp τ sig (Elt Ideal)))).flatten = hostOps1 ++ (midOps ++ hostOps1_8) from by
    simp only [List.flatten_cons, List.flatten_nil, List.append_nil, midOps, List.append_assoc])]
  exact lines_v14 _ _ _ _
    ((Pipeline.withArrays_arr spec0 launch0.win.arr_inj c _ _ 5).trans (final_totals m c))
    ((Pipeline.withArrays_of_ne _ c (V0 m c) _ main_arg4 (by exact (by decide : ∀ w, Pipeline.arrRef spec0 w ≠ main_arg4))).trans (V_main_arg4 m c))

/-- The new running centroids: the centroid update applied to the tile-by-tile totals. -/
theorem tail_v49 (c : Dev nD) :
    Pipeline.afterTail₀ cfgs (dats m) 0 (V0 m) [hostOps1, hostOps1_1, hostOps1_2, hostOps1_3, hostOps1_4, hostOps1_5, hostOps1_6, hostOps1_7, hostOps1_8] c main_v49
      = Cert.Tail.newBuckets (F := Ideal) (addedOf m c) (Cert.Spec.meanSumTiled (m ((c.tc : Thread nD τ).loc main_arg0)) (bucketOf m c))
            (Cert.Spec.varSumTiled (m ((c.tc : Thread nD τ).loc main_arg0)) (bucketOf m c)) (m ((c.tc : Thread nD τ).loc main_arg3)) (m ((c.tc : Thread nD τ).loc main_arg4)) := by
  unfold Pipeline.afterTail₀
  rw [(show ([hostOps1, hostOps1_1, hostOps1_2, hostOps1_3, hostOps1_4, hostOps1_5, hostOps1_6, hostOps1_7, hostOps1_8] : List (List (HloOp τ sig (Elt Ideal)))).flatten = hostOps1 ++ (midOps ++ hostOps1_8) from by
    simp only [List.flatten_cons, List.flatten_nil, List.append_nil, midOps, List.append_assoc])]
  exact lines_v49 _ _ _ _ _
    ((Pipeline.withArrays_arr spec0 launch0.win.arr_inj c _ _ 5).trans (final_totals m c))
    ((Pipeline.withArrays_of_ne _ c (V0 m c) _ main_arg3 (by exact (by decide : ∀ w, Pipeline.arrRef spec0 w ≠ main_arg3))).trans (V_main_arg3 m c))
    ((Pipeline.withArrays_of_ne _ c (V0 m c) _ main_arg4 (by exact (by decide : ∀ w, Pipeline.arrRef spec0 w ≠ main_arg4))).trans (V_main_arg4 m c))

theorem run : θ_run (defs (F := Ideal)) (onTc (τ := τ) (main (F := Ideal))) ⟨m, fun _ => 0, ρ⟩ (fun r => ∀ c : Dev nD,
      r.2.mem ((c.tc : Thread nD τ).loc main_v1_0)
        = Cert.Spec.masked (m ((c.tc : Thread nD τ).loc main_arg0)) (m ((c.tc : Thread nD τ).loc main_arg1)) (m ((c.tc : Thread nD τ).loc main_arg2)) (bucketOf m c)
      ∧ r.2.mem ((c.tc : Thread nD τ).loc main_v49)
        = Cert.Tail.newBuckets (F := Ideal) (addedOf m c) (Cert.Spec.meanSumTiled (m ((c.tc : Thread nD τ).loc main_arg0)) (bucketOf m c))
            (Cert.Spec.varSumTiled (m ((c.tc : Thread nD τ).loc main_arg0)) (bucketOf m c)) (m ((c.tc : Thread nD τ).loc main_arg3)) (m ((c.tc : Thread nD τ).loc main_arg4))
      ∧ r.2.mem ((c.tc : Thread nD τ).loc main_v14) = addi (m ((c.tc : Thread nD τ).loc main_arg4)) (addedOf m c)
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))) :=
  (θ_run defs _ _).mono (fun _ h c => ⟨((h c).1 4).trans (final_out m c),
      ((h c).2 main_v49 (Pipeline.mem_restRefs_of main_v49 (by decide) (by decide))).trans (tail_v49 m c),
      ((h c).2 main_v14 (Pipeline.mem_restRefs_of main_v14 (by decide) (by decide))).trans (tail_v14 m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

end Cert.KernelIdeal.KVal

end
-- ==== Proof.LibGather.lean ====
/-
  Reading a row gather at an element.

  jnp's `table[idx]` over a two-axis table of N rows prints as a gather whose start indices are an (n, 1) column of
  row numbers: the table's first axis is collapsed and start-indexed, its second axis is the one offset axis of the
  result, and the index vector lies along axis 1 of the column.  Result element (p, k) is then the table's element
  (r, k), where r is the p-th start index read as a signed integer and clamped into [0, N - 1].
-/
import Idealize.ShloMosaic.PureOps.ShapeOps
import Idealize.ShloMosaic.Lib.ValueIdx

namespace Idealize.ShloMosaic.RowGather

open Idealize.ShloMosaic Idealize.ShloMosaic.ValueIdx

/-- A list known to be one element long, read at any position, gives that element. -/
theorem getElem_of_eq_singleton {β : Type} {l : List β} {b : β} (h : l = [b]) (i : Nat) (hi : i < l.length) : l[i] = b := by
  subst h
  have : i = 0 := by simpa using hi
  subst this; rfl

section
variable {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (p : Fin n) (k : Fin C)
include hoff hcoll hob hsim hivd

/-- On the table's row axis the operand index is the clamped start index. -/
theorem operandIdx_row : (d.operandIdx (ix2 p k) idx (0 : Fin 2)).val = min (idx (ix2 p 0)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (N - d.sliceSizes 0) = min (idx (ix2 p 0)).toInt.toNat (N - 1)
  rw [hsl]
  congr 3
  congr 1
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      simp [GatherDims.batchDims, Shape.kept, hoff, List.finRange]
    rw [getElem_of_eq_singleton hbd]
    rfl
  | ⟨1, _⟩ =>
    unfold GatherDims.siIdx
    rw [dif_pos (by rw [hivd])]
    apply Fin.ext
    show List.idxOf (0 : Fin 2) d.startIndexMap = 0
    rw [hsim]; simp

/-- On the table's column axis the operand index is the result's column. -/
theorem operandIdx_col : (d.operandIdx (ix2 p k) idx (1 : Fin 2)).val = k.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  simp only [GatherDims.operandIdx, GatherDims.batchCoord_eq_zero _ _ _ hb, Nat.add_zero, GatherDims.start,
    dif_neg hm, Nat.zero_add]
  unfold GatherDims.offCoord
  rw [dif_pos hk, getElem_of_eq_singleton hoff]
  rfl

/-- Element (p, k) of a row gather is the table's element (r, k), r the p-th start index read signed and clamped into the
    table. -/
theorem gather_rows {α : Type} (x : (⟨2, ![N, C]⟩ : Shape).Idx → α) (hN : 0 < N) :
    Host.gather d x idx (ix2 p k) = x (ix2 ⟨min (idx (ix2 p 0)).toInt.toNat (N - 1), by omega⟩ k) := by
  unfold Host.gather
  congr 1
  funext a
  apply Fin.ext
  match a with
  | ⟨0, _⟩ => exact operandIdx_row d hoff hcoll hob hsim hivd idx p k
  | ⟨1, _⟩ => exact operandIdx_col d hoff hcoll hob hsim hivd idx p k
end

end Idealize.ShloMosaic.RowGather
-- ==== Proof.RefOut.lean ====
/-
  The reference's output array, entry by entry: the row's deviations divided by the square root of its variance plus
  the offset, then the affine map whose weight and bias rows the row's bucket number selects from the two tables
  (a negative number raised by 4, then clamped into the table).
-/
import proofs.«422991_j82008105550601_2_alg».proof.Proof.RefRead
import proofs.«422991_j82008105550601_2_alg».proof.Proof.Spec
import proofs.«422991_j82008105550601_2_alg».proof.Proof.LibGather
import proofs.«422991_j82008105550601_2_alg».proof.Proof.LibRows

noncomputable section

namespace Cert.ReferenceIdeal.RefValue

open Idealize.ShloMosaic Idealize.ShloMosaic.ValueIdx Cert.ReferenceIdeal Cert.ReferenceIdeal.Read

/-- Choosing, by the sign of a 32-bit word, between the word raised by 4 and the word itself. -/
theorem select_neg (v : BitVec 32) :
    Scalar.select (IntOp.cmpi .slt v 0#32) (IntOp.addi v 4#32) v = if v.toInt < 0 then v + 4#32 else v := by
  have h0 : (0#32 : BitVec 32).toInt = 0 := by decide
  show (if BitVec.ofBool (v.slt 0#32) = 1 then v + 4#32 else v) = _
  by_cases h : v.toInt < 0
  · rw [BitVec.slt_iff_toInt_lt.mpr (by rw [h0]; exact h), if_pos h]; rfl
  · have hs : v.slt 0#32 = false :=
      Bool.eq_false_iff.mpr fun hs => h (by have := BitVec.slt_iff_toInt_lt.mp hs; rwa [h0] at this)
    rw [hs, if_neg h]; rfl

/-- The row's mean, as the reference computes it: the row sum from zero, divided by 768. -/
theorem mean_at (x0 : FVec Ideal S65536x768 .f32) (i : Fin 65536) :
    val_main_v3 (F := Ideal) x0 (ix2 i (0 : Fin 1)) = Cert.Spec.mean x0 i := by
  have e1 : idx_main_v1 (ix2 i (0 : Fin 1)) = ix1 i :=
    funext fun a => Fin.ext (by match a with | ⟨0, _⟩ => rfl)
  have e0 : ∀ k : Fin 768, idx_main_v0 (ix1 i) k = ix2 i k := fun k =>
    funext fun a => Fin.ext (by match a with | ⟨0, _⟩ => rfl | ⟨1, _⟩ => rfl)
  rw [val_main_v3_apply, val_main_v1_apply, val_main_v2_apply, val_main_cst_0_apply, e1, val_main_v0_apply,
    val_main_cst_apply]
  simp only [e0, Ideal.hostDivf_def, Ideal.ofBits_def, Ideal.ofBits_zero_f32, zero_add]
  rfl

/-- An entry less its row's mean. -/
theorem dev_at (x0 : FVec Ideal S65536x768 .f32) (i : Fin 65536) (k : Fin 768) :
    val_main_v5 (F := Ideal) x0 (ix2 i k) = Cert.Spec.dev x0 i k := by
  have e4 : idx_main_v4 (ix2 i k) = ix2 i (0 : Fin 1) :=
    funext fun a => Fin.ext (by match a with | ⟨0, _⟩ => rfl | ⟨1, _⟩ => rfl)
  rw [val_main_v5_apply, val_main_v4_apply, e4, mean_at]
  rfl

/-- The row's variance: the sum of the squared deviations from zero, divided by 768. -/
theorem var_at (x0 : FVec Ideal S65536x768 .f32) (i : Fin 65536) :
    val_main_v10 (F := Ideal) x0 (ix2 i (0 : Fin 1)) = Cert.Spec.var x0 i := by
  have e8 : idx_main_v8 (ix2 i (0 : Fin 1)) = ix1 i :=
    funext fun a => Fin.ext (by match a with | ⟨0, _⟩ => rfl)
  have e7 : ∀ k : Fin 768, idx_main_v7 (ix1 i) k = ix2 i k := fun k =>
    funext fun a => Fin.ext (by match a with | ⟨0, _⟩ => rfl | ⟨1, _⟩ => rfl)
  rw [val_main_v10_apply, val_main_v8_apply, val_main_v9_apply, val_main_cst_2_apply, e8, val_main_v7_apply,
    val_main_cst_1_apply]
  simp only [e7, val_main_v6_apply, dev_at, Ideal.hostDivf_def, Ideal.mulf_def, Ideal.ofBits_def,
    Ideal.ofBits_zero_f32, zero_add]
  rfl

/-- The start index of the weight rows' gather at row i: the bucket number, raised by 4 when negative. -/
theorem start_w (x5 : IVec S65536 32) (i : Fin 65536) :
    val_main_v69 (F := Ideal) x5 (ix2 i (0 : Fin 1))
      = if (x5 (ix1 i)).toInt < 0 then x5 (ix1 i) + 4#32 else x5 (ix1 i) := by
  have e : idx_main_v69 (ix2 i (0 : Fin 1)) = ix1 i :=
    funext fun a => Fin.ext (by match a with | ⟨0, _⟩ => rfl)
  rw [val_main_v69_apply, e, val_main_v68_apply, val_main_v65_apply, val_main_v67_apply, val_main_v64_apply,
    val_main_v66_apply, val_main_c_14_apply, val_main_c_15_apply, select_neg]

/-- The start index of the bias rows' gather at row i. -/
theorem start_b (x5 : IVec S65536 32) (i : Fin 65536) :
    val_main_v77 (F := Ideal) x5 (ix2 i (0 : Fin 1))
      = if (x5 (ix1 i)).toInt < 0 then x5 (ix1 i) + 4#32 else x5 (ix1 i) := by
  have e : idx_main_v77 (ix2 i (0 : Fin 1)) = ix1 i :=
    funext fun a => Fin.ext (by match a with | ⟨0, _⟩ => rfl)
  rw [val_main_v77_apply, e, val_main_v76_apply, val_main_v73_apply, val_main_v75_apply, val_main_v72_apply,
    val_main_v74_apply, val_main_c_16_apply, val_main_c_17_apply, select_neg]

/-- The gathered weight at (i, k): the weight table's row that the bucket number selects. -/
theorem weights_at (x1 : FVec Ideal S4x768 .f32) (x5 : IVec S65536 32) (i : Fin 65536) (k : Fin 768) :
    val_main_v70 (F := Ideal) x1 x5 (ix2 i k) = x1 (ix2 (Cert.Spec.tableRow (x5 (ix1 i))) k) := by
  unfold val_main_v70
  rw [RowGather.gather_rows _ rfl rfl rfl rfl rfl _ i k x1 (by decide)]
  refine congrArg (fun r => x1 (ix2 r k)) (Fin.ext ?_)
  show min (val_main_v69 (F := Ideal) x5 (ix2 i (0 : Fin 1))).toInt.toNat (4 - 1) = _
  rw [start_w]
  rfl

/-- The gathered bias at (i, k). -/
theorem biases_at (x2 : FVec Ideal S4x768 .f32) (x5 : IVec S65536 32) (i : Fin 65536) (k : Fin 768) :
    val_main_v78 (F := Ideal) x2 x5 (ix2 i k) = x2 (ix2 (Cert.Spec.tableRow (x5 (ix1 i))) k) := by
  unfold val_main_v78
  rw [RowGather.gather_rows _ rfl rfl rfl rfl rfl _ i k x2 (by decide)]
  refine congrArg (fun r => x2 (ix2 r k)) (Fin.ext ?_)
  show min (val_main_v77 (F := Ideal) x5 (ix2 i (0 : Fin 1))).toInt.toNat (4 - 1) = _
  rw [start_b]
  rfl

theorem out_eq (x0 : FVec Ideal S65536x768 .f32) (x1 x2 : FVec Ideal S4x768 .f32) (x5 : IVec S65536 32) :
    val_main_v79 (F := Ideal) x0 x1 x2 x5 = Cert.Spec.gathered x0 x1 x2 (fun i => x5 (ix1 i)) := by
  funext y
  obtain ⟨i, k, rfl⟩ : ∃ (i : Fin 65536) (k : Fin 768), y = ix2 i k := ⟨y 0, y 1, eq_ix2 y⟩
  have e14 : idx_main_v14 (ix2 i k) = ix2 i (0 : Fin 1) :=
    funext fun a => Fin.ext (by match a with | ⟨0, _⟩ => rfl | ⟨1, _⟩ => rfl)
  rw [Cert.Spec.gathered_apply, val_main_v79_apply, val_main_v71_apply, val_main_v15_apply, dev_at,
    val_main_v14_apply, e14, val_main_v13_apply, val_main_v12_apply, var_at, val_main_v11_apply,
    val_main_cst_3_apply, weights_at, biases_at]
  rfl

end Cert.ReferenceIdeal.RefValue

end
-- ==== Proof.LibSegmentSum.lean ====
/-
  A sum of rows grouped by a list of row numbers (jax.ops.segment_sum; jnp's `x.at[idx].add(u)` with one index per
  update row), read at an element.

  The scatter-add prints as `Host.scatterAdd d x idx upd` with the scatter indices an (n, 1) column. At the ideal values
  element (r, k) of the result is x(r, k) plus the sum of upd(e, k) over the update rows e whose index, read as a SIGNED
  integer and not clamped, is r: an update whose index is negative or past the last row contributes nothing.
  The one-axis form (updates a list of n values, the operand a list of N values) reads the same way.
-/
import Idealize.ShloMosaic.PureOps.Ideal
import Idealize.ShloMosaic.PureOps.Contract
import Idealize.ShloMosaic.Lib.ValueIdx

noncomputable section

namespace Idealize.ShloMosaic.SegmentSum

open Idealize.ShloMosaic Idealize.ShloMosaic.ValueIdx

/-- A list with exactly one entry has that entry at every position it can be read at. -/
private theorem getElem_eq_of_singleton {β : Type} {l : List β} {b : β} (h : l = [b]) {i : Nat} (hi : i < l.length) : l[i] = b := by
  subst h
  match i, hi with
  | 0, _ => rfl
  | i + 1, hi => exact absurd hi (by simp)

/-! ## Rows: where an update element lands

  With the operand's row axis both inserted and start-indexed, the updates' column axis their one window axis, and the
  index vector along the column of scatter indices, update element (e, k') starts at row idx(e), column 0, and its window
  coordinate is (0, k'): it lands at (idx(e), k') when idx(e), read signed, is a row of the operand, and nowhere
  otherwise. -/

section rowsAux
variable {N n C w : Nat} (d : ScatterDims ⟨2, ![N, C]⟩ ⟨2, ![n, 1]⟩ ⟨2, ![n, C]⟩)
    (idx : IVec ⟨2, ![n, 1]⟩ w) (e : Fin n) (k' : Fin C)

/-- The operand's axes that are not inserted: the column axis alone. -/
theorem sKept_rows (hiw : d.insertedWindowDims = [0]) : d.sKept = [(1 : Fin 2)] := by
  show Shape.kept _ d.insertedWindowDims = [(1 : Fin 2)]
  rw [hiw]; rfl

/-- The updates' scatter axes: the row axis alone. -/
theorem uScatter_rows (huw : d.updateWindowDims = [1]) : d.uScatter = [(0 : Fin 2)] := by
  show Shape.kept _ d.updateWindowDims = [(0 : Fin 2)]
  rw [huw]; rfl

/-- On the row axis the window of update element (e, k') starts at the e-th scatter index, read signed. -/
theorem start_row (huw : d.updateWindowDims = [1]) (hsd : d.scatterDimsToOperandDims = [0]) (hivd : d.indexVectorDim = 1) :
    d.start (ix2 e k') idx (0 : Fin 2) = (idx (ix2 e (0 : Fin 1))).toInt := by
  have hm : (0 : Fin 2) ∈ d.scatterDimsToOperandDims := by rw [hsd]; exact List.mem_singleton.mpr rfl
  unfold ScatterDims.start
  rw [dif_pos hm]
  refine congrArg (fun q => (idx q).toInt) ?_
  funext b
  match b with
  | ⟨0, _⟩ =>
    unfold ScatterDims.siIdx
    rw [dif_neg (by rw [hivd]; exact Nat.zero_ne_one)]
    unfold ScatterDims.siCoord
    apply Fin.ext
    show ((ix2 e k') (d.uScatter[_]'_)).val = e.val
    rw [getElem_eq_of_singleton (uScatter_rows d huw)]
  | ⟨1, _⟩ =>
    unfold ScatterDims.siIdx
    rw [dif_pos (by rw [hivd])]
    apply Fin.ext
    show List.idxOf (0 : Fin 2) d.scatterDimsToOperandDims = 0
    rw [hsd]; simp

/-- On the column axis the window starts at 0: no scatter index addresses it. -/
theorem start_col (hsd : d.scatterDimsToOperandDims = [0]) : d.start (ix2 e k') idx (1 : Fin 2) = 0 := by
  have hm : (1 : Fin 2) ∉ d.scatterDimsToOperandDims := by rw [hsd]; simp
  unfold ScatterDims.start
  rw [dif_neg hm]

/-- The row axis is inserted: its window coordinate is 0. -/
theorem window_row (hiw : d.insertedWindowDims = [0]) : d.window (ix2 e k') (0 : Fin 2) = 0 := by
  have hk : (0 : Fin 2) ∉ d.sKept := by rw [sKept_rows d hiw]; simp
  unfold ScatterDims.window
  rw [dif_neg hk]

/-- The column axis carries the updates' window axis: its window coordinate is the update's column. -/
theorem window_col (huw : d.updateWindowDims = [1]) (hiw : d.insertedWindowDims = [0]) : d.window (ix2 e k') (1 : Fin 2) = k'.val := by
  have hk : (1 : Fin 2) ∈ d.sKept := by rw [sKept_rows d hiw]; exact List.mem_singleton.mpr rfl
  unfold ScatterDims.window
  rw [dif_pos hk, getElem_eq_of_singleton huw]
  rfl

/-- Update element (e, k') lands at (r, k) exactly when the e-th scatter index, read signed, is r and k' = k: the bounds
    on both axes then hold because r and k are positions in the operand. -/
theorem resultIdx_rows_iff (huw : d.updateWindowDims = [1]) (hiw : d.insertedWindowDims = [0])
    (hsd : d.scatterDimsToOperandDims = [0]) (hivd : d.indexVectorDim = 1) (r : Fin N) (k : Fin C) :
    d.resultIdx? (ix2 e k') idx = some (ix2 r k) ↔ (idx (ix2 e (0 : Fin 1))).toInt = (r.val : ℤ) ∧ k' = k := by
  have h0 := start_row d idx e k' huw hsd hivd
  have h1 := start_col d idx e k' hsd
  have w0 := window_row d e k' hiw
  have w1 := window_col d e k' huw hiw
  unfold ScatterDims.resultIdx?
  split
  · rename_i h
    rw [Option.some.injEq]
    constructor
    · intro hf
      have a0 : (d.start (ix2 e k') idx (0 : Fin 2) + (d.window (ix2 e k') (0 : Fin 2) : ℤ)).toNat = r.val :=
        congrArg (fun f => (f (0 : Fin 2)).val) hf
      have a1 : (d.start (ix2 e k') idx (1 : Fin 2) + (d.window (ix2 e k') (1 : Fin 2) : ℤ)).toNat = k.val :=
        congrArg (fun f => (f (1 : Fin 2)).val) hf
      have b0 := (h (0 : Fin 2)).1
      rw [h0, w0] at a0 b0
      rw [h1, w1] at a1
      refine ⟨by omega, Fin.ext (by omega)⟩
    · rintro ⟨hr, rfl⟩
      funext a
      match a with
      | ⟨0, _⟩ =>
        apply Fin.ext
        show (d.start (ix2 e k') idx (0 : Fin 2) + (d.window (ix2 e k') (0 : Fin 2) : ℤ)).toNat = r.val
        rw [h0, w0, hr]; omega
      | ⟨1, _⟩ =>
        apply Fin.ext
        show (d.start (ix2 e k') idx (1 : Fin 2) + (d.window (ix2 e k') (1 : Fin 2) : ℤ)).toNat = k'.val
        rw [h1, w1]; omega
  · rename_i h
    constructor
    · intro hf; exact absurd hf (by simp)
    · rintro ⟨hr, rfl⟩
      refine absurd (fun a => ?_) h
      match a with
      | ⟨0, _⟩ =>
        show 0 ≤ d.start (ix2 e k') idx (0 : Fin 2) + (d.window (ix2 e k') (0 : Fin 2) : ℤ) ∧
          d.start (ix2 e k') idx (0 : Fin 2) + (d.window (ix2 e k') (0 : Fin 2) : ℤ) < ((N : ℕ) : ℤ)
        rw [h0, w0, hr]; have := r.isLt; omega
      | ⟨1, _⟩ =>
        show 0 ≤ d.start (ix2 e k') idx (1 : Fin 2) + (d.window (ix2 e k') (1 : Fin 2) : ℤ) ∧
          d.start (ix2 e k') idx (1 : Fin 2) + (d.window (ix2 e k') (1 : Fin 2) : ℤ) < ((C : ℕ) : ℤ)
        rw [h1, w1]; have := k'.isLt; omega

end rowsAux

section rows
variable {N n C w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w)
include huw hiw hsd hivd

/-- Element (r, k) of a scatter-add of rows: the operand's element plus the update rows whose index is r, at column k. -/
theorem scatterAdd_rows {φ : FTy} (x : FVec Ideal ⟨2, ![N, C]⟩ φ) (upd : FVec Ideal ⟨2, ![n, C]⟩ φ) (r : Fin N) (k : Fin C) :
    Host.scatterAdd d x idx upd (ix2 r k)
      = x (ix2 r k) + ∑ e : Fin n, if (idx (ix2 e (0 : Fin 1))).toInt = (r.val : ℤ) then upd (ix2 e k) else 0 := by
  have hlands := fun (e : Fin n) (b : Fin C) => resultIdx_rows_iff d idx e b huw hiw hsd hivd r k
  unfold Host.scatterAdd
  rw [Ideal.hostScatterAdd_def]
  unfold Ideal.hostScatterAdd
  congr 1
  rw [Finset.sum_filter, sum_idx2]
  refine Finset.sum_congr rfl fun e _ => ?_
  by_cases hr : (idx (ix2 e (0 : Fin 1))).toInt = (r.val : ℤ)
  · rw [if_pos hr, Finset.sum_eq_single k]
    · rw [if_pos ((hlands e k).2 ⟨hr, rfl⟩)]
    · intro b _ hb
      rw [if_neg fun h => hb ((hlands e b).1 h).2]
    · intro hk; exact absurd (Finset.mem_univ k) hk
  · rw [if_neg hr]
    refine Finset.sum_eq_zero fun b _ => ?_
    rw [if_neg fun h => hr ((hlands e b).1 h).1]

end rows

/-! ## Values: where an update lands

  The one-axis form: the operand's only axis is inserted and start-indexed and the updates have no window axis, so
  update e starts at position idx(e) with window coordinate 0, and lands there when idx(e), read signed, is a position of
  the operand. -/

/-- A sum over the positions of a list of n values is the sum over their coordinates. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

section valsAux
variable {N n w : Nat} (d : ScatterDims ⟨1, ![N]⟩ ⟨2, ![n, 1]⟩ ⟨1, ![n]⟩) (idx : IVec ⟨2, ![n, 1]⟩ w) (e : Fin n)

/-- The operand's only axis is inserted: none is kept. -/
theorem sKept_vals (hiw : d.insertedWindowDims = [0]) : d.sKept = [] := by
  show Shape.kept _ d.insertedWindowDims = []
  rw [hiw]; rfl

/-- The updates' only axis is a scatter axis. -/
theorem uScatter_vals (huw : d.updateWindowDims = []) : d.uScatter = [(0 : Fin 1)] := by
  show Shape.kept _ d.updateWindowDims = [(0 : Fin 1)]
  rw [huw]; rfl

/-- The window of update e starts at the e-th scatter index, read signed. -/
theorem start_val (huw : d.updateWindowDims = []) (hsd : d.scatterDimsToOperandDims = [0]) (hivd : d.indexVectorDim = 1) :
    d.start (ix1 e) idx (0 : Fin 1) = (idx (ix2 e (0 : Fin 1))).toInt := by
  have hm : (0 : Fin 1) ∈ d.scatterDimsToOperandDims := by rw [hsd]; exact List.mem_singleton.mpr rfl
  unfold ScatterDims.start
  rw [dif_pos hm]
  refine congrArg (fun q => (idx q).toInt) ?_
  funext b
  match b with
  | ⟨0, _⟩ =>
    unfold ScatterDims.siIdx
    rw [dif_neg (by rw [hivd]; exact Nat.zero_ne_one)]
    unfold ScatterDims.siCoord
    apply Fin.ext
    show ((ix1 e) (d.uScatter[_]'_)).val = e.val
    rw [getElem_eq_of_singleton (uScatter_vals d huw)]
  | ⟨1, _⟩ =>
    unfold ScatterDims.siIdx
    rw [dif_pos (by rw [hivd])]
    apply Fin.ext
    show List.idxOf (0 : Fin 1) d.scatterDimsToOperandDims = 0
    rw [hsd]; simp

/-- The operand's axis is inserted: the window coordinate is 0. -/
theorem window_val (hiw : d.insertedWindowDims = [0]) : d.window (ix1 e) (0 : Fin 1) = 0 := by
  have hk : (0 : Fin 1) ∉ d.sKept := by rw [sKept_vals d hiw]; exact List.not_mem_nil
  unfold ScatterDims.window
  rw [dif_neg hk]

/-- Update e lands at position r exactly when the e-th scatter index, read signed, is r. -/
theorem resultIdx_vals_iff (huw : d.updateWindowDims = []) (hiw : d.insertedWindowDims = [0])
    (hsd : d.scatterDimsToOperandDims = [0]) (hivd : d.indexVectorDim = 1) (r : Fin N) :
    d.resultIdx? (ix1 e) idx = some (ix1 r) ↔ (idx (ix2 e (0 : Fin 1))).toInt = (r.val : ℤ) := by
  have h0 := start_val d idx e huw hsd hivd
  have w0 := window_val d e hiw
  unfold ScatterDims.resultIdx?
  split
  · rename_i h
    rw [Option.some.injEq]
    constructor
    · intro hf
      have a0 : (d.start (ix1 e) idx (0 : Fin 1) + (d.window (ix1 e) (0 : Fin 1) : ℤ)).toNat = r.val :=
        congrArg (fun f => (f (0 : Fin 1)).val) hf
      have b0 := (h (0 : Fin 1)).1
      rw [h0, w0] at a0 b0
      omega
    · intro hr
      funext a
      match a with
      | ⟨0, _⟩ =>
        apply Fin.ext
        show (d.start (ix1 e) idx (0 : Fin 1) + (d.window (ix1 e) (0 : Fin 1) : ℤ)).toNat = r.val
        rw [h0, w0, hr]; omega
  · rename_i h
    constructor
    · intro hf; exact absurd hf (by simp)
    · intro hr
      refine absurd (fun a => ?_) h
      match a with
      | ⟨0, _⟩ =>
        show 0 ≤ d.start (ix1 e) idx (0 : Fin 1) + (d.window (ix1 e) (0 : Fin 1) : ℤ) ∧
          d.start (ix1 e) idx (0 : Fin 1) + (d.window (ix1 e) (0 : Fin 1) : ℤ) < ((N : ℕ) : ℤ)
        rw [h0, w0, hr]; have := r.isLt; omega

end valsAux

section vals
variable {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w)
include huw hiw hsd hivd

/-- Entry r of a scatter-add of values: the operand's entry plus the updates whose index is r. -/
theorem scatterAdd_vals {φ : FTy} (x : FVec Ideal ⟨1, ![N]⟩ φ) (upd : FVec Ideal ⟨1, ![n]⟩ φ) (r : Fin N) :
    Host.scatterAdd d x idx upd (ix1 r)
      = x (ix1 r) + ∑ e : Fin n, if (idx (ix2 e (0 : Fin 1))).toInt = (r.val : ℤ) then upd (ix1 e) else 0 := by
  have hlands := fun (e : Fin n) => resultIdx_vals_iff d idx e huw hiw hsd hivd r
  unfold Host.scatterAdd
  rw [Ideal.hostScatterAdd_def]
  unfold Ideal.hostScatterAdd
  congr 1
  rw [Finset.sum_filter, sum_idx1]
  exact Finset.sum_congr rfl fun e _ => if_congr (hlands e) rfl rfl

end vals

end Idealize.ShloMosaic.SegmentSum

end
-- ==== Proof.RefTotals.lean ====
/-
  The reference's per-bucket totals. The three scatters add, into a zero vector of four entries, one
  term per row at the row's bucket number (a number outside 0 … 3 adds nowhere): the row means and the row variances give
  the two sums (the count, a scatter of ones, is read in its own module).
-/
import proofs.«422991_j82008105550601_2_alg».proof.Proof.RefRead
import proofs.«422991_j82008105550601_2_alg».proof.Proof.Spec
import proofs.«422991_j82008105550601_2_alg».proof.Proof.LibSegmentSum
import proofs.«422991_j82008105550601_2_alg».proof.Proof.LibRows

noncomputable section

namespace Cert.ReferenceIdeal.RefValue

open Idealize.ShloMosaic Idealize.ShloMosaic.ValueIdx Cert.ReferenceIdeal Cert.ReferenceIdeal.Read

/-! ## The row statistics below the scatters -/

/-- The column of row means at row e: the row's sum, from zero, over 768. -/
theorem meanCol_read (x0 : FVec Ideal S65536x768 .f32) (e : Fin 65536) :
    val_main_v3 (F := Ideal) x0 (ix2 e (0 : Fin 1)) = Cert.Spec.mean x0 e := by
  rw [val_main_v3_apply, val_main_v1_apply, val_main_v0_apply, val_main_v2_apply, val_main_cst_0_apply,
    val_main_cst_apply]
  show Ideal.div (Ideal.ofBits .f32 0x00000000#32
      + ∑ k : Fin 768, x0 (idx_main_v0 (idx_main_v1 (ix2 e (0 : Fin 1))) k)) (Ideal.ofBits .f32 0x44400000#32)
    = Ideal.div (∑ k : Fin 768, x0 (ix2 e k)) Cert.Spec.c768
  rw [Ideal.ofBits_zero_f32, zero_add]
  refine congrArg (fun s => Ideal.div s Cert.Spec.c768) (Finset.sum_congr rfl fun k _ => congrArg x0 ?_)
  funext a
  match a with
  | ⟨0, _⟩ => rfl
  | ⟨1, _⟩ => rfl

/-- The list of row means at row e. -/
theorem mean_read (x0 : FVec Ideal S65536x768 .f32) (e : Fin 65536) :
    val_main_v29 (F := Ideal) x0 (ix1 e) = Cert.Spec.mean x0 e := by
  have hi : idx_main_v29 (ix1 e) = ix2 e (0 : Fin 1) := by
    funext a
    match a with
    | ⟨0, _⟩ => exact Fin.ext (Nat.div_one _)
    | ⟨1, _⟩ => rfl
  exact (val_main_v29_apply (F := Ideal) x0 (ix1 e)).trans ((congrArg (val_main_v3 (F := Ideal) x0) hi).trans (meanCol_read x0 e))

/-- Entry (e, k) less its row's mean. -/
theorem dev_read (x0 : FVec Ideal S65536x768 .f32) (e : Fin 65536) (k : Fin 768) :
    val_main_v5 (F := Ideal) x0 (ix2 e k) = Cert.Spec.dev x0 e k := by
  have hi : idx_main_v4 (ix2 e k) = ix2 e (0 : Fin 1) := by
    funext a
    match a with
    | ⟨0, _⟩ => rfl
    | ⟨1, _⟩ => rfl
  have h4 : val_main_v4 (F := Ideal) x0 (ix2 e k) = Cert.Spec.mean x0 e :=
    (val_main_v4_apply (F := Ideal) x0 (ix2 e k)).trans ((congrArg (val_main_v3 (F := Ideal) x0) hi).trans (meanCol_read x0 e))
  exact (val_main_v5_apply (F := Ideal) x0 (ix2 e k)).trans (congrArg (fun m : EReal => (x0 (ix2 e k) : EReal) - m) h4)

/-- The column of row variances at row e: the sum, from zero, of the squared deviations over 768. -/
theorem varCol_read (x0 : FVec Ideal S65536x768 .f32) (e : Fin 65536) :
    val_main_v10 (F := Ideal) x0 (ix2 e (0 : Fin 1)) = Cert.Spec.var x0 e := by
  rw [val_main_v10_apply, val_main_v8_apply, val_main_v7_apply, val_main_v9_apply, val_main_cst_2_apply,
    val_main_cst_1_apply]
  show Ideal.div (Ideal.ofBits .f32 0x00000000#32
      + ∑ k : Fin 768, val_main_v6 (F := Ideal) x0 (idx_main_v7 (idx_main_v8 (ix2 e (0 : Fin 1))) k))
      (Ideal.ofBits .f32 0x44400000#32)
    = Ideal.div (∑ k : Fin 768, Cert.Spec.dev x0 e k * Cert.Spec.dev x0 e k) Cert.Spec.c768
  rw [Ideal.ofBits_zero_f32, zero_add]
  refine congrArg (fun s => Ideal.div s Cert.Spec.c768) (Finset.sum_congr rfl fun k _ => ?_)
  have hi : idx_main_v7 (idx_main_v8 (ix2 e (0 : Fin 1))) k = ix2 e k := by
    funext a
    match a with
    | ⟨0, _⟩ => rfl
    | ⟨1, _⟩ => rfl
  exact (congrArg (val_main_v6 (F := Ideal) x0) hi).trans ((val_main_v6_apply (F := Ideal) x0 (ix2 e k)).trans
    (congrArg (fun d : EReal => d * d) (dev_read x0 e k)))

/-- The list of row variances at row e. -/
theorem var_read (x0 : FVec Ideal S65536x768 .f32) (e : Fin 65536) :
    val_main_v35 (F := Ideal) x0 (ix1 e) = Cert.Spec.var x0 e := by
  have hi : idx_main_v35 (ix1 e) = ix2 e (0 : Fin 1) := by
    funext a
    match a with
    | ⟨0, _⟩ => exact Fin.ext (Nat.div_one _)
    | ⟨1, _⟩ => rfl
  exact (val_main_v35_apply (F := Ideal) x0 (ix1 e)).trans ((congrArg (val_main_v10 (F := Ideal) x0) hi).trans (varCol_read x0 e))

/-! ## The two scatters -/

/-- The scatter of the row means sums them per bucket. -/
theorem meanSum_eq (x0 : FVec Ideal S65536x768 .f32) (x5 : IVec S65536 32) :
    val_main_v32 (F := Ideal) x0 x5 = Cert.Spec.meanSumAll x0 (fun i => x5 (ix1 i)) := by
  funext y
  rw [eq_ix1 y]
  unfold val_main_v32
  refine (SegmentSum.scatterAdd_vals (N := 4) (n := 65536) (w := 32) (φ := .f32) scatter_S4_S65536x1_S65536_n_0_0_1
    rfl rfl rfl rfl (val_main_v31 (F := Ideal) x5) (val_main_v30 (F := Ideal)) (val_main_v29 (F := Ideal) x0) (y 0)).trans ?_
  rw [val_main_v30_apply, val_main_cst_8_apply]
  show Ideal.ofBits .f32 0x00000000#32
      + (∑ e : Fin 65536, if (val_main_v31 (F := Ideal) x5 (ix2 e (0 : Fin 1))).toInt = ((y 0).val : ℤ)
          then val_main_v29 (F := Ideal) x0 (ix1 e) else 0)
    = ∑ i : Fin 65536, if (x5 (ix1 i)).toInt = ((y 0).val : ℤ) then Cert.Spec.mean x0 i else 0
  rw [Ideal.ofBits_zero_f32, zero_add]
  refine Finset.sum_congr rfl fun e _ => ?_
  have hb : val_main_v31 (F := Ideal) x5 (ix2 e (0 : Fin 1)) = x5 (ix1 e) :=
    (val_main_v31_apply (F := Ideal) x5 (ix2 e (0 : Fin 1))).trans (congrArg x5 (funext fun a => by match a with | ⟨0, _⟩ => rfl))
  exact if_congr (Eq.to_iff (congrArg (fun v : BitVec 32 => v.toInt = ((y 0).val : ℤ)) hb)) (mean_read x0 e) rfl

/-- The scatter of the row variances sums them per bucket. -/
theorem varSum_eq (x0 : FVec Ideal S65536x768 .f32) (x5 : IVec S65536 32) :
    val_main_v38 (F := Ideal) x0 x5 = Cert.Spec.varSumAll x0 (fun i => x5 (ix1 i)) := by
  funext y
  rw [eq_ix1 y]
  unfold val_main_v38
  refine (SegmentSum.scatterAdd_vals (N := 4) (n := 65536) (w := 32) (φ := .f32) scatter_S4_S65536x1_S65536_n_0_0_1
    rfl rfl rfl rfl (val_main_v37 (F := Ideal) x5) (val_main_v36 (F := Ideal)) (val_main_v35 (F := Ideal) x0) (y 0)).trans ?_
  rw [val_main_v36_apply, val_main_cst_10_apply]
  show Ideal.ofBits .f32 0x00000000#32
      + (∑ e : Fin 65536, if (val_main_v37 (F := Ideal) x5 (ix2 e (0 : Fin 1))).toInt = ((y 0).val : ℤ)
          then val_main_v35 (F := Ideal) x0 (ix1 e) else 0)
    = ∑ i : Fin 65536, if (x5 (ix1 i)).toInt = ((y 0).val : ℤ) then Cert.Spec.var x0 i else 0
  rw [Ideal.ofBits_zero_f32, zero_add]
  refine Finset.sum_congr rfl fun e _ => ?_
  have hb : val_main_v37 (F := Ideal) x5 (ix2 e (0 : Fin 1)) = x5 (ix1 e) :=
    (val_main_v37_apply (F := Ideal) x5 (ix2 e (0 : Fin 1))).trans (congrArg x5 (funext fun a => by match a with | ⟨0, _⟩ => rfl))
  exact if_congr (Eq.to_iff (congrArg (fun v : BitVec 32 => v.toInt = ((y 0).val : ℤ)) hb)) (var_read x0 e) rfl

end Cert.ReferenceIdeal.RefValue

end
-- ==== Proof.RefTail.lean ====
/-
  The reference's last lines. The new running counts are the old counts plus this step's counts, and what follows the
  three totals is the centroid update, carried as one function of those totals, the running pairs and the running counts.
-/
import proofs.«422991_j82008105550601_2_alg».proof.Proof.RefRead
import proofs.«422991_j82008105550601_2_alg».proof.Proof.Tail
import Idealize.ShloMosaic.Lib.ValueIdx

noncomputable section

namespace Cert.ReferenceIdeal.RefValue

open Idealize.ShloMosaic Idealize.ShloMosaic.ValueIdx Cert.ReferenceIdeal Cert.ReferenceIdeal.Read

variable [Cert.KernelIdeal.Facts]

/-- The new running counts are the old ones plus the counts. -/
theorem amounts_eq (x4 : IVec S4 32) (x5 : IVec S65536 32) :
    val_main_v20 (F := Ideal) x4 x5 = addi x4 (val_main_v19 (F := Ideal) x5) := by
  unfold val_main_v20
  rfl

/-- The reference's last lines are the centroid update of its three totals. -/
theorem buckets_eq (x0 : FVec Ideal S65536x768 .f32) (x3 : FVec Ideal S4x2 .f32) (x4 : IVec S4 32) (x5 : IVec S65536 32) :
    val_main_v63 (F := Ideal) x0 x3 x4 x5
      = Cert.Tail.newBuckets (F := Ideal) (val_main_v19 (F := Ideal) x5) (val_main_v32 (F := Ideal) x0 x5)
          (val_main_v38 (F := Ideal) x0 x5) x3 x4 := by
  -- every stage between the three totals and the joined result is opened once; the totals stay closed
  unfold val_main_v63 val_main_v61 val_main_v62 val_main_v50 val_main_v60 val_main_v47 val_main_v57
    val_main_v41 val_main_v51 val_main_v46 val_main_v56 val_main_v34 val_main_v40 val_main_v45 val_main_v55
    val_main_v43 val_main_v49 val_main_v53 val_main_v59 val_main_v42 val_main_v48 val_main_v52 val_main_v58
    val_main_v33 val_main_v39 val_main_v44 val_main_v54 val_main_cst_9 val_main_cst_11 val_main_cst_12 val_main_cst_13
    val_main_v28 val_main_call0_v1 val_main_call0_v0 val_main_cst_7 val_main_v27 val_main_v23 val_main_v26 val_main_v25
    val_main_v24 val_main_c_6 val_main_v22 val_main_v21 val_main_c_5 val_main_v20
  unfold Cert.Tail.newBuckets
  generalize val_main_v19 (F := Ideal) x5 = added
  generalize val_main_v32 (F := Ideal) x0 x5 = ms
  generalize val_main_v38 (F := Ideal) x0 x5 = vs
  rfl

end Cert.ReferenceIdeal.RefValue

end
-- ==== Proof.RefCount.lean ====
/-
  The reference's count of rows per bucket. The integer scatter starts from a zero vector of four entries and goes
  through the 65536 rows in order, adding one at the row's bucket number when that number, read as a signed integer,
  is 0, 1, 2 or 3, and nothing otherwise; entry k ends at the number of rows whose bucket number is k.
-/
import proofs.«422991_j82008105550601_2_alg».proof.Proof.RefRead
import proofs.«422991_j82008105550601_2_alg».proof.Proof.Spec
import proofs.«422991_j82008105550601_2_alg».proof.Proof.LibSegmentSum
import Mathlib.Data.Fintype.Basic
import Mathlib.Data.Multiset.Filter

noncomputable section

namespace Cert.ReferenceIdeal.RefValue

open Idealize.ShloMosaic Idealize.ShloMosaic.ValueIdx Cert.ReferenceIdeal Cert.ReferenceIdeal.Read

/-! ## An integer scatter-add of ones counts the updates that land at an entry -/

section fold
variable {s si u : Shape} {w w' : Nat} (d : ScatterDims s si u) (idx : IVec si w') (upd : u.Idx → BitVec w)

/-- Going through a list of update positions from an accumulator r, each update a one added at the entry it lands at:
    entry k ends at r k plus the number of positions in the list whose update lands at k. By induction on the list,
    for every accumulator. -/
theorem foldl_addi_ones [DecidableEq s.Idx] (hupd : ∀ j, upd j = 1#w) (l : List (Fin u.numel)) (r : s.Idx → BitVec w)
    (k : s.Idx) :
    l.foldl (fun r n =>
        match d.resultIdx? (u.rowMajor.symm n) idx with
        | some i => fun i' => if i' = i then IntOp.addi (r i) (upd (u.rowMajor.symm n)) else r i'
        | none => r) r k
      = r k + BitVec.ofNat w (l.countP fun n => decide (d.resultIdx? (u.rowMajor.symm n) idx = some k)) := by
  induction l generalizing r with
  | nil => simp
  | cons n l ih =>
    rw [List.foldl_cons, ih]
    cases h : d.resultIdx? (u.rowMajor.symm n) idx with
    | none =>
      show r k + _ = _
      rw [List.countP_cons_of_neg (by simp [h])]
    | some i =>
      show (if k = i then IntOp.addi (r i) (upd (u.rowMajor.symm n)) else r k) + _ = _
      by_cases hk : k = i
      · subst hk
        rw [if_pos rfl, List.countP_cons_of_pos (by simp [h]), hupd, BitVec.ofNat_add]
        show r k + 1#w + _ = _
        rw [BitVec.add_assoc, BitVec.add_comm (1#w)]
      · rw [if_neg hk, List.countP_cons_of_neg (by simp [h]; exact fun e => hk e.symm)]

end fold

/-- Counting along the list of all positions below m is the size of the set of positions counted: the list has each
    position once. -/
theorem countP_finRange_eq_card {m : Nat} (P : Fin m → Prop) [DecidablePred P] :
    (List.finRange m).countP (fun n => decide (P n)) = (Finset.univ.filter P).card := by
  rw [Finset.card_def, Finset.filter_val, ← Multiset.countP_eq_card_filter, Finset.val_univ_fin, Multiset.coe_countP]

/-- Entry k of an integer scatter-add of ones: the operand's entry plus the number of updates that land at k. -/
theorem scatter_addi_ones {s si u : Shape} {w w' : Nat} (d : ScatterDims s si u) (idx : IVec si w') (upd : u.Idx → BitVec w)
    (hupd : ∀ j, upd j = 1#w) (x : s.Idx → BitVec w) (k : s.Idx) :
    Host.scatter d IntOp.addi x idx upd k
      = x k + BitVec.ofNat w (Finset.univ.filter fun n : Fin u.numel => d.resultIdx? (u.rowMajor.symm n) idx = some k).card := by
  unfold Host.scatter
  refine (foldl_addi_ones d idx upd hupd _ x k).trans ?_
  rw [countP_finRange_eq_card]

/-! ## The reference's count -/

/-- The integer scatter of ones counts the rows of each bucket. -/
theorem count_eq (x5 : IVec S65536 32) :
    val_main_v19 (F := Ideal) x5 = Cert.Spec.countAll (fun i => x5 (ix1 i)) := by
  funext y
  -- row e's update lands at entry r exactly when row e's bucket number, read signed, is r
  have hland : ∀ (e : Fin 65536) (r : Fin 4),
      scatter_S4_S65536x1_S65536_n_0_0_1.resultIdx? (ix1 e) (val_main_v18 (F := Ideal) x5) = some (ix1 r)
        ↔ (x5 (ix1 e)).toInt = (r.val : ℤ) := by
    intro e r
    rw [SegmentSum.resultIdx_vals_iff scatter_S4_S65536x1_S65536_n_0_0_1 (val_main_v18 (F := Ideal) x5) e rfl rfl rfl rfl r,
      val_main_v18_apply]
    have hi : idx_main_v18 (ix2 e (0 : Fin 1)) = ix1 e := by
      funext a; match a with | ⟨0, _⟩ => rfl
    rw [hi]
  have hmem : ∀ n : Fin S65536.numel,
      scatter_S4_S65536x1_S65536_n_0_0_1.resultIdx? (S65536.rowMajor.symm n) (val_main_v18 (F := Ideal) x5) = some y
        ↔ (x5 (ix1 ((S65536.rowMajor.symm n) 0))).toInt = ((y 0).val : ℤ) := by
    intro n
    have e1 : scatter_S4_S65536x1_S65536_n_0_0_1.resultIdx? (S65536.rowMajor.symm n) (val_main_v18 (F := Ideal) x5)
        = scatter_S4_S65536x1_S65536_n_0_0_1.resultIdx? (ix1 ((S65536.rowMajor.symm n) 0)) (val_main_v18 (F := Ideal) x5) :=
      congrArg (fun j => scatter_S4_S65536x1_S65536_n_0_0_1.resultIdx? j (val_main_v18 (F := Ideal) x5)) (eq_ix1 _)
    have e2 : (some y : Option S4.Idx) = some (ix1 (y 0)) := congrArg some (eq_ix1 y)
    rw [e1, e2]
    exact hland _ _
  unfold val_main_v19
  rw [scatter_addi_ones _ _ _ (fun j => by rw [val_main_v16_apply, val_main_c_apply]), val_main_v17_apply, val_main_c_4_apply,
    BitVec.zero_add]
  show BitVec.ofNat 32 _ = BitVec.ofNat 32 _
  refine congrArg (BitVec.ofNat 32) ?_
  refine Finset.card_bij (fun n _ => (S65536.rowMajor.symm n) 0) (fun n hn => ?_) (fun n1 _ n2 _ h => ?_) (fun i hi => ?_)
  · exact Finset.mem_filter.mpr ⟨Finset.mem_univ _, (hmem n).mp (Finset.mem_filter.mp hn).2⟩
  · have h' : S65536.rowMajor.symm n1 = S65536.rowMajor.symm n2 :=
      (eq_ix1 _).trans ((congrArg ix1 h).trans (eq_ix1 _).symm)
    exact S65536.rowMajor.symm.injective h'
  · refine ⟨S65536.rowMajor (ix1 i), Finset.mem_filter.mpr ⟨Finset.mem_univ _, (hmem _).mpr ?_⟩, ?_⟩
    · rw [Equiv.symm_apply_apply]
      exact (Finset.mem_filter.mp hi).2
    · show (S65536.rowMajor.symm (S65536.rowMajor (ix1 i))) 0 = i
      rw [Equiv.symm_apply_apply]

end Cert.ReferenceIdeal.RefValue

end
-- ==== Proof.LibReal.lean ====
/-
  Real-valued arrays of extended reals, and the operations that keep them real-valued.

  An array of extended reals is called real-valued when every entry is the image of a real number
  (neither ⊤ nor ⊥). Sums, differences and products of reals are real; a finite sum of reals is
  real; a re-indexing of a real-valued array (broadcast, reshape, slice, gather) is real-valued,
  because each of its entries is an entry of the operand; a contraction, a scatter-add and a reduction
  of real-valued arrays are finite sums of reals; a quotient by a nonzero real and the inverse square
  root of a positive real are real. The last part gives the two positivity facts a batch normalisation
  over message-passing layers needs: a count plus one is at least one, and a mean of squares plus a
  positive offset is positive.
-/
import Idealize.ShloMosaic.PureOps.Ideal
import Idealize.ShloMosaic.PureOps.Ideal.Laws
import Mathlib.Data.EReal.Inv
import Mathlib.Algebra.BigOperators.Group.Finset.Basic
import Mathlib.Algebra.Order.BigOperators.Group.Finset

noncomputable section

namespace Cert.Lib

open Idealize.ShloMosaic
open scoped BigOperators

/-! ### Real-valued arrays -/

/-- An array of extended reals is real-valued when every entry is the image of a real number. -/
def IsReal {ι : Type} (f : ι → EReal) : Prop := ∀ i, ∃ r : ℝ, f i = (r : EReal)

/-- The image of a finite sum of reals is the sum of the images. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A sum of two reals is real. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

/-- A difference of two reals is real. -/
theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

/-- A product of two reals is real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- A finite sum of reals is real. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-- A finite sum of nonnegative reals is a nonnegative real. -/
theorem nonneg_real_sum {ι : Type} (s : Finset ι) (f : ι → EReal)
    (h : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_rfl, by simp⟩
  | insert a s ha ih =>
    obtain ⟨x, hx0, hx⟩ := h a (Finset.mem_insert_self a s)
    obtain ⟨y, hy0, hy⟩ := ih fun i hi => h i (Finset.mem_insert_of_mem hi)
    exact ⟨x + y, add_nonneg hx0 hy0, by rw [Finset.sum_insert ha, hx, hy, EReal.coe_add]⟩

/-- A quotient by a nonzero real is real. -/
theorem real_div {x : EReal} (hx : ∃ r : ℝ, x = (r : EReal)) {n : ℝ} (hn : n ≠ 0) :
    ∃ r : ℝ, Ideal.div x (n : EReal) = (r : EReal) := by
  obtain ⟨a, rfl⟩ := hx
  exact ⟨a * (1 / n), by rw [Ideal.div_coe hn, EReal.coe_mul]⟩

/-- The inverse square root of a positive real is real. -/
theorem real_rsqrt {x : EReal} (hx : ∃ r : ℝ, 0 < r ∧ x = (r : EReal)) : ∃ r : ℝ, Ideal.rsqrt x = (r : EReal) := by
  obtain ⟨a, ha, rfl⟩ := hx
  exact ⟨(Real.sqrt a)⁻¹, by rw [Ideal.rsqrt_coe, if_neg (not_lt.2 ha.le), if_neg ha.ne']⟩

/-- A re-indexing of a real-valued array is real-valued: each entry is an entry of the operand. -/
theorem IsReal.comp {ι κ : Type} {f : ι → EReal} (hf : IsReal f) (g : κ → ι) : IsReal fun j => f (g j) :=
  fun j => hf (g j)

/-- An array all of whose entries are one real number is real-valued. -/
theorem isReal_const {ι : Type} (r : ℝ) : IsReal fun _ : ι => (r : EReal) := fun _ => ⟨r, rfl⟩

/-! ### The float constants zero and one -/

/-- The f32 pattern of +0.0 denotes 0. -/
theorem ofBits_zero : Ideal.ofBits .f32 0x00000000#32 = ((0 : ℝ) : EReal) := by
  simp [Ideal.ofBits, Ideal.ieee]

/-- The f32 pattern 0x3F800000 denotes 1. -/
theorem ofBits_one : Ideal.ofBits .f32 0x3F800000#32 = ((1 : ℝ) : EReal) := by
  simp [Ideal.ofBits, Ideal.ieee, -EReal.coe_mul]; norm_num

/-- A splat of a float constant whose pattern denotes a real number is real-valued. -/
theorem isReal_constant {s : Shape} {b : BitVec 32} {r : ℝ} (hb : Ideal.ofBits .f32 b = (r : EReal)) :
    IsReal (constant (F := Ideal) s .f32 b) := fun _ => ⟨r, hb⟩

/-! ### Pointwise operations -/

section Pointwise
variable {s : Shape} {φ : FTy} {x y : FVec Ideal s φ}

/-- The entrywise sum of real-valued arrays is real-valued. -/
theorem isReal_addf (hx : IsReal x) (hy : IsReal y) : IsReal (addf x y) := fun i => real_add (hx i) (hy i)

/-- The entrywise difference of real-valued arrays is real-valued. -/
theorem isReal_subf (hx : IsReal x) (hy : IsReal y) : IsReal (subf x y) := fun i => real_sub (hx i) (hy i)

/-- The entrywise product of real-valued arrays is real-valued. -/
theorem isReal_mulf (hx : IsReal x) (hy : IsReal y) : IsReal (mulf x y) := fun i => real_mul (hx i) (hy i)

/-- The host's entrywise quotient by a splat of a nonzero real is real-valued. -/
theorem isReal_hostDivf_const (hx : IsReal x) {n : ℝ} (hn : n ≠ 0) (hy : ∀ i, y i = (n : EReal)) :
    IsReal (Host.divf x y) := fun i => by
  show ∃ r : ℝ, Ideal.div (x i) (y i) = (r : EReal)
  rw [hy i]; exact real_div (hx i) hn

/-- The kernel's entrywise quotient by a splat of a nonzero real is real-valued. -/
theorem isReal_divf_const (hx : IsReal x) {n : ℝ} (hn : n ≠ 0) (hy : ∀ i, y i = (n : EReal)) :
    IsReal (divf x y) := fun i => by
  show ∃ r : ℝ, Ideal.div (x i) (y i) = (r : EReal)
  rw [hy i]; exact real_div (hx i) hn

/-- The host's entrywise inverse square root of an array of positive reals is real-valued. -/
theorem isReal_hostRsqrt (hx : ∀ i, ∃ r : ℝ, 0 < r ∧ x i = (r : EReal)) : IsReal (Host.rsqrt x) :=
  fun i => real_rsqrt (hx i)

/-- The kernel's entrywise inverse square root of an array of positive reals is real-valued. -/
theorem isReal_rsqrt (hx : ∀ i, ∃ r : ℝ, 0 < r ∧ x i = (r : EReal)) : IsReal (rsqrt x) :=
  fun i => real_rsqrt (hx i)

end Pointwise

/-! ### Re-indexings: each output entry is an input entry -/

section Reindex
variable {s t : Shape}

/-- A broadcast along named axes of a real-valued array is real-valued. -/
theorem isReal_broadcastInDim {x : s.Idx → EReal} (hx : IsReal x) (dims : Fin s.rank → Fin t.rank)
    (h : s.BroadcastsInDim t dims) : IsReal (broadcastInDim t dims h x) := fun _ => hx _

/-- A trailing-axes broadcast of a real-valued array is real-valued. -/
theorem isReal_broadcastTo {x : s.Idx → EReal} (hx : IsReal x) (h : s.Broadcasts t) :
    IsReal (broadcastTo t x h) := fun _ => hx _

/-- A reshape of a real-valued array is real-valued. -/
theorem isReal_shapeCast {x : s.Idx → EReal} (hx : IsReal x) (h : s.ShapeCasts t) :
    IsReal (shapeCast t x h) := fun _ => hx _

/-- A slice of a real-valued array is real-valued. -/
theorem isReal_extractStridedSlice {x : s.Idx → EReal} (hx : IsReal x) (off : Fin s.rank → Nat)
    (h : s.Slices off t) : IsReal (extractStridedSlice t off x h) := fun _ => hx _

/-- A gather from a real-valued array is real-valued, whatever the (clamped) start indices. -/
theorem isReal_gather {si : Shape} {w : Nat} {x : s.Idx → EReal} (hx : IsReal x) (d : GatherDims s si t)
    (idx : IVec si w) : IsReal (Host.gather d x idx) := fun _ => hx _

end Reindex

/-! ### Contractions, scatter-adds, reductions: finite sums of reals -/

/-- A contraction of real-valued operands onto a real-valued accumulator is real-valued. -/
theorem isReal_matmul {sl sr so : Shape} (d : DotDims sl sr so) {lhs : sl.Idx → EReal} {rhs : sr.Idx → EReal}
    {acc : so.Idx → EReal} (hl : IsReal lhs) (hr : IsReal rhs) (ha : IsReal acc) :
    IsReal (Ideal.matmul d lhs rhs acc) := fun j =>
  real_add (ha j) (real_sum _ _ fun k _ => real_mul (hl _) (hr _))

/-- The kernel's matrix product of real-valued operands onto a real-valued accumulator is real-valued. -/
theorem isReal_matmulOp {sl sr so : Shape} {φ₁ φ₂ : FTy} (d : DotDims sl sr so) (prec : Option ContractPrecision)
    {lhs : FVec Ideal sl φ₁} {rhs : FVec Ideal sr φ₂} {acc : FVec Ideal so .f32}
    (hl : IsReal lhs) (hr : IsReal rhs) (ha : IsReal acc) : IsReal (matmul d prec lhs rhs acc) :=
  isReal_matmul d hl hr ha

/-- The host's dot product of real-valued operands is real-valued. -/
theorem isReal_dotGeneral {sl sr so : Shape} {φ₁ φ₂ : FTy} (d : DotDims sl sr so) (prec : Option ContractPrecision)
    {lhs : FVec Ideal sl φ₁} {rhs : FVec Ideal sr φ₂} (hl : IsReal lhs) (hr : IsReal rhs) :
    IsReal (Host.dotGeneral d prec lhs rhs) :=
  isReal_matmul d hl hr fun _ => ⟨0, rfl⟩

/-- A scatter-add of real-valued updates into a real-valued operand is real-valued: each entry is the
    operand's plus a finite sum of updates. -/
theorem isReal_hostScatterAdd {s si su : Shape} (d : ScatterDims s si su) {w : Nat} {x : s.Idx → EReal}
    (idx : IVec si w) {upd : su.Idx → EReal} (hx : IsReal x) (hu : IsReal upd) :
    IsReal (Ideal.hostScatterAdd d x idx upd) := fun i =>
  real_add (hx i) (real_sum _ _ fun j _ => hu j)

/-- The host's scatter-add operation on real-valued arrays is real-valued. -/
theorem isReal_scatterAdd {s si su : Shape} {φ : FTy} (d : ScatterDims s si su) {w : Nat} {x : FVec Ideal s φ}
    (idx : IVec si w) {upd : FVec Ideal su φ} (hx : IsReal x) (hu : IsReal upd) :
    IsReal (Host.scatterAdd d x idx upd) :=
  isReal_hostScatterAdd d idx hx hu

/-- The host's sum reduction of a real-valued array from a real initial value is real-valued. -/
theorem isReal_hostReduceAdd {s : Shape} {axes : List (Fin s.rank)} {t : Shape} (h : s.ReducesTo axes t)
    {x : s.Idx → EReal} {init : EReal} (hx : IsReal x) (hi : ∃ r : ℝ, init = (r : EReal)) :
    IsReal (Ideal.hostReduceAdd h x init) := fun _ =>
  real_add hi (real_sum _ _ fun i _ => hx i)

/-- The kernel's sum reduction of a real-valued array is real-valued. -/
theorem isReal_reduceAdd {s : Shape} {axes : List (Fin s.rank)} {t : Shape} (h : s.Reduces axes t)
    {x : s.Idx → EReal} (hx : IsReal x) : IsReal (Ideal.reduceAdd h x) := fun _ =>
  real_sum _ _ fun i _ => hx i

/-! ### Two positivity facts -/

/-- A scatter-add of nonnegative reals into nonnegative reals is a nonnegative real at every entry
    (with zeros and ones: the number of updates that land there). -/
theorem hostScatterAdd_nonneg {s si su : Shape} (d : ScatterDims s si su) {w : Nat} {x : s.Idx → EReal}
    (idx : IVec si w) {upd : su.Idx → EReal} (hx : ∀ i, ∃ r : ℝ, 0 ≤ r ∧ x i = (r : EReal))
    (hu : ∀ j, ∃ r : ℝ, 0 ≤ r ∧ upd j = (r : EReal)) (i : s.Idx) :
    ∃ r : ℝ, 0 ≤ r ∧ Ideal.hostScatterAdd d x idx upd i = (r : EReal) := by
  obtain ⟨a, ha0, ha⟩ := hx i
  obtain ⟨b, hb0, hb⟩ := nonneg_real_sum (Finset.univ.filter fun j => d.resultIdx? j idx = some i) upd fun j _ => hu j
  exact ⟨a + b, add_nonneg ha0 hb0, by unfold Ideal.hostScatterAdd; rw [ha, hb, EReal.coe_add]⟩

/-- A count — ones scatter-added into zeros — plus one is a real number at least one, so positive. -/
theorem count_add_one_pos {s si su : Shape} (d : ScatterDims s si su) {w : Nat} (idx : IVec si w) (i : s.Idx) :
    ∃ r : ℝ, 0 < r ∧
      Ideal.hostScatterAdd d (fun _ => ((0 : ℝ) : EReal)) idx (fun _ => ((1 : ℝ) : EReal)) i + ((1 : ℝ) : EReal)
        = (r : EReal) := by
  obtain ⟨a, ha0, ha⟩ := hostScatterAdd_nonneg d idx (x := fun _ => ((0 : ℝ) : EReal))
    (upd := fun _ => ((1 : ℝ) : EReal)) (fun _ => ⟨0, le_rfl, rfl⟩) (fun _ => ⟨1, zero_le_one, rfl⟩) i
  exact ⟨a + 1, by linarith, by rw [ha, EReal.coe_add]⟩

/-- The same over the host's operations as a program composes them: ones scatter-added into zeros, then a splat of
    one added entrywise, is a positive real at every entry, whatever the scatter indices. -/
theorem scatterAdd_ones_add_one_pos {s si su : Shape} (d : ScatterDims s si su) {w : Nat} (idx : IVec si w)
    (x one : FVec Ideal s .f32) (upd : FVec Ideal su .f32) (hx : ∀ i, x i = ((0 : ℝ) : EReal))
    (hu : ∀ j, upd j = ((1 : ℝ) : EReal)) (h1 : ∀ i, one i = ((1 : ℝ) : EReal)) (i : s.Idx) :
    ∃ r : ℝ, 0 < r ∧ addf (Host.scatterAdd d x idx upd) one i = (r : EReal) := by
  obtain ⟨a, ha0, ha⟩ := hostScatterAdd_nonneg d idx (x := x) (upd := upd) (fun i => ⟨0, le_rfl, hx i⟩)
    (fun j => ⟨1, zero_le_one, hu j⟩) i
  refine ⟨a + 1, by linarith, ?_⟩
  show Ideal.hostScatterAdd d x idx upd i + one i = _
  rw [ha, h1 i, EReal.coe_add]

/-- For real a_i, a real centre μ, a positive real N and a positive real ε, the mean of the squared
    deviations plus ε, ((Σ_i (a_i − μ)·(a_i − μ)) / N) + ε, is a positive real. -/
theorem meanSq_add_eps_pos {ι : Type} [Fintype ι] (a : ι → ℝ) (μ N ε : ℝ) (hN : 0 < N) (hε : 0 < ε) :
    ∃ r : ℝ, 0 < r ∧
      Ideal.div (∑ i, ((a i : EReal) - (μ : EReal)) * ((a i : EReal) - (μ : EReal))) (N : EReal) + (ε : EReal)
        = (r : EReal) := by
  refine ⟨(∑ i, (a i - μ) * (a i - μ)) * (1 / N) + ε, ?_, ?_⟩
  · have h1 : 0 ≤ ∑ i, (a i - μ) * (a i - μ) := Finset.sum_nonneg fun i _ => mul_self_nonneg _
    have h2 : 0 ≤ (∑ i, (a i - μ) * (a i - μ)) * (1 / N) := mul_nonneg h1 (by positivity)
    linarith
  · have hs : (∑ i, ((a i : EReal) - (μ : EReal)) * ((a i : EReal) - (μ : EReal)))
        = ((∑ i, (a i - μ) * (a i - μ) : ℝ) : EReal) := by
      rw [coe_sum]; exact Finset.sum_congr rfl fun i _ => by rw [EReal.coe_mul, EReal.coe_sub]
    rw [hs, Ideal.div_coe hN.ne', ← EReal.coe_mul, ← EReal.coe_add]

/-- The variance offset ε, the f32 pattern 0x3727C5AC (the float nearest 1e-5), denotes the positive real
    10995116 · 2⁻⁴⁰. -/
theorem ofBits_eps : Ideal.ofBits .f32 0x3727C5AC#32 = (((10995116 : ℝ) * (2 : ℝ) ^ (-40 : ℤ) : ℝ) : EReal) := by
  simp [Ideal.ofBits, Ideal.ieee, -EReal.coe_mul]

/-- The value of ε is positive. -/
theorem eps_pos : (0 : ℝ) < (10995116 : ℝ) * (2 : ℝ) ^ (-40 : ℤ) := by positivity

end Cert.Lib

end
-- ==== Proof.Bridge.lean ====
/-
  The two forms of the output agree on real inputs whose bucket numbers are 0, 1, 2 or 3, and the per-bucket totals
  taken tile by tile are the totals taken over all rows at once.
-/
import proofs.«422991_j82008105550601_2_alg».proof.Proof.Spec
import proofs.«422991_j82008105550601_2_alg».proof.Proof.LibReal
import Idealize.ShloMosaic.PureOps
import Mathlib.Algebra.BigOperators.Ring.Finset
import Mathlib.Data.Fintype.BigOperators
import Mathlib.Algebra.Order.Floor.Ring

noncomputable section

namespace Cert.Bridge

open Idealize.ShloMosaic Idealize.ShloMosaic.ValueIdx Cert.Spec

/-! ### The two constants -/

/-- The f32 pattern 0x44400000 denotes 768. -/
theorem c768_eq : c768 = ((768 : ℝ) : EReal) := by
  show Ideal.ofBits .f32 0x44400000#32 = _
  simp [Ideal.ofBits, Ideal.ieee, -EReal.coe_mul]; norm_num

/-- The offset is the image of a positive real. -/
theorem eps_eq : eps = (((10995116 : ℝ) * (2 : ℝ) ^ (-40 : ℤ) : ℝ) : EReal) := Cert.Lib.ofBits_eps

/-! ### The bucket number as a table row -/

/-- A bucket number 0, 1, 2 or 3 selects the table row of that number: it is not negative, so nothing is added, and it
    is at most 3, so the clamp leaves it. -/
theorem tableRow_eq (v : BitVec 32) (j : Fin 4) (h : v.toInt = (j.val : ℤ)) : tableRow v = j := by
  unfold tableRow
  have h0 : ¬ v.toInt < 0 := by omega
  refine Fin.ext ?_
  show min (if v.toInt < 0 then v + 4#32 else v).toInt.toNat 3 = j.val
  rw [if_neg h0, h, Int.toNat_natCast]
  omega

/-- With the row's bucket number equal to j, the indicator of bucket j' is 1 at j' = j and 0 elsewhere. -/
theorem ind_eq {N : ℕ} (bucket : Fin N → BitVec 32) (i : Fin N) (j j' : Fin 4) (h : (bucket i).toInt = (j.val : ℤ)) :
    ind bucket i j' = if j = j' then 1 else 0 := by
  unfold ind
  rw [h]
  congr 1
  exact propext ⟨fun e => Fin.ext (by exact_mod_cast e), fun e => by rw [e]⟩

/-- Four values, each times the indicator of its bucket and added up from zero, leave the value of the row's own
    bucket: 1 · v = v, 0 · v = 0, 0 + v = v and v + 0 = v hold for every extended real v. -/
theorem masked_sum {N : ℕ} (bucket : Fin N → BitVec 32) (i : Fin N) (j : Fin 4) (h : (bucket i).toInt = (j.val : ℤ))
    (A : Fin 4 → EReal) :
    0 + ind bucket i 0 * A 0 + ind bucket i 1 * A 1 + ind bucket i 2 * A 2 + ind bucket i 3 * A 3 = A j := by
  rw [ind_eq bucket i j 0 h, ind_eq bucket i j 1 h, ind_eq bucket i j 2 h, ind_eq bucket i j 3 h]
  fin_cases j <;> simp

/-! ### The inverse square root against the quotient by the square root -/

/-- On a real-valued array the mean of a row is real. -/
theorem mean_real {N : ℕ} (x : FVec Ideal ⟨2, ![N, 768]⟩ .f32) (hx : Cert.Lib.IsReal x) (i : Fin N) :
    ∃ μ : ℝ, mean x i = (μ : EReal) := by
  unfold mean
  rw [c768_eq]
  exact Cert.Lib.real_div (Cert.Lib.real_sum _ _ fun k _ => hx (ix2 i k)) (by norm_num)

/-- On a real-valued array the variance of a row plus the offset is a positive real v, and then both the product with
    the inverse square root of v and the quotient by the square root of v are the product with the real 1 / √v. -/
theorem norm_eq {N : ℕ} (x : FVec Ideal ⟨2, ![N, 768]⟩ .f32) (hx : Cert.Lib.IsReal x) (i : Fin N) (k : Fin 768) :
    dev x i k * Ideal.rsqrt (var x i + eps) = Ideal.div (dev x i k) (Ideal.sqrt (var x i + eps)) := by
  choose a ha using fun k => hx (ix2 i k)
  obtain ⟨μ, hμ⟩ := mean_real x hx i
  have hdev : ∀ k, dev x i k = (a k : EReal) - (μ : EReal) := fun k => by unfold dev; rw [ha k, hμ]
  obtain ⟨v, hv0, hv⟩ := Cert.Lib.meanSq_add_eps_pos a μ 768 _ (by norm_num) Cert.Lib.eps_pos
  have hvar : var x i + eps = (v : EReal) := by
    unfold var
    simp only [hdev]
    rw [c768_eq, eps_eq]
    exact hv
  have hs : Real.sqrt v ≠ 0 := (Real.sqrt_pos.2 hv0).ne'
  rw [hvar, Ideal.rsqrt_coe, Ideal.sqrt_coe, if_neg (not_lt.2 hv0.le), if_neg hv0.ne', if_neg (not_lt.2 hv0.le),
    Ideal.div_coe hs, one_div]

/-- The masked form and the gathered form agree at every entry. -/
theorem maskedAt_eq_gatheredAt (x : FVec Ideal ⟨2, ![65536, 768]⟩ .f32) (w b : FVec Ideal ⟨2, ![4, 768]⟩ .f32)
    (bucket : Fin 65536 → BitVec 32) (hx : Cert.Lib.IsReal x)
    (hb : ∀ i, 0 ≤ (bucket i).toInt ∧ (bucket i).toInt < 4) (i : Fin 65536) (k : Fin 768) :
    maskedAt x w b bucket i k = gatheredAt x w b bucket i k := by
  obtain ⟨h0, h4⟩ := hb i
  obtain ⟨j, hj⟩ : ∃ j : Fin 4, (bucket i).toInt = (j.val : ℤ) :=
    ⟨⟨(bucket i).toInt.toNat, by omega⟩, (Int.toNat_of_nonneg h0).symm⟩
  have hm : maskedAt x w b bucket i k = affine x w b i k j :=
    masked_sum bucket i j hj (fun j' => affine x w b i k j')
  rw [hm]
  unfold gatheredAt affine
  rw [tableRow_eq _ j hj, norm_eq x hx i k]

/-! ### Rows of the array as (tile, row in the tile) -/

/-- A row number below 65536 is 2048 · t + r for exactly one tile t below 32 and one r below 2048. -/
def globEquiv : Fin 32 × Fin 2048 ≃ Fin 65536 where
  toFun p := glob p.1 p.2
  invFun i := (⟨i.val / 2048, by omega⟩, ⟨i.val % 2048, by omega⟩)
  left_inv p := by
    obtain ⟨t, r⟩ := p
    refine Prod.ext (Fin.ext ?_) (Fin.ext ?_)
    · show (t.val * 2048 + r.val) / 2048 = t.val
      omega
    · show (t.val * 2048 + r.val) % 2048 = r.val
      omega
  right_inv i := by
    refine Fin.ext ?_
    show i.val / 2048 * 2048 + i.val % 2048 = i.val
    omega

/-- A sum over the tiles of sums over a tile's rows is the sum over all rows, in any commutative monoid. -/
theorem sum_glob {M : Type} [AddCommMonoid M] (f : Fin 65536 → M) :
    ∑ t : Fin 32, ∑ r : Fin 2048, f (glob t r) = ∑ i : Fin 65536, f i := by
  rw [← Fintype.sum_prod_type' (fun t r => f (glob t r))]
  exact Equiv.sum_comp globEquiv f

/-! ### The indicator -/

/-- An indicator times a value is the value or zero; no finiteness is needed, since 0 · v = 0 for every extended
    real v. -/
theorem ind_mul {N : ℕ} (bucket : Fin N → BitVec 32) (i : Fin N) (j : Fin 4) (v : EReal) :
    ind bucket i j * v = if (bucket i).toInt = (j.val : ℤ) then v else 0 := by
  unfold ind
  split_ifs
  · exact one_mul v
  · exact zero_mul v

/-- The indicator as the image of the real number 1 or 0. -/
theorem ind_coe {N : ℕ} (bucket : Fin N → BitVec 32) (i : Fin N) (j : Fin 4) :
    ind bucket i j = (((if (bucket i).toInt = (j.val : ℤ) then 1 else 0 : ℝ)) : EReal) := by
  unfold ind
  split_ifs
  · exact EReal.coe_one.symm
  · exact EReal.coe_zero.symm

/-- The indicators of one bucket, summed tile by tile, are the image of the number of rows in that bucket. -/
theorem sum_ind (bucket : Fin 65536 → BitVec 32) (j : Fin 4) :
    ∑ t : Fin 32, ∑ r : Fin 2048, ind bucket (glob t r) j
      = (((Finset.univ.filter fun i : Fin 65536 => (bucket i).toInt = (j.val : ℤ)).card : ℝ) : EReal) := by
  rw [sum_glob (fun i => ind bucket i j)]
  simp only [ind_coe]
  rw [← Cert.Lib.coe_sum, Finset.sum_boole]

/-- The masked values of one bucket, summed tile by tile, are the sum over all rows of that bucket's values. -/
theorem sum_ind_mul (bucket : Fin 65536 → BitVec 32) (g : Fin 65536 → EReal) (j : Fin 4) :
    ∑ t : Fin 32, ∑ r : Fin 2048, ind bucket (glob t r) j * g (glob t r)
      = ∑ i : Fin 65536, if (bucket i).toInt = (j.val : ℤ) then g i else 0 := by
  rw [sum_glob (fun i => ind bucket i j * g i)]
  exact Finset.sum_congr rfl fun i _ => ind_mul bucket i j (g i)

/-! ### Rounding and converting a small whole number -/

/-- A whole number rounds to itself. -/
theorem roundHalfEven_natCast (n : ℕ) : Ideal.roundHalfEven (n : ℝ) = (n : ℤ) := by
  unfold Ideal.roundHalfEven
  simp only [Int.floor_natCast, Int.cast_natCast, sub_self]
  rw [if_pos (by norm_num)]

/-- A whole number of at most 65536, rounded and converted to a signed 32-bit integer, is that number. -/
theorem fptosi_round_natCast (n : ℕ) (hn : n ≤ 65536) :
    Ideal.fptosi 32 (Ideal.liftRound Ideal.roundHalfEven (((n : ℝ)) : EReal)) = BitVec.ofNat 32 n := by
  rw [Ideal.liftRound_coe, roundHalfEven_natCast, Ideal.fptosi, Ideal.toIntClamped_coe]
  have h0 : (0 : ℝ) ≤ (((n : ℤ)) : ℝ) := by positivity
  rw [if_pos h0, Int.floor_intCast]
  have h1 : max (-((2 ^ (32 - 1) : ℕ) : ℤ)) (min (((2 ^ (32 - 1) : ℕ) : ℤ) - 1) (n : ℤ)) = (n : ℤ) := by
    have : ((2 ^ (32 - 1) : ℕ) : ℤ) = 2147483648 := by norm_num
    rw [this]; omega
  rw [h1, BitVec.ofInt_natCast]

/-! ### The four facts -/

/-- On a real-valued array, with every bucket number in 0 … 3, the sum of the four masked affine maps is the affine
    map of the row's own bucket, and the product with the inverse square root is the quotient by the square root. -/
theorem masked_eq_gathered (x : FVec Ideal ⟨2, ![65536, 768]⟩ .f32) (w b : FVec Ideal ⟨2, ![4, 768]⟩ .f32)
    (bucket : Fin 65536 → BitVec 32) (hx : Cert.Lib.IsReal x)
    (hb : ∀ i, 0 ≤ (bucket i).toInt ∧ (bucket i).toInt < 4) :
    masked x w b bucket = gathered x w b bucket := by
  funext y
  exact maskedAt_eq_gatheredAt x w b bucket hx hb (y 0) (y 1)

/-- The tile-by-tile count, a whole number of at most 65536, rounded and converted to a 32-bit integer, is the count
    over all rows. -/
theorem count_eq (bucket : Fin 65536 → BitVec 32) :
    fptosi 32 (Host.roundeven (F := Ideal) (countTiled bucket)) = countAll bucket := by
  funext y
  show Ideal.fptosi 32 (Ideal.liftRound Ideal.roundHalfEven (∑ t : Fin 32, ∑ r : Fin 2048, ind bucket (glob t r) (y 0)))
    = BitVec.ofNat 32 (Finset.univ.filter fun i : Fin 65536 => (bucket i).toInt = ((y 0).val : ℤ)).card
  rw [sum_ind bucket (y 0)]
  refine fptosi_round_natCast _ ?_
  exact (Finset.card_le_univ _).trans (by simp)

/-- Summing tile by tile is summing over all rows. -/
theorem meanSum_eq (x : FVec Ideal ⟨2, ![65536, 768]⟩ .f32) (bucket : Fin 65536 → BitVec 32) :
    meanSumTiled x bucket = meanSumAll x bucket := by
  funext y
  exact sum_ind_mul bucket (mean x) (y 0)

theorem varSum_eq (x : FVec Ideal ⟨2, ![65536, 768]⟩ .f32) (bucket : Fin 65536 → BitVec 32) :
    varSumTiled x bucket = varSumAll x bucket := by
  funext y
  exact sum_ind_mul bucket (var x) (y 0)

end Cert.Bridge

end
-- ==== Proof.PreDecode.lean ====
/-
  What the precondition says, read off its printed form: every entry of the input array is a real number (its absolute
  value is below +∞), and every bucket number, read as a signed integer, is 0, 1, 2 or 3.
-/
import proofs.«422991_j82008105550601_2_alg».proof.Pre_finite_inputs
import proofs.«422991_j82008105550601_2_alg».proof.Proof.LibReal
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx Cert.Pre_finite_inputs

variable [Cert.Pre_finite_inputs.Facts]

/-- The shape of a scalar has exactly one index. -/
instance instSubsingletonScalarIdx : Subsingleton S_.Idx := ⟨fun a b => funext fun d => d.elim0⟩

/-- The pattern 0x7F800000 (sign 0, exponent all ones, fraction 0) denotes +∞. -/
theorem ofBits_inf : Ideal.ofBits .f32 0x7F800000#32 = (⊤ : EReal) := by simp [Ideal.ofBits, Ideal.ieee]

/-- An extended real whose absolute value max x (-x) is below +∞ is a real number: at ⊤ the maximum is ⊤, and at ⊥
    it is -⊥ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The printed test at one element: the comparison "|x| below the value of 0x7F800000" being true says x is real. -/
theorem real_of_test (x : Ideal .f32)
    (h : FloatOps.cmpf (F := Ideal) .olt (FloatOps.hostAbsf x) (FloatOps.ofBits .f32 0x7F800000#32) = 1#1) :
    ∃ r : ℝ, x = (r : EReal) := by
  have h' : BitVec.ofBool (decide (max x (-x) < Ideal.ofBits .f32 0x7F800000#32)) = 1#1 := h
  rw [ofBits_inf, StableHlo.Predicate.ofBool_eq_one_iff, decide_eq_true_eq] at h'
  exact real_of_abs_lt_top x h'

theorem of_fn (x0 : FVec Ideal S65536x768 .f32) (x1 x2 : FVec Ideal S4x768 .f32) (x3 : FVec Ideal S4x2 .f32)
    (x4 : IVec S4 32) (x5 : IVec S65536 32)
    (h : Cert.Pre_finite_inputs.fn (F := Ideal) x0 x1 x2 x3 x4 x5 = fun _ => 1#1) :
    Cert.Lib.IsReal x0 ∧ ∀ i : Fin 65536, 0 ≤ (x5 (ix1 i)).toInt ∧ (x5 (ix1 i)).toInt < 4 := by
  -- the predicate at its one index: a conjunction of five tests
  have e := congrFun h ValueIdx.ix0
  dsimp only [Cert.Pre_finite_inputs.fn, Cert.Pre_finite_inputs.fn_part1] at e
  obtain ⟨e1234, e5⟩ := IntOp.andi_eq_one.1 e
  obtain ⟨e123, -⟩ := IntOp.andi_eq_one.1 e1234
  obtain ⟨e12, -⟩ := IntOp.andi_eq_one.1 e123
  obtain ⟨e1, -⟩ := IntOp.andi_eq_one.1 e12
  refine ⟨fun i => ?_, fun i => ?_⟩
  · -- the first test holds at every entry of the array
    exact real_of_test (x0 i) (Host.reduce_andi_all _ _ _ _ _ e1 i)
  · -- the last test holds at every bucket number: 0 ≤ x5[i] and x5[i] < 4, signed
    obtain ⟨h0, h4⟩ := IntOp.andi_eq_one.1 (Host.reduce_andi_all _ _ _ _ _ e5 (ix1 i))
    have h0' : (0#32 : BitVec 32).toInt ≤ (x5 (ix1 i)).toInt := IntOp.cmpi_sge.1 h0
    have h4' : (x5 (ix1 i)).toInt < (4#32 : BitVec 32).toInt := IntOp.cmpi_slt.1 h4
    rw [show (0#32 : BitVec 32).toInt = 0 from by decide] at h0'
    rw [show (4#32 : BitVec 32).toInt = 4 from by decide] at h4'
    exact ⟨h0', h4'⟩

end Cert.PreDecode

end
-- ==== Proof.lean ====
/-
  Layer normalisation with a per-bucket affine map and per-bucket running statistics: the tiled kernel against the
  plain reference, over the extended reals, for real inputs whose bucket numbers are 0, 1, 2 or 3.

  The kernel writes, for each row, the sum over the four buckets of (indicator of the bucket) · (affine map of the
  bucket applied to the normalised row), the normalisation a product with the inverse square root; the reference
  divides by the square root and reads the affine map's rows from the tables at the row's bucket number. With the
  bucket number in range one indicator is 1 and the others 0, and on a real row with positive variance-plus-offset the
  product with the inverse square root is the quotient by the square root (Bridge.masked_eq_gathered).
  The per-bucket totals are taken tile by tile in the kernel (32 tiles of 2048 rows, summed by the lines after the
  call) and by three scatters in the reference; both are the same finite sums (Bridge.count_eq, meanSum_eq, varSum_eq).
  Both programs then apply the same centroid update to those totals (Tail.newBuckets), carried as one function.
-/
import proofs.«422991_j82008105550601_2_alg».proof.Defs
import proofs.«422991_j82008105550601_2_alg».proof.Proof.Gen.Kernel
import proofs.«422991_j82008105550601_2_alg».proof.Proof.Gen.Kernel.Frame
import proofs.«422991_j82008105550601_2_alg».proof.Proof.Gen.KernelIdeal
import proofs.«422991_j82008105550601_2_alg».proof.Proof.Gen.KernelIdeal.Frame
import proofs.«422991_j82008105550601_2_alg».proof.Proof.Gen.ReferenceIdeal
import proofs.«422991_j82008105550601_2_alg».proof.Proof.Gen.Pre_finite_inputs
import proofs.«422991_j82008105550601_2_alg».proof.Proof.KTail
import proofs.«422991_j82008105550601_2_alg».proof.Proof.RefOut
import proofs.«422991_j82008105550601_2_alg».proof.Proof.RefTotals
import proofs.«422991_j82008105550601_2_alg».proof.Proof.RefTail
import proofs.«422991_j82008105550601_2_alg».proof.Proof.RefCount
import proofs.«422991_j82008105550601_2_alg».proof.Proof.Bridge
import proofs.«422991_j82008105550601_2_alg».proof.Proof.PreDecode
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

theorem algebraic : Cert.algebraic_KernelIdeal_ReferenceIdeal := by
  intro m ρ m' ρ' hpre hagree
  refine ⟨_, _, _, Cert.KernelIdeal.KVal.run m ρ, ?_⟩
  refine (θ_run Cert.ReferenceIdeal.defs _ _).mono (fun _ h c => ?_) (Cert.ReferenceIdeal.Value.run (F := Ideal) m' ρ')
  obtain ⟨hout, hbk, hamt, hargs⟩ := h c
  obtain ⟨a0, a1, a2, a3, a4, a5⟩ := hagree c
  obtain ⟨hx, hb⟩ := Cert.PreDecode.of_fn _ _ _ _ _ _ (hpre c)
  refine ⟨hout.trans ?_, hbk.trans ?_, hamt.trans ?_, hargs⟩
  · rw [Cert.ReferenceIdeal.Read.val_main_v79_eq, Cert.ReferenceIdeal.RefValue.out_eq, a0, a1, a2, a5]
    exact (Cert.Bridge.masked_eq_gathered _ _ _ _ hx hb).symm
  · rw [Cert.ReferenceIdeal.Read.val_main_v63_eq, Cert.ReferenceIdeal.RefValue.buckets_eq,
      Cert.ReferenceIdeal.RefValue.count_eq, Cert.ReferenceIdeal.RefValue.meanSum_eq,
      Cert.ReferenceIdeal.RefValue.varSum_eq, a0, a3, a4, a5,
      ← Cert.Bridge.count_eq, ← Cert.Bridge.meanSum_eq, ← Cert.Bridge.varSum_eq]
  · rw [Cert.ReferenceIdeal.Read.val_main_v20_eq, Cert.ReferenceIdeal.RefValue.amounts_eq,
      Cert.ReferenceIdeal.RefValue.count_eq, a4, a5, ← Cert.Bridge.count_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
